-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S16 : Shape := ⟨1, ![16]⟩
abbrev S128x512 : Shape := ⟨2, ![128, 512]⟩
abbrev S1x4x128 : Shape := ⟨3, ![1, 4, 128]⟩
abbrev S512 : Shape := ⟨1, ![512]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S128x512 : S_.BroadcastsInDim S128x512 (![] : Fin 0 → Fin S128x512.rank)
  reducesTo_S128x512_S_d0_1 : S128x512.ReducesTo [0, 1] S_
  bcast_S_S1x4x128 : S_.BroadcastsInDim S1x4x128 (![] : Fin 0 → Fin S1x4x128.rank)
  reducesTo_S1x4x128_S_d0_1_2 : S1x4x128.ReducesTo [0, 1, 2] S_
  bcast_S_S512 : S_.BroadcastsInDim S512 (![] : Fin 0 → Fin S512.rank)
  reducesTo_S512_S_d0 : S512.ReducesTo [0] S_
  bcast_S_S16 : S_.BroadcastsInDim S16 (![] : Fin 0 → Fin S16.rank)
  reducesTo_S16_S_d0 : S16.ReducesTo [0] S_

variable [Facts]

def fn_part1 {F : FTy → Type} [FloatOps F] (main_arg1 : IVec S16 32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_c_6 : IVec S_ 32 := constantI S_ 32 1#32
  let main_v19 : IVec S16 32 := broadcastInDim S16 ![] bcast_S_S16 main_c_6
  let main_v20 : IVec S16 1 := cmpi .sge main_arg1 main_v19
  let main_c_7 : IVec S_ 1 := constantI S_ 1 1#1
  let main_v21 : IVec S_ 1 := (fun x v => Host.reduce IntOp.andi x v reducesTo_S16_S_d0 h_S_) main_v20 main_c_7
  let main_v22 : IVec S_ 1 := andi main_v18 main_v21
  main_v22

def fn {F : FTy → Type} [FloatOps F] (main_arg0 : FVec F S16x4096x128 .f32) (main_arg1 : IVec S16 32) (main_arg2 : FVec F S128x512 .f32) (main_arg3 : FVec F S1x4x128 .f32) (main_arg4 : FVec F S512 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S1x4x128 .f32 := Host.absf main_arg3
  let main_cst_2 : FVec F S_ .f32 := constant S_ .f32 0x7F800000#32
  let main_v10 : FVec F S1x4x128 .f32 := broadcastInDim S1x4x128 ![] bcast_S_S1x4x128 main_cst_2
  let main_v11 : IVec S1x4x128 1 := cmpf .olt main_v9 main_v10
  let main_c_3 : IVec S_ 1 := constantI S_ 1 1#1
  let main_v12 : IVec S_ 1 := (fun x v => Host.reduce IntOp.andi x v reducesTo_S1x4x128_S_d0_1_2 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_v13 main_v16
-- ==== Kernel.lean ====
abbrev S16x4096x128 : Shape := ⟨3, ![16, 4096, 128]⟩
abbrev S16 : Shape := ⟨1, ![16]⟩
abbrev S128x512 : Shape := ⟨2, ![128, 512]⟩
abbrev S1x4x128 : Shape := ⟨3, ![1, 4, 128]⟩
abbrev S512 : Shape := ⟨1, ![512]⟩
abbrev S512x1 : Shape := ⟨2, ![512, 1]⟩
abbrev S_ : Shape := ⟨0, ![]⟩
abbrev S4 : Shape := ⟨1, ![4]⟩
abbrev S1x4 : Shape := ⟨2, ![1, 4]⟩
abbrev S512x4 : Shape := ⟨2, ![512, 4]⟩
abbrev S1x512 : Shape := ⟨2, ![1, 512]⟩
abbrev S16x1x512 : Shape := ⟨3, ![16, 1, 512]⟩
abbrev S16x512 : Shape := ⟨2, ![16, 512]⟩
abbrev S1x4096x128 : Shape := ⟨3, ![1, 4096, 128]⟩
abbrev S1x1x512 : Shape := ⟨3, ![1, 1, 512]⟩
abbrev S1 : Shape := ⟨1, ![1]⟩
abbrev S4096x128 : Shape := ⟨2, ![4096, 128]⟩
abbrev S128x4 : Shape := ⟨2, ![128, 4]⟩
abbrev S4096x4 : Shape := ⟨2, ![4096, 4]⟩
abbrev S4x128 : Shape := ⟨2, ![4, 128]⟩
abbrev S4x512 : Shape := ⟨2, ![4, 512]⟩

abbrev nBuf : Space → Nat
  | .hbm => 40
  | .vmem => 7
  | .smem => 1
  | _ => 0

abbrev bufTy : (tb : Table) → Fin (tcTables nBuf tb) → BufTy
  | .hbm, ⟨0, _⟩ => ⟨S16x4096x128, .f32⟩
  | .hbm, ⟨1, _⟩ => ⟨S16, .i32⟩
  | .hbm, ⟨2, _⟩ => ⟨S128x512, .f32⟩
  | .hbm, ⟨3, _⟩ => ⟨S1x4x128, .f32⟩
  | .hbm, ⟨4, _⟩ => ⟨S512, .f32⟩
  | .hbm, ⟨5, _⟩ => ⟨S512, .f32⟩
  | .hbm, ⟨6, _⟩ => ⟨S512, .i32⟩
  | .hbm, ⟨7, _⟩ => ⟨S512x1, .i32⟩
  | .hbm, ⟨8, _⟩ => ⟨S_, .i32⟩
  | .hbm, ⟨9, _⟩ => ⟨S_, .i32⟩
  | .hbm, ⟨10, _⟩ => ⟨S512x1, .i32⟩
  | .hbm, ⟨11, _⟩ => ⟨S512x1, .i32⟩
  | .hbm, ⟨12, _⟩ => ⟨S512x1, .i32⟩
  | .hbm, ⟨13, _⟩ => ⟨S_, .i32⟩
  | .hbm, ⟨14, _⟩ => ⟨S512x1, .i32⟩
  | .hbm, ⟨15, _⟩ => ⟨S512x1, .i1⟩
  | .hbm, ⟨16, _⟩ => ⟨S512x1, .i32⟩
  | .hbm, ⟨17, _⟩ => ⟨S512x1, .i32⟩
  | .hbm, ⟨18, _⟩ => ⟨S_, .i32⟩
  | .hbm, ⟨19, _⟩ => ⟨S512x1, .i32⟩
  | .hbm, ⟨20, _⟩ => ⟨S512x1, .i1⟩
  | .hbm, ⟨21, _⟩ => ⟨S512x1, .i1⟩
  | .hbm, ⟨22, _⟩ => ⟨S_, .i32⟩
  | .hbm, ⟨23, _⟩ => ⟨S512x1, .i32⟩
  | .hbm, ⟨24, _⟩ => ⟨S512x1, .i32⟩
  | .hbm, ⟨25, _⟩ => ⟨S512x1, .i32⟩
  | .hbm, ⟨26, _⟩ => ⟨S4, .i32⟩
  | .hbm, ⟨27, _⟩ => ⟨S1x4, .i32⟩
  | .hbm, ⟨28, _⟩ => ⟨S512x4, .i32⟩
  | .hbm, ⟨29, _⟩ => ⟨S512x4, .i32⟩
  | .hbm, ⟨30, _⟩ => ⟨S512x4, .i1⟩
  | .hbm, ⟨31, _⟩ => ⟨S512x1, .f32⟩
  | .hbm, ⟨32, _⟩ => ⟨S_, .f32⟩
  | .hbm, ⟨33, _⟩ => ⟨S_, .f32⟩
  | .hbm, ⟨34, _⟩ => ⟨S512x4, .f32⟩
  | .hbm, ⟨35, _⟩ => ⟨S512x4, .f32⟩
  | .hbm, ⟨36, _⟩ => ⟨S512x4, .f32⟩
  | .hbm, ⟨37, _⟩ => ⟨S1x512, .f32⟩
  | .hbm, ⟨38, _⟩ => ⟨S16x1x512, .f32⟩
  | .hbm, ⟨39, _⟩ => ⟨S16x512, .f32⟩
  | .local _ .vmem, ⟨0, _⟩ => ⟨S1x4096x128, .f32⟩
  | .local _ .vmem, ⟨1, _⟩ => ⟨S1x4096x128, .f32⟩
  | .local _ .vmem, ⟨2, _⟩ => ⟨S128x512, .f32⟩
  | .local _ .vmem, ⟨3, _⟩ => ⟨S512x4, .f32⟩
  | .local _ .vmem, ⟨4, _⟩ => ⟨S1x512, .f32⟩
  | .local _ .vmem, ⟨5, _⟩ => ⟨S1x1x512, .f32⟩
  | .local _ .vmem, ⟨6, _⟩ => ⟨S1x1x512, .f32⟩
  | .local _ .smem, ⟨0, _⟩ => ⟨S16, .i32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_c : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_c : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_call0_c_0 : Ref sig .tc := ⟨.hbm, 22, rfl⟩
abbrev main_call0_call0_v12 : Ref sig .tc := ⟨.hbm, 23, rfl⟩
abbrev main_call0_call0_v13 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_cst : Ref sig .tc := ⟨.hbm, 32, rfl⟩
abbrev main_call0_call1_v0 : Ref sig .tc := ⟨.hbm, 33, rfl⟩
abbrev main_call0_call1_v1 : Ref sig .tc := ⟨.hbm, 34, rfl⟩
abbrev main_call0_call1_v2 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_v0 : Ref sig .tc := ⟨.hbm, 39, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S1x4x128_S512 : S1x4x128.ShapeCasts S512
  bcast_S512_S512x1_0 : S512.BroadcastsInDim S512x1 (![0] : Fin 1 → Fin S512x1.rank)
  bcast_S_S512x1 : S_.BroadcastsInDim S512x1 (![] : Fin 0 → Fin S512x1.rank)
  bcast_S4_S1x4_1 : S4.BroadcastsInDim S1x4 (![1] : Fin 1 → Fin S1x4.rank)
  bcast_S512x1_S512x4_0_1 : S512x1.BroadcastsInDim S512x4 (![0, 1] : Fin 2 → Fin S512x4.rank)
  bcast_S1x4_S512x4_0_1 : S1x4.BroadcastsInDim S512x4 (![0, 1] : Fin 2 → Fin S512x4.rank)
  bcast_S_S512x4 : S_.BroadcastsInDim S512x4 (![] : Fin 0 → Fin S512x4.rank)
  shapeCasts_S512_S1x512 : S512.ShapeCasts S1x512
  shapeCasts_S16x1x512_S16x512 : S16x1x512.ShapeCasts S16x512
  numel1_S1 : S1.numel = 1
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S128x512_S128x512_0_0 : ∀ a, (![0, 0] : Fin 2 → Nat) a + S128x512.size a ≤ S128x512.size a
  h_S128x512 : 0 < S128x512.numel
  inb_S512x4_S512x4_0_0 : ∀ a, (![0, 0] : Fin 2 → Nat) a + S512x4.size a ≤ S512x4.size a
  h_S512x4 : 0 < S512x4.numel
  shapeCasts_S512x4_S512x4 : S512x4.ShapeCasts S512x4
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x4_S4096x4 : S1x4.Broadcasts S4096x4
  iota_S4096x4_d0_w32 : S4096x4.Iotas .tc 32 [0]
  reduces_S4096x4_S4 : S4096x4.Reduces [0] S4
  shapeCasts_S4_S1x4 : S4.ShapeCasts S1x4
  iota_S4x512_d1_w32 : S4x512.Iotas .tc 32 [1]
  natLt_1_32 : 1 < 32
  iota_S4x512_d0_w32 : S4x512.Iotas .tc 32 [0]
  reduces_S4x512_S512 : S4x512.Reduces [0] S512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S1x512_S1x1x512 : S1x512.ShapeCasts S1x1x512
  dot_S128x512_S512x4_S128x4_1_0_0_1_n_n_wf : DotDims.WF S128x512 S512x4 S128x4 [1] [0] [0] [1] [] []
  dot_S1x512_S512x4_S1x4_1_0_0_1_n_n_wf : DotDims.WF S1x512 S512x4 S1x4 [1] [0] [0] [1] [] []
  dot_S4096x128_S128x4_S4096x4_1_0_0_1_n_n_wf : DotDims.WF S4096x128 S128x4 S4096x4 [1] [0] [0] [1] [] []
  dot_S4096x4_S4096x128_S4x128_0_0_1_1_n_n_wf : DotDims.WF S4096x4 S4096x128 S4x128 [0] [0] [1] [1] [] []
  dot_S4x128_S128x512_S4x512_1_0_0_1_n_n_wf : DotDims.WF S4x128 S128x512 S4x512 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S16.size a ≤ S16.size a
  hwx0_0 : ∀ i : grid0.Coords, EltTy.bits .i32 = 32 ∨ (Rect.block (s := S16) S16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S16x4096x128.size a
  hwx0_1 : ∀ i : grid0.Coords, EltTy.bits .f32 = 32 ∨ (Rect.block (s := S16x4096x128) S1x4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x512.size a
  hwx0_2 : ∀ i : grid0.Coords, EltTy.bits .f32 = 32 ∨ (Rect.block (s := S128x512) S128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x4.size a ≤ S512x4.size a
  hwx0_3 : ∀ i : grid0.Coords, EltTy.bits .f32 = 32 ∨ (Rect.block (s := S512x4) S512x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S16x1x512.size a
  hwx0_5 : ∀ i : grid0.Coords, EltTy.bits .f32 = 32 ∨ (Rect.block (s := S16x1x512) S1x1x512.size (cc0_transform_5 i) (hinb0_5 i)).WholeWords (EltTy.packing .f32)

variable [Facts₀]

def dot_S128x512_S512x4_S128x4_1_0_0_1_n_n : DotDims S128x512 S512x4 S128x4 where
  lhsContracting := [1]
  rhsContracting := [0]
  lhsNonContracting := [0]
  rhsNonContracting := [1]
  lhsBatch := []
  rhsBatch := []
  wf := dot_S128x512_S512x4_S128x4_1_0_0_1_n_n_wf
def dot_S1x512_S512x4_S1x4_1_0_0_1_n_n : DotDims S1x512 S512x4 S1x4 where
  lhsContracting := [1]
  rhsContracting := [0]
  lhsNonContracting := [0]
  rhsNonContracting := [1]
  lhsBatch := []
  rhsBatch := []
  wf := dot_S1x512_S512x4_S1x4_1_0_0_1_n_n_wf
def dot_S4096x128_S128x4_S4096x4_1_0_0_1_n_n : DotDims S4096x128 S128x4 S4096x4 where
  lhsContracting := [1]
  rhsContracting := [0]
  lhsNonContracting := [0]
  rhsNonContracting := [1]
  lhsBatch := []
  rhsBatch := []
  wf := dot_S4096x128_S128x4_S4096x4_1_0_0_1_n_n_wf
def dot_S4096x4_S4096x128_S4x128_0_0_1_1_n_n : DotDims S4096x4 S4096x128 S4x128 where
  lhsContracting := [0]
  rhsContracting := [0]
  lhsNonContracting := [1]
  rhsNonContracting := [1]
  lhsBatch := []
  rhsBatch := []
  wf := dot_S4096x4_S4096x128_S4x128_0_0_1_1_n_n_wf
def dot_S4x128_S128x512_S4x512_1_0_0_1_n_n : DotDims S4x128 S128x512 S4x512 where
  lhsContracting := [1]
  rhsContracting := [0]
  lhsNonContracting := [0]
  rhsNonContracting := [1]
  lhsBatch := []
  rhsBatch := []
  wf := dot_S4x128_S128x512_S4x512_1_0_0_1_n_n_wf

abbrev win0_0 : Pipeline.Window sig grid0 :=
  Pipeline.Window.ofSpec (Memref.whole main_arg1) S16.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v10) S512x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v11) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v12) S1x1x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S16 : Shape := ⟨1, ![16]⟩
abbrev S128x512 : Shape := ⟨2, ![128, 512]⟩
abbrev S1x4x128 : Shape := ⟨3, ![1, 4, 128]⟩
abbrev S512 : Shape := ⟨1, ![512]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S65536x128 : Shape := ⟨2, ![65536, 128]⟩
abbrev S65536x512 : Shape := ⟨2, ![65536, 512]⟩
abbrev S1x512 : Shape := ⟨2, ![1, 512]⟩
abbrev S16x4096x4x128 : Shape := ⟨4, ![16, 4096, 4, 128]⟩
abbrev S1x1x4x128 : Shape := ⟨4, ![1, 1, 4, 128]⟩
abbrev S_ : Shape := ⟨0, ![]⟩
abbrev S16x4096x4 : Shape := ⟨3, ![16, 4096, 4]⟩
abbrev S16x4096x1 : Shape := ⟨3, ![16, 4096, 1]⟩
abbrev S16x4 : Shape := ⟨2, ![16, 4]⟩
abbrev S16x1x4 : Shape := ⟨3, ![16, 1, 4]⟩
abbrev S65536 : Shape := ⟨1, ![65536]⟩
abbrev S65536x4 : Shape := ⟨2, ![65536, 4]⟩
abbrev S65536x1 : Shape := ⟨2, ![65536, 1]⟩
abbrev S16x4096x4x1 : Shape := ⟨4, ![16, 4096, 4, 1]⟩
abbrev S65536x4x128 : Shape := ⟨3, ![65536, 4, 128]⟩
abbrev S16x4x128 : Shape := ⟨3, ![16, 4, 128]⟩
abbrev S16x512 : Shape := ⟨2, ![16, 512]⟩

abbrev nBuf : Space → Nat
  | .hbm => 68
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S16, .i32⟩
  | .hbm, ⟨2, _⟩ => ⟨S128x512, .f32⟩
  | .hbm, ⟨3, _⟩ => ⟨S1x4x128, .f32⟩
  | .hbm, ⟨4, _⟩ => ⟨S512, .f32⟩
  | .hbm, ⟨5, _⟩ => ⟨S4096, .i32⟩
  | .hbm, ⟨6, _⟩ => ⟨S1x4096, .i32⟩
  | .hbm, ⟨7, _⟩ => ⟨S16x1, .i32⟩
  | .hbm, ⟨8, _⟩ => ⟨S16x4096, .i32⟩
  | .hbm, ⟨9, _⟩ => ⟨S16x4096, .i32⟩
  | .hbm, ⟨10, _⟩ => ⟨S16x4096, .i1⟩
  | .hbm, ⟨11, _⟩ => ⟨S65536x128, .f32⟩
  | .hbm, ⟨12, _⟩ => ⟨S65536x512, .f32⟩
  | .hbm, ⟨13, _⟩ => ⟨S1x512, .f32⟩
  | .hbm, ⟨14, _⟩ => ⟨S65536x512, .f32⟩
  | .hbm, ⟨15, _⟩ => ⟨S65536x512, .f32⟩
  | .hbm, ⟨16, _⟩ => ⟨S16x4096x4x128, .f32⟩
  | .hbm, ⟨17, _⟩ => ⟨S1x1x4x128, .f32⟩
  | .hbm, ⟨18, _⟩ => ⟨S16x4096x4x128, .f32⟩
  | .hbm, ⟨19, _⟩ => ⟨S16x4096x4x128, .f32⟩
  | .hbm, ⟨20, _⟩ => ⟨S_, .f32⟩
  | .hbm, ⟨21, _⟩ => ⟨S16x4096x4, .f32⟩
  | .hbm, ⟨22, _⟩ => ⟨S_, .f32⟩
  | .hbm, ⟨23, _⟩ => ⟨S_, .f32⟩
  | .hbm, ⟨24, _⟩ => ⟨S16x4096x4, .f32⟩
  | .hbm, ⟨25, _⟩ => ⟨S16x4096x4, .i1⟩
  | .hbm, ⟨26, _⟩ => ⟨S_, .f32⟩
  | .hbm, ⟨27, _⟩ => ⟨S16x4096x4, .f32⟩
  | .hbm, ⟨28, _⟩ => ⟨S16x4096x4, .f32⟩
  | .hbm, ⟨29, _⟩ => ⟨S16x4096x4, .f32⟩
  | .hbm, ⟨30, _⟩ => ⟨S16x4096x1, .i1⟩
  | .hbm, ⟨31, _⟩ => ⟨S_, .f32⟩
  | .hbm, ⟨32, _⟩ => ⟨S_, .f32⟩
  | .hbm, ⟨33, _⟩ => ⟨S16x4096x4, .i1⟩
  | .hbm, ⟨34, _⟩ => ⟨S16x4096x4, .f32⟩
  | .hbm, ⟨35, _⟩ => ⟨S16x4096x4, .f32⟩
  | .hbm, ⟨36, _⟩ => ⟨S_, .f32⟩
  | .hbm, ⟨37, _⟩ => ⟨S16x4, .f32⟩
  | .hbm, ⟨38, _⟩ => ⟨S16x1x4, .f32⟩
  | .hbm, ⟨39, _⟩ => ⟨S16x4096x4, .f32⟩
  | .hbm, ⟨40, _⟩ => ⟨S16x4096x4, .f32⟩
  | .hbm, ⟨41, _⟩ => ⟨S16x4096x1, .i1⟩
  | .hbm, ⟨42, _⟩ => ⟨S16x4096x4, .f32⟩
  | .hbm, ⟨43, _⟩ => ⟨S_, .f32⟩
  | .hbm, ⟨44, _⟩ => ⟨S_, .f32⟩
  | .hbm, ⟨45, _⟩ => ⟨S16x4096x4, .i1⟩
  | .hbm, ⟨46, _⟩ => ⟨S16x4096x4, .f32⟩
  | .hbm, ⟨47, _⟩ => ⟨S16x4096x4, .f32⟩
  | .hbm, ⟨48, _⟩ => ⟨S16, .i32⟩
  | .hbm, ⟨49, _⟩ => ⟨S16x4096, .i32⟩
  | .hbm, ⟨50, _⟩ => ⟨S65536, .i32⟩
  | .hbm, ⟨51, _⟩ => ⟨S65536x4, .f32⟩
  | .hbm, ⟨52, _⟩ => ⟨S_, .f32⟩
  | .hbm, ⟨53, _⟩ => ⟨S16x4, .f32⟩
  | .hbm, ⟨54, _⟩ => ⟨S65536x1, .i32⟩
  | .hbm, ⟨55, _⟩ => ⟨S16x4, .f32⟩
  | .hbm, ⟨56, _⟩ => ⟨S16x1x4, .f32⟩
  | .hbm, ⟨57, _⟩ => ⟨S16x4096x4, .f32⟩
  | .hbm, ⟨58, _⟩ => ⟨S16x4096x4, .f32⟩
  | .hbm, ⟨59, _⟩ => ⟨S16x4096x4x1, .f32⟩
  | .hbm, ⟨60, _⟩ => ⟨S16x4096x4x128, .f32⟩
  | .hbm, ⟨61, _⟩ => ⟨S16x4096x4x128, .f32⟩
  | .hbm, ⟨62, _⟩ => ⟨S65536x4x128, .f32⟩
  | .hbm, ⟨63, _⟩ => ⟨S_, .f32⟩
  | .hbm, ⟨64, _⟩ => ⟨S16x4x128, .f32⟩
  | .hbm, ⟨65, _⟩ => ⟨S65536x1, .i32⟩
  | .hbm, ⟨66, _⟩ => ⟨S16x4x128, .f32⟩
  | .hbm, ⟨67, _⟩ => ⟨S16x512, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_cst_0 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_3 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S16_S16x1_0 : S16.BroadcastsInDim S16x1 (![0] : Fin 1 → Fin S16x1.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  shapeCasts_S16x4096x128_S65536x128 : S16x4096x128.ShapeCasts S65536x128
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  shapeCasts_S65536x512_S16x4096x4x128 : S65536x512.ShapeCasts S16x4096x4x128
  bcast_S1x4x128_S1x1x4x128_1_2_3 : S1x4x128.BroadcastsInDim S1x1x4x128 (![1, 2, 3] : Fin 3 → Fin S1x1x4x128.rank)
  bcast_S1x1x4x128_S16x4096x4x128_0_1_2_3 : S1x1x4x128.BroadcastsInDim S16x4096x4x128 (![0, 1, 2, 3] : Fin 4 → Fin S16x4096x4x128.rank)
  reducesTo_S16x4096x4x128_S16x4096x4_d3 : S16x4096x4x128.ReducesTo [3] S16x4096x4
  h_S_ : 0 < S_.numel
  bcast_S_S16x4096x4 : S_.BroadcastsInDim S16x4096x4 (![] : Fin 0 → Fin S16x4096x4.rank)
  bcast_S16x4096_S16x4096x1_0_1 : S16x4096.BroadcastsInDim S16x4096x1 (![0, 1] : Fin 2 → Fin S16x4096x1.rank)
  bcast_S16x4096x1_S16x4096x4_0_1_2 : S16x4096x1.BroadcastsInDim S16x4096x4 (![0, 1, 2] : Fin 3 → Fin S16x4096x4.rank)
  reducesTo_S16x4096x4_S16x4_d1 : S16x4096x4.ReducesTo [1] S16x4
  bcast_S16x4_S16x1x4_0_2 : S16x4.BroadcastsInDim S16x1x4 (![0, 2] : Fin 2 → Fin S16x1x4.rank)
  bcast_S16x1x4_S16x4096x4_0_1_2 : S16x1x4.BroadcastsInDim S16x4096x4 (![0, 1, 2] : Fin 3 → Fin S16x4096x4.rank)
  bcast_S16_S16x4096_0 : S16.BroadcastsInDim S16x4096 (![0] : Fin 1 → Fin S16x4096.rank)
  shapeCasts_S16x4096_S65536 : S16x4096.ShapeCasts S65536
  shapeCasts_S16x4096x4_S65536x4 : S16x4096x4.ShapeCasts S65536x4
  bcast_S_S16x4 : S_.BroadcastsInDim S16x4 (![] : Fin 0 → Fin S16x4.rank)
  bcast_S65536_S65536x1_0 : S65536.BroadcastsInDim S65536x1 (![0] : Fin 1 → Fin S65536x1.rank)
  bcast_S16x4096x4_S16x4096x4x1_0_1_2 : S16x4096x4.BroadcastsInDim S16x4096x4x1 (![0, 1, 2] : Fin 3 → Fin S16x4096x4x1.rank)
  bcast_S16x4096x4x1_S16x4096x4x128_0_1_2_3 : S16x4096x4x1.BroadcastsInDim S16x4096x4x128 (![0, 1, 2, 3] : Fin 4 → Fin S16x4096x4x128.rank)
  shapeCasts_S16x4096x4x128_S65536x4x128 : S16x4096x4x128.ShapeCasts S65536x4x128
  bcast_S_S16x4x128 : S_.BroadcastsInDim S16x4x128 (![] : Fin 0 → Fin S16x4x128.rank)
  shapeCasts_S16x4x128_S16x512 : S16x4x128.ShapeCasts S16x512
  dot_S65536x128_S128x512_S65536x512_1_0_0_1_n_n_wf : DotDims.WF S65536x128 S128x512 S65536x512 [1] [0] [0] [1] [] []
  scatter_S16x4_S65536x1_S65536x4_1_0_0_1_wf : ScatterDims.WF S16x4 S65536x1 S65536x4 [1] [0] [0] 1
  scatter_S16x4x128_S65536x1_S65536x4x128_12_0_0_1_wf : ScatterDims.WF S16x4x128 S65536x1 S65536x4x128 [1, 2] [0] [0] 1

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def scatter_S16x4_S65536x1_S65536x4_1_0_0_1 : ScatterDims S16x4 S65536x1 S65536x4 where
  updateWindowDims := [1]
  insertedWindowDims := [0]
  scatterDimsToOperandDims := [0]
  indexVectorDim := 1
  wf := scatter_S16x4_S65536x1_S65536x4_1_0_0_1_wf
def scatter_S16x4x128_S65536x1_S65536x4x128_12_0_0_1 : ScatterDims S16x4x128 S65536x1 S65536x4x128 where
  updateWindowDims := [1, 2]
  insertedWindowDims := [0]
  scatterDimsToOperandDims := [0]
  indexVectorDim := 1
  wf := scatter_S16x4x128_S65536x1_S65536x4x128_12_0_0_1_wf

class Facts : Prop extends Facts₀ where

variable [Facts]
-- ==== Proof.Spec.lean ====
/-
  What the attention-pooling kernel and its jnp reference compute, as plain functions of coordinates over the
  extended reals. Sixteen graphs, each a prefix of length gs b of 4096 rows of 128 features; four heads.
  Per graph and head a logit per row, a leaky ReLU, a softmax over the valid prefix (rows s with s < gs b),
  and the softmax-weighted sum of the projected rows. The kernel contracts the projection with the head
  vectors FIRST (a 128 x 4 matrix) and pools the raw rows before projecting; the reference projects every row
  to 512 columns and pools those. Both are stated here; that they agree on finite inputs with gs b ≥ 1 is
  proved in Algebra.lean.
-/
import Idealize.ShloMosaic.PureOps.Ideal
import Idealize.ShloMosaic.PureOps.Ideal.Laws
import Idealize.ShloMosaic.Lib.ValueIdx

noncomputable section

namespace Cert.Attn

open Idealize.ShloMosaic

/-- The mask's fill value, the f32 pattern of minus infinity. -/
def NI : EReal := Ideal.ofBits .f32 0xFF800000#32
/-- The leaky ReLU's slope, the f32 nearest to 0.2 (the same word in both programs). -/
def C02 : EReal := Ideal.ofBits .f32 0x3E4CCCCD#32

/-- Column 128 h + j of the 512 projected columns: feature j of head h. -/
abbrev hk (h : Fin 4) (j : Fin 128) : Fin 512 := ⟨128 * h.val + j.val, by have := h.isLt; have := j.isLt; omega⟩

/-- The kernel's leaky ReLU: x where x > 0, else slope times x. -/
def lreluK (x : EReal) : EReal := Scalar.select (Ideal.cmp .ogt x 0) x (C02 * x)
/-- The reference's: x where x ≥ 0, else slope times x. -/
def lreluR (x : EReal) : EReal := Scalar.select (Ideal.cmp .oge x 0) x (C02 * x)

/-- Row s is valid for a graph of length g: s < g as signed 32-bit words. -/
def valid (g : BitVec 32) (s : Fin 4096) : BitVec 1 := IntOp.cmpi .slt (BitVec.ofNat 32 s.val) g

/-- The largest valid logit (minus infinity on the invalid rows, folded from minus infinity). -/
def amax (l : Fin 4096 → EReal) (m : Fin 4096 → BitVec 1) : EReal :=
  (Finset.univ : Finset (Fin 4096)).fold max NI (fun s => Scalar.select (m s) (l s) NI)
/-- exp (logit - largest) on the valid rows, zero elsewhere. -/
def ex (l : Fin 4096 → EReal) (m : Fin 4096 → BitVec 1) (s : Fin 4096) : EReal :=
  Scalar.select (m s) (Ideal.exp (l s - amax l m)) 0
/-- The softmax weight of row s. -/
def prob (l : Fin 4096 → EReal) (m : Fin 4096 → BitVec 1) (s : Fin 4096) : EReal :=
  Ideal.div (ex l m s) (∑ s' : Fin 4096, ex l m s')

/-- The kernel's logits of one graph from a 512 x 4 matrix T: (Vb (W T) + bs T) at (s, h). -/
def logitT (Vb : Fin 4096 → Fin 128 → EReal) (W : Fin 128 → Fin 512 → EReal) (T : Fin 512 → Fin 4 → EReal)
    (bs : Fin 512 → EReal) (s : Fin 4096) (h : Fin 4) : EReal :=
  (∑ c : Fin 128, Vb s c * ∑ k : Fin 512, W c k * T k h) + ∑ k : Fin 512, bs k * T k h

/-- What the kernel writes for one graph at column k: the head of column k selected out of the four rows of
    (softmax-pooled rows) W, plus the bias. -/
def blockOut (Vb : Fin 4096 → Fin 128 → EReal) (g : BitVec 32) (W : Fin 128 → Fin 512 → EReal)
    (T : Fin 512 → Fin 4 → EReal) (bs : Fin 512 → EReal) (k : Fin 512) : EReal :=
  (∑ h : Fin 4, if k.val / 128 = h.val then
      ∑ c : Fin 128, (∑ s : Fin 4096, prob (fun s' => lreluK (logitT Vb W T bs s' h)) (valid g) s * Vb s c) * W c k
    else 0) + bs k

/-- The block-diagonal arrangement of the head vectors: row k belongs to head k / 128 and holds its feature k % 128. -/
def tmat (tw : Fin 4 → Fin 128 → EReal) (k : Fin 512) (h : Fin 4) : EReal :=
  if k.val / 128 = h.val then tw ⟨k.val / 128, by have := k.isLt; omega⟩ ⟨k.val % 128, Nat.mod_lt _ (by norm_num)⟩ else 0

/-- The kernel's result at graph b, column k. -/
def outK (V : Fin 16 → Fin 4096 → Fin 128 → EReal) (gs : Fin 16 → BitVec 32) (W : Fin 128 → Fin 512 → EReal)
    (tw : Fin 4 → Fin 128 → EReal) (bs : Fin 512 → EReal) (b : Fin 16) (k : Fin 512) : EReal :=
  blockOut (V b) (gs b) W (tmat tw) bs k

/-- The reference's logits: the head vector against the projected row plus bias. -/
def logitR (V : Fin 16 → Fin 4096 → Fin 128 → EReal) (W : Fin 128 → Fin 512 → EReal) (tw : Fin 4 → Fin 128 → EReal)
    (bs : Fin 512 → EReal) (b : Fin 16) (s : Fin 4096) (h : Fin 4) : EReal :=
  ∑ j : Fin 128, tw h j * ((∑ c : Fin 128, V b s c * W c (hk h j)) + bs (hk h j))

/-- The reference's result at graph b, column k: the projected rows weighted by the softmax of head k / 128. -/
def outR (V : Fin 16 → Fin 4096 → Fin 128 → EReal) (gs : Fin 16 → BitVec 32) (W : Fin 128 → Fin 512 → EReal)
    (tw : Fin 4 → Fin 128 → EReal) (bs : Fin 512 → EReal) (b : Fin 16) (k : Fin 512) : EReal :=
  ∑ s : Fin 4096, ((∑ c : Fin 128, V b s c * W c k) + bs k)
    * prob (fun s' => lreluR (logitR V W tw bs b s' ⟨k.val / 128, by have := k.isLt; omega⟩)) (valid (gs b)) s

/-! ## The arrays as coordinate functions -/

open ValueIdx

/-- The rows array [16, 4096, 128] by coordinates. -/
def cV (x : (⟨3, ![16, 4096, 128]⟩ : Shape).Idx → EReal) : Fin 16 → Fin 4096 → Fin 128 → EReal := fun b s c => x (ix3 b s c)
/-- The lengths [16]. -/
def cG (x : (⟨1, ![16]⟩ : Shape).Idx → BitVec 32) : Fin 16 → BitVec 32 := fun b => x (ix1 b)
/-- The projection [128, 512]. -/
def cW (x : (⟨2, ![128, 512]⟩ : Shape).Idx → EReal) : Fin 128 → Fin 512 → EReal := fun c k => x (ix2 c k)
/-- The head vectors [1, 4, 128]. -/
def cT (x : (⟨3, ![1, 4, 128]⟩ : Shape).Idx → EReal) : Fin 4 → Fin 128 → EReal := fun h j => x (ix3 0 h j)
/-- The bias [512]. -/
def cB (x : (⟨1, ![512]⟩ : Shape).Idx → EReal) : Fin 512 → EReal := fun k => x (ix1 k)

end Cert.Attn

end
-- ==== Proof.KernelPay.lean ====
/-
  The kernel body's stored value read at an index: for one graph's block it is `blockOut` of Spec.lean.

  The body contracts the projection and the bias row with the block-diagonal head matrix, forms a logit per row and head,
  applies the leaky ReLU, takes the softmax over the valid rows of each head, pools the raw rows by the weights, projects
  the four pooled rows, keeps each on the lanes of its own head, sums the four and adds the bias. Each of these stages is
  read here at explicit coordinates; composed, they are `blockOut`.
-/
import proofs.«149397_g68547678044319_fold_wed_c4_656_4_alg».proof.Proof.Gen.KernelIdeal.Skeleton
import proofs.«149397_g68547678044319_fold_wed_c4_656_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KValue

open Cert.KernelIdeal Cert.KernelIdeal.Gen Idealize.ShloMosaic Idealize.ShloMosaic.ValueIdx Cert.Attn

/-! ## The five products, each read at an index

Every product of the body contracts ONE axis, so its contraction index is one coordinate; the sum over the contraction
index is re-indexed through that coordinate, and the two operand indices are named coordinate by coordinate. -/

/-! ### The projection against the head matrix: [128, 512] by [512, 4] -/

private theorem lhsWT_0 (i : S128x4.Idx) (q : dot_S128x512_S512x4_S128x4_1_0_0_1_n_n.contr.Idx) :
    (dot_S128x512_S512x4_S128x4_1_0_0_1_n_n.lhsIdx i q 0).val = (i 0).val := by
  unfold DotDims.lhsIdx
  rw [dif_neg (show ¬(0 : Fin S128x512.rank) ∈ dot_S128x512_S512x4_S128x4_1_0_0_1_n_n.lhsBatch by decide),
    dif_pos (show (0 : Fin S128x512.rank) ∈ dot_S128x512_S512x4_S128x4_1_0_0_1_n_n.lhsNonContracting by decide)]
  rfl
private theorem lhsWT_1 (i : S128x4.Idx) (q : dot_S128x512_S512x4_S128x4_1_0_0_1_n_n.contr.Idx) :
    (dot_S128x512_S512x4_S128x4_1_0_0_1_n_n.lhsIdx i q 1).val = (q ⟨0, by decide⟩).val :=
  dot_S128x512_S512x4_S128x4_1_0_0_1_n_n.lhsIdx_val_of_single rfl i q
private theorem rhsWT_0 (i : S128x4.Idx) (q : dot_S128x512_S512x4_S128x4_1_0_0_1_n_n.contr.Idx) :
    (dot_S128x512_S512x4_S128x4_1_0_0_1_n_n.rhsIdx i q 0).val = (q ⟨0, by decide⟩).val :=
  dot_S128x512_S512x4_S128x4_1_0_0_1_n_n.rhsIdx_val_of_single rfl i q
private theorem rhsWT_1 (i : S128x4.Idx) (q : dot_S128x512_S512x4_S128x4_1_0_0_1_n_n.contr.Idx) :
    (dot_S128x512_S512x4_S128x4_1_0_0_1_n_n.rhsIdx i q 1).val = (i 1).val := by
  unfold DotDims.rhsIdx
  rw [dif_neg (show ¬(1 : Fin S512x4.rank) ∈ dot_S128x512_S512x4_S128x4_1_0_0_1_n_n.rhsBatch by decide),
    dif_pos (show (1 : Fin S512x4.rank) ∈ dot_S128x512_S512x4_S128x4_1_0_0_1_n_n.rhsNonContracting by decide)]
  rfl

/-- Entry (c, h) of the product of a [128, 512] matrix with a [512, 4] one: the sum over the 512 shared coordinates. -/
private theorem mulWT_apply (A : FVec Ideal S128x512 .f32) (B : FVec Ideal S512x4 .f32) (c : Fin 128) (h : Fin 4) :
    matmul dot_S128x512_S512x4_S128x4_1_0_0_1_n_n none A B (constant (F := Ideal) S128x4 .f32 0x00000000#32) (ix2 c h)
      = ∑ k : Fin 512, A (ix2 c k) * B (ix2 k h) := by
  refine (Ideal.matmul_constant_zero_apply _ _ _ _ _).trans ?_
  rw [← Equiv.sum_comp (contrEquiv1 dot_S128x512_S512x4_S128x4_1_0_0_1_n_n 512 rfl rfl).symm]
  refine Finset.sum_congr rfl fun k _ => ?_
  have hk := contrEquiv1_symm_val dot_S128x512_S512x4_S128x4_1_0_0_1_n_n 512 rfl rfl k
  have el : dot_S128x512_S512x4_S128x4_1_0_0_1_n_n.lhsIdx (ix2 c h)
      ((contrEquiv1 dot_S128x512_S512x4_S128x4_1_0_0_1_n_n 512 rfl rfl).symm k) = ix2 c k := funext fun a => Fin.ext (by
    match a with
    | ⟨0, _⟩ => exact lhsWT_0 _ _
    | ⟨1, _⟩ => exact (lhsWT_1 _ _).trans hk)
  have er : dot_S128x512_S512x4_S128x4_1_0_0_1_n_n.rhsIdx (ix2 c h)
      ((contrEquiv1 dot_S128x512_S512x4_S128x4_1_0_0_1_n_n 512 rfl rfl).symm k) = ix2 k h := funext fun a => Fin.ext (by
    match a with
    | ⟨0, _⟩ => exact (rhsWT_0 _ _).trans hk
    | ⟨1, _⟩ => exact rhsWT_1 _ _)
  rw [el, er]

/-! ### The bias row against the head matrix: [1, 512] by [512, 4] -/

private theorem lhsBT_0 (i : S1x4.Idx) (q : dot_S1x512_S512x4_S1x4_1_0_0_1_n_n.contr.Idx) :
    (dot_S1x512_S512x4_S1x4_1_0_0_1_n_n.lhsIdx i q 0).val = (i 0).val := by
  unfold DotDims.lhsIdx
  rw [dif_neg (show ¬(0 : Fin S1x512.rank) ∈ dot_S1x512_S512x4_S1x4_1_0_0_1_n_n.lhsBatch by decide),
    dif_pos (show (0 : Fin S1x512.rank) ∈ dot_S1x512_S512x4_S1x4_1_0_0_1_n_n.lhsNonContracting by decide)]
  rfl
private theorem lhsBT_1 (i : S1x4.Idx) (q : dot_S1x512_S512x4_S1x4_1_0_0_1_n_n.contr.Idx) :
    (dot_S1x512_S512x4_S1x4_1_0_0_1_n_n.lhsIdx i q 1).val = (q ⟨0, by decide⟩).val :=
  dot_S1x512_S512x4_S1x4_1_0_0_1_n_n.lhsIdx_val_of_single rfl i q
private theorem rhsBT_0 (i : S1x4.Idx) (q : dot_S1x512_S512x4_S1x4_1_0_0_1_n_n.contr.Idx) :
    (dot_S1x512_S512x4_S1x4_1_0_0_1_n_n.rhsIdx i q 0).val = (q ⟨0, by decide⟩).val :=
  dot_S1x512_S512x4_S1x4_1_0_0_1_n_n.rhsIdx_val_of_single rfl i q
private theorem rhsBT_1 (i : S1x4.Idx) (q : dot_S1x512_S512x4_S1x4_1_0_0_1_n_n.contr.Idx) :
    (dot_S1x512_S512x4_S1x4_1_0_0_1_n_n.rhsIdx i q 1).val = (i 1).val := by
  unfold DotDims.rhsIdx
  rw [dif_neg (show ¬(1 : Fin S512x4.rank) ∈ dot_S1x512_S512x4_S1x4_1_0_0_1_n_n.rhsBatch by decide),
    dif_pos (show (1 : Fin S512x4.rank) ∈ dot_S1x512_S512x4_S1x4_1_0_0_1_n_n.rhsNonContracting by decide)]
  rfl

/-- Entry (u, h) of the product of a [1, 512] row with a [512, 4] matrix. -/
private theorem mulBT_apply (A : FVec Ideal S1x512 .f32) (B : FVec Ideal S512x4 .f32) (u : Fin 1) (h : Fin 4) :
    matmul dot_S1x512_S512x4_S1x4_1_0_0_1_n_n none A B (constant (F := Ideal) S1x4 .f32 0x00000000#32) (ix2 u h)
      = ∑ k : Fin 512, A (ix2 u k) * B (ix2 k h) := by
  refine (Ideal.matmul_constant_zero_apply _ _ _ _ _).trans ?_
  rw [← Equiv.sum_comp (contrEquiv1 dot_S1x512_S512x4_S1x4_1_0_0_1_n_n 512 rfl rfl).symm]
  refine Finset.sum_congr rfl fun k _ => ?_
  have hk := contrEquiv1_symm_val dot_S1x512_S512x4_S1x4_1_0_0_1_n_n 512 rfl rfl k
  have el : dot_S1x512_S512x4_S1x4_1_0_0_1_n_n.lhsIdx (ix2 u h)
      ((contrEquiv1 dot_S1x512_S512x4_S1x4_1_0_0_1_n_n 512 rfl rfl).symm k) = ix2 u k := funext fun a => Fin.ext (by
    match a with
    | ⟨0, _⟩ => exact lhsBT_0 _ _
    | ⟨1, _⟩ => exact (lhsBT_1 _ _).trans hk)
  have er : dot_S1x512_S512x4_S1x4_1_0_0_1_n_n.rhsIdx (ix2 u h)
      ((contrEquiv1 dot_S1x512_S512x4_S1x4_1_0_0_1_n_n 512 rfl rfl).symm k) = ix2 k h := funext fun a => Fin.ext (by
    match a with
    | ⟨0, _⟩ => exact (rhsBT_0 _ _).trans hk
    | ⟨1, _⟩ => exact rhsBT_1 _ _)
  rw [el, er]

/-! ### The rows against the contracted projection: [4096, 128] by [128, 4] -/

private theorem lhsVU_0 (i : S4096x4.Idx) (q : dot_S4096x128_S128x4_S4096x4_1_0_0_1_n_n.contr.Idx) :
    (dot_S4096x128_S128x4_S4096x4_1_0_0_1_n_n.lhsIdx i q 0).val = (i 0).val := by
  unfold DotDims.lhsIdx
  rw [dif_neg (show ¬(0 : Fin S4096x128.rank) ∈ dot_S4096x128_S128x4_S4096x4_1_0_0_1_n_n.lhsBatch by decide),
    dif_pos (show (0 : Fin S4096x128.rank) ∈ dot_S4096x128_S128x4_S4096x4_1_0_0_1_n_n.lhsNonContracting by decide)]
  rfl
private theorem lhsVU_1 (i : S4096x4.Idx) (q : dot_S4096x128_S128x4_S4096x4_1_0_0_1_n_n.contr.Idx) :
    (dot_S4096x128_S128x4_S4096x4_1_0_0_1_n_n.lhsIdx i q 1).val = (q ⟨0, by decide⟩).val :=
  dot_S4096x128_S128x4_S4096x4_1_0_0_1_n_n.lhsIdx_val_of_single rfl i q
private theorem rhsVU_0 (i : S4096x4.Idx) (q : dot_S4096x128_S128x4_S4096x4_1_0_0_1_n_n.contr.Idx) :
    (dot_S4096x128_S128x4_S4096x4_1_0_0_1_n_n.rhsIdx i q 0).val = (q ⟨0, by decide⟩).val :=
  dot_S4096x128_S128x4_S4096x4_1_0_0_1_n_n.rhsIdx_val_of_single rfl i q
private theorem rhsVU_1 (i : S4096x4.Idx) (q : dot_S4096x128_S128x4_S4096x4_1_0_0_1_n_n.contr.Idx) :
    (dot_S4096x128_S128x4_S4096x4_1_0_0_1_n_n.rhsIdx i q 1).val = (i 1).val := by
  unfold DotDims.rhsIdx
  rw [dif_neg (show ¬(1 : Fin S128x4.rank) ∈ dot_S4096x128_S128x4_S4096x4_1_0_0_1_n_n.rhsBatch by decide),
    dif_pos (show (1 : Fin S128x4.rank) ∈ dot_S4096x128_S128x4_S4096x4_1_0_0_1_n_n.rhsNonContracting by decide)]
  rfl

/-- Entry (s, h) of the product of the [4096, 128] rows with a [128, 4] matrix. -/
private theorem mulVU_apply (A : FVec Ideal S4096x128 .f32) (B : FVec Ideal S128x4 .f32) (s : Fin 4096) (h : Fin 4) :
    matmul dot_S4096x128_S128x4_S4096x4_1_0_0_1_n_n none A B (constant (F := Ideal) S4096x4 .f32 0x00000000#32) (ix2 s h)
      = ∑ c : Fin 128, A (ix2 s c) * B (ix2 c h) := by
  refine (Ideal.matmul_constant_zero_apply _ _ _ _ _).trans ?_
  rw [← Equiv.sum_comp (contrEquiv1 dot_S4096x128_S128x4_S4096x4_1_0_0_1_n_n 128 rfl rfl).symm]
  refine Finset.sum_congr rfl fun c _ => ?_
  have hc := contrEquiv1_symm_val dot_S4096x128_S128x4_S4096x4_1_0_0_1_n_n 128 rfl rfl c
  have el : dot_S4096x128_S128x4_S4096x4_1_0_0_1_n_n.lhsIdx (ix2 s h)
      ((contrEquiv1 dot_S4096x128_S128x4_S4096x4_1_0_0_1_n_n 128 rfl rfl).symm c) = ix2 s c := funext fun a => Fin.ext (by
    match a with
    | ⟨0, _⟩ => exact lhsVU_0 _ _
    | ⟨1, _⟩ => exact (lhsVU_1 _ _).trans hc)
  have er : dot_S4096x128_S128x4_S4096x4_1_0_0_1_n_n.rhsIdx (ix2 s h)
      ((contrEquiv1 dot_S4096x128_S128x4_S4096x4_1_0_0_1_n_n 128 rfl rfl).symm c) = ix2 c h := funext fun a => Fin.ext (by
    match a with
    | ⟨0, _⟩ => exact (rhsVU_0 _ _).trans hc
    | ⟨1, _⟩ => exact rhsVU_1 _ _)
  rw [el, er]

/-! ### The weights against the rows, both contracted on their FIRST axis: [4096, 4] by [4096, 128] -/

private theorem lhsPV_0 (i : S4x128.Idx) (q : dot_S4096x4_S4096x128_S4x128_0_0_1_1_n_n.contr.Idx) :
    (dot_S4096x4_S4096x128_S4x128_0_0_1_1_n_n.lhsIdx i q 0).val = (q ⟨0, by decide⟩).val :=
  dot_S4096x4_S4096x128_S4x128_0_0_1_1_n_n.lhsIdx_val_of_single rfl i q
private theorem lhsPV_1 (i : S4x128.Idx) (q : dot_S4096x4_S4096x128_S4x128_0_0_1_1_n_n.contr.Idx) :
    (dot_S4096x4_S4096x128_S4x128_0_0_1_1_n_n.lhsIdx i q 1).val = (i 0).val := by
  unfold DotDims.lhsIdx
  rw [dif_neg (show ¬(1 : Fin S4096x4.rank) ∈ dot_S4096x4_S4096x128_S4x128_0_0_1_1_n_n.lhsBatch by decide),
    dif_pos (show (1 : Fin S4096x4.rank) ∈ dot_S4096x4_S4096x128_S4x128_0_0_1_1_n_n.lhsNonContracting by decide)]
  rfl
private theorem rhsPV_0 (i : S4x128.Idx) (q : dot_S4096x4_S4096x128_S4x128_0_0_1_1_n_n.contr.Idx) :
    (dot_S4096x4_S4096x128_S4x128_0_0_1_1_n_n.rhsIdx i q 0).val = (q ⟨0, by decide⟩).val :=
  dot_S4096x4_S4096x128_S4x128_0_0_1_1_n_n.rhsIdx_val_of_single rfl i q
private theorem rhsPV_1 (i : S4x128.Idx) (q : dot_S4096x4_S4096x128_S4x128_0_0_1_1_n_n.contr.Idx) :
    (dot_S4096x4_S4096x128_S4x128_0_0_1_1_n_n.rhsIdx i q 1).val = (i 1).val := by
  unfold DotDims.rhsIdx
  rw [dif_neg (show ¬(1 : Fin S4096x128.rank) ∈ dot_S4096x4_S4096x128_S4x128_0_0_1_1_n_n.rhsBatch by decide),
    dif_pos (show (1 : Fin S4096x128.rank) ∈ dot_S4096x4_S4096x128_S4x128_0_0_1_1_n_n.rhsNonContracting by decide)]
  rfl

/-- Entry (h, c) of the product that contracts the 4096 rows of a [4096, 4] array against those of a [4096, 128] one. -/
private theorem mulPV_apply (A : FVec Ideal S4096x4 .f32) (B : FVec Ideal S4096x128 .f32) (h : Fin 4) (c : Fin 128) :
    matmul dot_S4096x4_S4096x128_S4x128_0_0_1_1_n_n none A B (constant (F := Ideal) S4x128 .f32 0x00000000#32) (ix2 h c)
      = ∑ s : Fin 4096, A (ix2 s h) * B (ix2 s c) := by
  refine (Ideal.matmul_constant_zero_apply _ _ _ _ _).trans ?_
  rw [← Equiv.sum_comp (contrEquiv1 dot_S4096x4_S4096x128_S4x128_0_0_1_1_n_n 4096 rfl rfl).symm]
  refine Finset.sum_congr rfl fun s _ => ?_
  have hs := contrEquiv1_symm_val dot_S4096x4_S4096x128_S4x128_0_0_1_1_n_n 4096 rfl rfl s
  have el : dot_S4096x4_S4096x128_S4x128_0_0_1_1_n_n.lhsIdx (ix2 h c)
      ((contrEquiv1 dot_S4096x4_S4096x128_S4x128_0_0_1_1_n_n 4096 rfl rfl).symm s) = ix2 s h := funext fun a => Fin.ext (by
    match a with
    | ⟨0, _⟩ => exact (lhsPV_0 _ _).trans hs
    | ⟨1, _⟩ => exact lhsPV_1 _ _)
  have er : dot_S4096x4_S4096x128_S4x128_0_0_1_1_n_n.rhsIdx (ix2 h c)
      ((contrEquiv1 dot_S4096x4_S4096x128_S4x128_0_0_1_1_n_n 4096 rfl rfl).symm s) = ix2 s c := funext fun a => Fin.ext (by
    match a with
    | ⟨0, _⟩ => exact (rhsPV_0 _ _).trans hs
    | ⟨1, _⟩ => exact rhsPV_1 _ _)
  rw [el, er]

/-! ### The pooled rows against the projection: [4, 128] by [128, 512] -/

private theorem lhsQW_0 (i : S4x512.Idx) (q : dot_S4x128_S128x512_S4x512_1_0_0_1_n_n.contr.Idx) :
    (dot_S4x128_S128x512_S4x512_1_0_0_1_n_n.lhsIdx i q 0).val = (i 0).val := by
  unfold DotDims.lhsIdx
  rw [dif_neg (show ¬(0 : Fin S4x128.rank) ∈ dot_S4x128_S128x512_S4x512_1_0_0_1_n_n.lhsBatch by decide),
    dif_pos (show (0 : Fin S4x128.rank) ∈ dot_S4x128_S128x512_S4x512_1_0_0_1_n_n.lhsNonContracting by decide)]
  rfl
private theorem lhsQW_1 (i : S4x512.Idx) (q : dot_S4x128_S128x512_S4x512_1_0_0_1_n_n.contr.Idx) :
    (dot_S4x128_S128x512_S4x512_1_0_0_1_n_n.lhsIdx i q 1).val = (q ⟨0, by decide⟩).val :=
  dot_S4x128_S128x512_S4x512_1_0_0_1_n_n.lhsIdx_val_of_single rfl i q
private theorem rhsQW_0 (i : S4x512.Idx) (q : dot_S4x128_S128x512_S4x512_1_0_0_1_n_n.contr.Idx) :
    (dot_S4x128_S128x512_S4x512_1_0_0_1_n_n.rhsIdx i q 0).val = (q ⟨0, by decide⟩).val :=
  dot_S4x128_S128x512_S4x512_1_0_0_1_n_n.rhsIdx_val_of_single rfl i q
private theorem rhsQW_1 (i : S4x512.Idx) (q : dot_S4x128_S128x512_S4x512_1_0_0_1_n_n.contr.Idx) :
    (dot_S4x128_S128x512_S4x512_1_0_0_1_n_n.rhsIdx i q 1).val = (i 1).val := by
  unfold DotDims.rhsIdx
  rw [dif_neg (show ¬(1 : Fin S128x512.rank) ∈ dot_S4x128_S128x512_S4x512_1_0_0_1_n_n.rhsBatch by decide),
    dif_pos (show (1 : Fin S128x512.rank) ∈ dot_S4x128_S128x512_S4x512_1_0_0_1_n_n.rhsNonContracting by decide)]
  rfl

/-- Entry (h, k) of the product of a [4, 128] matrix with the [128, 512] projection. -/
private theorem mulQW_apply (A : FVec Ideal S4x128 .f32) (B : FVec Ideal S128x512 .f32) (h : Fin 4) (k : Fin 512) :
    matmul dot_S4x128_S128x512_S4x512_1_0_0_1_n_n none A B (constant (F := Ideal) S4x512 .f32 0x00000000#32) (ix2 h k)
      = ∑ c : Fin 128, A (ix2 h c) * B (ix2 c k) := by
  refine (Ideal.matmul_constant_zero_apply _ _ _ _ _).trans ?_
  rw [← Equiv.sum_comp (contrEquiv1 dot_S4x128_S128x512_S4x512_1_0_0_1_n_n 128 rfl rfl).symm]
  refine Finset.sum_congr rfl fun c _ => ?_
  have hc := contrEquiv1_symm_val dot_S4x128_S128x512_S4x512_1_0_0_1_n_n 128 rfl rfl c
  have el : dot_S4x128_S128x512_S4x512_1_0_0_1_n_n.lhsIdx (ix2 h k)
      ((contrEquiv1 dot_S4x128_S128x512_S4x512_1_0_0_1_n_n 128 rfl rfl).symm c) = ix2 h c := funext fun a => Fin.ext (by
    match a with
    | ⟨0, _⟩ => exact lhsQW_0 _ _
    | ⟨1, _⟩ => exact (lhsQW_1 _ _).trans hc)
  have er : dot_S4x128_S128x512_S4x512_1_0_0_1_n_n.rhsIdx (ix2 h k)
      ((contrEquiv1 dot_S4x128_S128x512_S4x512_1_0_0_1_n_n 128 rfl rfl).symm c) = ix2 c k := funext fun a => Fin.ext (by
    match a with
    | ⟨0, _⟩ => exact (rhsQW_0 _ _).trans hc
    | ⟨1, _⟩ => exact rhsQW_1 _ _)
  rw [el, er]

/-! ## The integer head mask

The body floor-divides the lane index by 128 (a signed quotient, lowered by one where the signs differ and the remainder is
not zero) and compares it with the sublane index. On a lane index below 512 and a sublane index below 4 the bit is set
exactly when the lane's head, k / 128, is the sublane. -/

/-- The body's integer chain on one lane word a, one sublane word b and the divisor word c. -/
private def headBit (a b c : BitVec 32) : BitVec 1 :=
  IntOp.cmpi .eq
    (Scalar.select
      (IntOp.andi
        (IntOp.cmpi .ne
          (IntOp.subi ((IntOp.cmpi .sgt a 0#32).setWidth 32) ((IntOp.cmpi .slt a 0#32).setWidth 32))
          (Scalar.subi (Scalar.extui (Scalar.cmpi .sgt c 0#32)) (Scalar.extui (Scalar.cmpi .slt c 0#32))))
        (IntOp.cmpi .ne (IntOp.remsi .vector a c) 0#32))
      (IntOp.subi (IntOp.divsi .vector a c) 1#32)
      (IntOp.divsi .vector a c))
    b

/-- On the words of k below 512 and h below 4, against 128: set exactly when k / 128 = h. -/
private theorem headBit_eq : ∀ (h : Fin 4) (k : Fin 512),
    headBit (BitVec.ofNat 32 k.val) (BitVec.ofNat 32 h.val) 128#32 = if k.val / 128 = h.val then 1#1 else 0#1 := by
  decide +kernel

/-- The mask as the body computes it from the lane iota and the divisor. -/
private def sMask (v37 : IVec S4x512 32) (c : BitVec 32) : IVec S4x512 1 :=
  cmpi .eq
    (select
      (andi
        (cmpi .ne
          (subi (extui 32 (cmpi .sgt v37 (broadcast S4x512 0#32)) natLt_1_32)
            (extui 32 (cmpi .slt v37 (broadcast S4x512 0#32)) natLt_1_32))
          (broadcast S4x512 (Scalar.subi (Scalar.extui (Scalar.cmpi .sgt c 0#32)) (Scalar.extui (Scalar.cmpi .slt c 0#32)))))
        (cmpi .ne (remsi v37 (broadcast S4x512 c)) (broadcast S4x512 0#32)))
      (subi (divsi v37 (broadcast S4x512 c)) (broadcast S4x512 1#32))
      (divsi v37 (broadcast S4x512 c)))
    (iota .tc S4x512 32 [0] iota_S4x512_d0_w32)

/-- The mask at sublane h, lane k. -/
private theorem sMask_apply (h : Fin 4) (k : Fin 512) :
    sMask (iota .tc S4x512 32 [1] iota_S4x512_d1_w32) 128#32 (ix2 h k) = if k.val / 128 = h.val then 1#1 else 0#1 := by
  show headBit (iota .tc S4x512 32 [1] iota_S4x512_d1_w32 (ix2 h k)) (iota .tc S4x512 32 [0] iota_S4x512_d0_w32 (ix2 h k)) 128#32 = _
  rw [iota_single_apply, iota_single_apply]
  exact headBit_eq h k

/-! ## The stages of the body, each read at an index -/

/-- The graph's rows, the block's unit axis dropped. -/
private def sV3 (x1 : FVec Ideal S1x4096x128 .f32) : FVec Ideal S4096x128 .f32 :=
  shapeCast S4096x128 x1 shapeCasts_S1x4096x128_S4096x128

private theorem sV3_apply (x1 : FVec Ideal S1x4096x128 .f32) (s : Fin 4096) (c : Fin 128) :
    sV3 x1 (ix2 s c) = x1 (ix3 0 s c) :=
  shapeCast_1ab_ab_apply x1 _ s c

/-- The projection contracted with the head matrix. -/
private def sV9 (x2 : FVec Ideal S128x512 .f32) (x3 : FVec Ideal S512x4 .f32) : FVec Ideal S128x4 .f32 :=
  matmul dot_S128x512_S512x4_S128x4_1_0_0_1_n_n none x2 (shapeCast S512x4 x3 shapeCasts_S512x4_S512x4)
    (constant (F := Ideal) S128x4 .f32 0x00000000#32)

private theorem sV9_apply (x2 : FVec Ideal S128x512 .f32) (x3 : FVec Ideal S512x4 .f32) (c : Fin 128) (h : Fin 4) :
    sV9 x2 x3 (ix2 c h) = ∑ k : Fin 512, x2 (ix2 c k) * x3 (ix2 k h) := by
  unfold sV9
  rw [shapeCast_self]
  exact mulWT_apply x2 x3 c h

/-- The bias row contracted with the head matrix. -/
private def sV10 (x3 : FVec Ideal S512x4 .f32) (x4 : FVec Ideal S1x512 .f32) : FVec Ideal S1x4 .f32 :=
  matmul dot_S1x512_S512x4_S1x4_1_0_0_1_n_n none (k0_pay2 x4) (shapeCast S512x4 x3 shapeCasts_S512x4_S512x4)
    (constant (F := Ideal) S1x4 .f32 0x00000000#32)

/-- The bias row passes through its same-shape cast unchanged. -/
private theorem pay2_eq (x4 : FVec Ideal S1x512 .f32) : k0_pay2 (F := Ideal) x4 = x4 := by
  unfold k0_pay2
  exact shapeCast_self x4 _

private theorem sV10_apply (x3 : FVec Ideal S512x4 .f32) (x4 : FVec Ideal S1x512 .f32) (u : Fin 1) (h : Fin 4) :
    sV10 x3 x4 (ix2 u h) = ∑ k : Fin 512, x4 (ix2 u k) * x3 (ix2 k h) := by
  unfold sV10
  rw [shapeCast_self, pay2_eq]
  exact mulBT_apply x4 x3 u h

/-- The logits: rows against the contracted projection, plus the contracted bias on every row. -/
private def sV13 (x1 : FVec Ideal S1x4096x128 .f32) (x2 : FVec Ideal S128x512 .f32) (x3 : FVec Ideal S512x4 .f32)
    (x4 : FVec Ideal S1x512 .f32) : FVec Ideal S4096x4 .f32 :=
  addf (matmul dot_S4096x128_S128x4_S4096x4_1_0_0_1_n_n none (sV3 x1) (sV9 x2 x3) (constant (F := Ideal) S4096x4 .f32 0x00000000#32))
    (broadcastTo S4096x4 (sV10 x3 x4) broadcasts_S1x4_S4096x4)

private theorem sV13_apply (x1 : FVec Ideal S1x4096x128 .f32) (x2 : FVec Ideal S128x512 .f32) (x3 : FVec Ideal S512x4 .f32)
    (x4 : FVec Ideal S1x512 .f32) (s : Fin 4096) (h : Fin 4) :
    sV13 x1 x2 x3 x4 (ix2 s h)
      = logitT (fun s c => x1 (ix3 0 s c)) (fun c k => x2 (ix2 c k)) (fun k h => x3 (ix2 k h)) (fun k => x4 (ix2 0 k)) s h := by
  unfold sV13 logitT
  rw [addf_apply, mulVU_apply, broadcastTo_1b_ab_apply, sV10_apply]
  simp only [sV3_apply, sV9_apply]

/-- The leaky ReLU of the logits. -/
private def sV18 (v13 : FVec Ideal S4096x4 .f32) : FVec Ideal S4096x4 .f32 :=
  select (cmpf .ogt v13 (broadcast S4096x4 (Scalar.ofBits .f32 0x00000000#32))) v13
    (mulf (broadcast S4096x4 (Scalar.ofBits .f32 0x3E4CCCCD#32)) v13)

private theorem sV18_apply (v13 : FVec Ideal S4096x4 .f32) (i : S4096x4.Idx) : sV18 v13 i = lreluK (v13 i) := by
  show Scalar.select (Ideal.cmp .ogt (v13 i) (Ideal.ofBits .f32 0x00000000#32)) (v13 i)
      (Ideal.ofBits .f32 0x3E4CCCCD#32 * v13 i) = _
  rw [Ideal.ofBits_zero_f32]
  rfl

/-- The validity bit of each row: its index below the graph's length. -/
private def sV21 (g : BitVec 32) : IVec S4096x4 1 :=
  cmpi .slt (iota .tc S4096x4 32 [0] iota_S4096x4_d0_w32) (broadcast S4096x4 g)

private theorem sV21_apply (g : BitVec 32) (s : Fin 4096) (h : Fin 4) : sV21 g (ix2 s h) = valid g s := by
  show IntOp.cmpi .slt (iota .tc S4096x4 32 [0] iota_S4096x4_d0_w32 (ix2 s h)) g = _
  rw [iota_single_apply]
  rfl

/-- Axis 0 of [4096, 4] reduced: the source index over head h with row s inserted is (s, h). -/
private theorem lift_rows (h : Fin 4) (s : Fin 4096) : reduces_S4096x4_S4.lift (ix1 h) s = ix2 s h :=
  funext fun c => Fin.ext (by
    match c with
    | ⟨0, _⟩ => rfl
    | ⟨1, _⟩ => rfl)

/-- The largest valid activation per head. -/
private def sV24 (g : BitVec 32) (v18 : FVec Ideal S4096x4 .f32) : FVec Ideal S4 .f32 :=
  multiReduction .maximumf [0] S4 (select (sV21 g) v18 (broadcast S4096x4 (Scalar.ofBits .f32 0xFF800000#32))) 0xFF800000#32
    reduces_S4096x4_S4 (.inl rfl) rfl

private theorem sV24_apply (g : BitVec 32) (v18 : FVec Ideal S4096x4 .f32) (h : Fin 4) :
    sV24 g v18 (ix1 h) = amax (fun s => v18 (ix2 s h)) (valid g) := by
  unfold sV24 amax
  refine (Ideal.multiReduction_maximumf_single _ _ reduces_S4096x4_S4 _ _ (ix1 h)).trans ?_
  refine congrArg (fun f => Finset.fold max NI f (Finset.univ : Finset (Fin 4096))) (funext fun (s : Fin 4096) => ?_)
  show select (sV21 g) v18 (broadcast S4096x4 (Scalar.ofBits .f32 0xFF800000#32)) (reduces_S4096x4_S4.lift (ix1 h) s) = _
  rw [lift_rows h s, select_apply, sV21_apply]
  rfl

/-- exp (activation - largest) on the valid rows, zero elsewhere. -/
private def sV30 (g : BitVec 32) (v18 : FVec Ideal S4096x4 .f32) : FVec Ideal S4096x4 .f32 :=
  select (sV21 g)
    (exp (subf v18 (broadcastTo S4096x4 (shapeCast S1x4 (sV24 g v18) shapeCasts_S4_S1x4) broadcasts_S1x4_S4096x4)))
    (broadcast S4096x4 (Scalar.ofBits .f32 0x00000000#32))

private theorem sV30_apply (g : BitVec 32) (v18 : FVec Ideal S4096x4 .f32) (s : Fin 4096) (h : Fin 4) :
    sV30 g v18 (ix2 s h) = ex (fun s' => v18 (ix2 s' h)) (valid g) s := by
  show Scalar.select (sV21 g (ix2 s h))
      (Ideal.exp (v18 (ix2 s h)
        - broadcastTo S4096x4 (shapeCast S1x4 (sV24 g v18) shapeCasts_S4_S1x4) broadcasts_S1x4_S4096x4 (ix2 s h)))
      (Ideal.ofBits .f32 0x00000000#32) = _
  rw [sV21_apply, broadcastTo_1b_ab_apply, shapeCast_a_1a_apply, sV24_apply, Ideal.ofBits_zero_f32]
  rfl

/-- The softmax denominators per head. -/
private def sV31 (g : BitVec 32) (v18 : FVec Ideal S4096x4 .f32) : FVec Ideal S4 .f32 :=
  multiReduction .add [0] S4 (sV30 g v18) 0x00000000#32 reduces_S4096x4_S4 (.inl rfl) rfl

private theorem sV31_apply (g : BitVec 32) (v18 : FVec Ideal S4096x4 .f32) (h : Fin 4) :
    sV31 g v18 (ix1 h) = ∑ s : Fin 4096, ex (fun s' => v18 (ix2 s' h)) (valid g) s := by
  unfold sV31
  refine (Ideal.multiReduction_add_single _ _ reduces_S4096x4_S4 _ _ (ix1 h)).trans ?_
  refine Finset.sum_congr rfl fun (s : Fin 4096) _ => ?_
  rw [lift_rows h s, sV30_apply]

/-- The softmax weights. -/
private def sV34 (g : BitVec 32) (v18 : FVec Ideal S4096x4 .f32) : FVec Ideal S4096x4 .f32 :=
  divf (sV30 g v18) (broadcastTo S4096x4 (shapeCast S1x4 (sV31 g v18) shapeCasts_S4_S1x4) broadcasts_S1x4_S4096x4)

private theorem sV34_apply (g : BitVec 32) (v18 : FVec Ideal S4096x4 .f32) (s : Fin 4096) (h : Fin 4) :
    sV34 g v18 (ix2 s h) = prob (fun s' => v18 (ix2 s' h)) (valid g) s := by
  unfold sV34 prob
  rw [divf_apply, sV30_apply, broadcastTo_1b_ab_apply, shapeCast_a_1a_apply, sV31_apply]

/-- The rows pooled by the weights, then projected. -/
private def sV36 (v34 : FVec Ideal S4096x4 .f32) (v3 : FVec Ideal S4096x128 .f32) (x2 : FVec Ideal S128x512 .f32) :
    FVec Ideal S4x512 .f32 :=
  matmul dot_S4x128_S128x512_S4x512_1_0_0_1_n_n none
    (matmul dot_S4096x4_S4096x128_S4x128_0_0_1_1_n_n none v34 v3 (constant (F := Ideal) S4x128 .f32 0x00000000#32)) x2
    (constant (F := Ideal) S4x512 .f32 0x00000000#32)

private theorem sV36_apply (v34 : FVec Ideal S4096x4 .f32) (v3 : FVec Ideal S4096x128 .f32) (x2 : FVec Ideal S128x512 .f32)
    (h : Fin 4) (k : Fin 512) :
    sV36 v34 v3 x2 (ix2 h k) = ∑ c : Fin 128, (∑ s : Fin 4096, v34 (ix2 s h) * v3 (ix2 s c)) * x2 (ix2 c k) := by
  unfold sV36
  rw [mulQW_apply]
  refine Finset.sum_congr rfl fun c _ => ?_
  rw [mulPV_apply]

/-- The body's second payload is these stages composed. -/
private theorem pay3_eq (g : BitVec 32) (x1 : FVec Ideal S1x4096x128 .f32) (x2 : FVec Ideal S128x512 .f32)
    (x3 : FVec Ideal S512x4 .f32) (x4 : FVec Ideal S1x512 .f32) :
    k0_pay3 (F := Ideal) g x1 x2 x3 x4 = sV36 (sV34 g (sV18 (sV13 x1 x2 x3 x4))) (sV3 x1) x2 := rfl

/-- Axis 0 of [4, 512] reduced: the source index over lane k with sublane h inserted is (h, k). -/
private theorem lift_heads (k : Fin 512) (h : Fin 4) : reduces_S4x512_S512.lift (ix1 k) h = ix2 h k :=
  funext fun c => Fin.ext (by
    match c with
    | ⟨0, _⟩ => rfl
    | ⟨1, _⟩ => rfl)

/-- The four head rows, each kept on its own lanes, summed. -/
private def sV66 (v36 : FVec Ideal S4x512 .f32) (m : IVec S4x512 1) : FVec Ideal S512 .f32 :=
  multiReduction .add [0] S512 (select m v36 (broadcast S4x512 (Scalar.ofBits .f32 0x00000000#32))) 0x00000000#32
    reduces_S4x512_S512 (.inl rfl) rfl

private theorem sV66_apply (v36 : FVec Ideal S4x512 .f32) (m : IVec S4x512 1) (k : Fin 512) :
    sV66 v36 m (ix1 k) = ∑ h : Fin 4, Scalar.select (m (ix2 h k)) (v36 (ix2 h k)) 0 := by
  unfold sV66
  refine (Ideal.multiReduction_add_single _ _ reduces_S4x512_S512 _ _ (ix1 k)).trans ?_
  refine Finset.sum_congr rfl fun (h : Fin 4) _ => ?_
  rw [lift_heads k h, select_apply, broadcast_apply]
  show Scalar.select (m (ix2 h k)) (v36 (ix2 h k)) (Ideal.ofBits .f32 0x00000000#32) = _
  rw [Ideal.ofBits_zero_f32]

/-- The body's stored payload is the masked sum plus the bias row, with two unit axes put in front. -/
private theorem pay1_eq (v8 : FVec Ideal S1x512 .f32) (v36 : FVec Ideal S4x512 .f32) (v37 : IVec S4x512 32) (c : BitVec 32) :
    k0_pay1 (F := Ideal) v8 v36 v37 c
      = shapeCast S1x1x512 (addf (shapeCast S1x512 (sV66 v36 (sMask v37 c)) shapeCasts_S512_S1x512) v8)
          shapeCasts_S1x512_S1x1x512 := rfl

/-- What the body stores, at column k of its [1, 1, 512] block: from the graph's length word g, its rows x1, the
    projection x2, the block-diagonal head matrix x3 and the bias row x4. The four head rows of (softmax-pooled rows)
    times the projection are each kept on the lanes of their own head and summed, and the bias is added. -/
theorem pay_apply (g : BitVec 32) (x1 : FVec Ideal S1x4096x128 .f32) (x2 : FVec Ideal S128x512 .f32)
    (x3 : FVec Ideal S512x4 .f32) (x4 : FVec Ideal S1x512 .f32) (k : Fin 512) :
    k0_pay1 (F := Ideal) (k0_pay2 x4) (k0_pay3 g x1 x2 x3 x4) (iota .tc S4x512 32 [1] iota_S4x512_d1_w32) 128#32 (ix3 0 0 k)
      = blockOut (fun s c => x1 (ix3 0 s c)) g (fun c k' => x2 (ix2 c k')) (fun k' h => x3 (ix2 k' h)) (fun k' => x4 (ix2 0 k')) k := by
  rw [pay1_eq, pay3_eq, pay2_eq, shapeCast_ab_1ab_apply, addf_apply, shapeCast_a_1a_apply, sV66_apply]
  unfold blockOut
  refine congrArg (· + x4 (ix2 0 k)) (Finset.sum_congr rfl fun h _ => ?_)
  rw [sMask_apply]
  by_cases hk : k.val / 128 = h.val
  · rw [if_pos hk, if_pos hk, select_one, sV36_apply]
    simp only [sV34_apply, sV18_apply, sV13_apply, sV3_apply]
  · rw [if_neg hk, if_neg hk, select_zero]

end Cert.KernelIdeal.KValue

end
-- ==== Proof.KernelHost.lean ====
/-
  What the host operations before the kernel leave in the two arrays they compute: the block-diagonal head
  matrix [512, 4] and the bias as a row [1, 512].

  The head matrix T has T[k, h] = tw[k / 128, k % 128] where k / 128 = h and 0 elsewhere: the four head vectors
  of 128 features laid end to end down the rows, each in its own column. It is computed as a select between the
  flattened head vectors (entry k of the flattening of [1, 4, 128] is entry (0, k / 128, k % 128)) and zero, on the
  mask "floor (k / 128) = h"; the floor division is spelled with truncating division and a sign correction that
  never fires on 0 ≤ k < 512. The bias row is the bias with a leading unit axis: entry (0, k) is entry k.
-/
import proofs.«149397_g68547678044319_fold_wed_c4_656_4_alg».proof.Proof.Gen.KernelIdeal.Frame.Runs
import proofs.«149397_g68547678044319_fold_wed_c4_656_4_alg».proof.Proof.Spec
import Idealize.ShloMosaic.Lib.ValueIdx
import Idealize.ShloMosaic.Lib.IdealHost
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx Cert.Attn

variable (m : (ℓ : Loc nD τ sig) → Buf (Elt Ideal) ℓ)

/-! ## The mask as one word computation

The floor division of a word a by 128: the truncating signed quotient q and remainder r, and q - 1 in place of q
where the signs of a and of 128 differ and r ≠ 0. Row k of the mask compares that with the head number. For
0 ≤ a < 512 the sign of a is 0 or 1, the sign of 128 is 1, so a correction could only happen at a = 0, where r = 0:
there is none, and the result is the natural quotient a / 128. -/

/-- The bit "floor (a / 128) = b" on 32-bit words, spelled out step by step: truncating quotient, the two signs,
    the remainder, the correction by one, the comparison. -/
private def maskW (a b : BitVec 32) : BitVec 1 :=
  let q := IntOp.divsi .host a 128#32
  let sa : BitVec 32 := if a = 0 then 0 else if a.msb then -1 else 1
  let sd : BitVec 32 := if (128#32 : BitVec 32) = 0 then 0 else if (128#32 : BitVec 32).msb then -1 else 1
  let r := IntOp.remsi .host a 128#32
  let both := IntOp.andi (IntOp.cmpi .ne sa sd) (IntOp.cmpi .ne r 0#32)
  IntOp.cmpi .eq (Scalar.select both (IntOp.subi q 1#32) q) b

/-- On the words of k < 512 and h < 4 the bit is set exactly when k / 128 = h: finitely many cases, each a
    computation on words. -/
private theorem maskW_closed : ∀ (k : Fin 512) (h : Fin 4),
    maskW (BitVec.ofNat 32 k.val) (BitVec.ofNat 32 h.val) = if k.val / 128 = h.val then 1#1 else 0#1 := by
  decide +kernel

/-! ## The two arrays as terms in the inputs -/

/-- The [512, 4] mask: the row numbers 0 … 511 as a column, floor-divided by 128, spread along the four columns and
    compared with the column numbers 0 … 3 spread along the rows. -/
private def hostMask : IVec S512x4 1 :=
  let v1 : IVec S512 32 := iotaInDim S512 32 0
  let v2 : IVec S512x1 32 := broadcastInDim S512x1 ![0] bcast_S512_S512x1_0 v1
  let c : IVec S_ 32 := constantI S_ 32 128#32
  let d0 : IVec S_ 32 := id c
  let d1 : IVec S512x1 32 := broadcastInDim S512x1 ![] bcast_S_S512x1 d0
  let d2 : IVec S512x1 32 := Host.divsi v2 d1
  let d3 : IVec S512x1 32 := signi v2
  let d4 : IVec S_ 32 := signi d0
  let d5 : IVec S512x1 32 := broadcastInDim S512x1 ![] bcast_S_S512x1 d4
  let d6 : IVec S512x1 1 := cmpi .ne d3 d5
  let d7 : IVec S512x1 32 := broadcastInDim S512x1 ![] bcast_S_S512x1 d0
  let d8 : IVec S512x1 32 := Host.remsi v2 d7
  let dc : IVec S_ 32 := constantI S_ 32 0#32
  let d9 : IVec S512x1 32 := broadcastInDim S512x1 ![] bcast_S_S512x1 dc
  let d10 : IVec S512x1 1 := cmpi .ne d8 d9
  let d11 : IVec S512x1 1 := andi d6 d10
  let dc0 : IVec S_ 32 := constantI S_ 32 1#32
  let d12 : IVec S512x1 32 := broadcastInDim S512x1 ![] bcast_S_S512x1 dc0
  let d13 : IVec S512x1 32 := subi d2 d12
  let v3 : IVec S512x1 32 := select d11 d13 d2
  let v4 : IVec S4 32 := iotaInDim S4 32 0
  let v5 : IVec S1x4 32 := broadcastInDim S1x4 ![1] bcast_S4_S1x4_1 v4
  let v6 : IVec S512x4 32 := broadcastInDim S512x4 ![0, 1] bcast_S512x1_S512x4_0_1 v3
  let v7 : IVec S512x4 32 := broadcastInDim S512x4 ![0, 1] bcast_S1x4_S512x4_0_1 v5
  cmpi .eq v6 v7

/-- The [512, 4] head matrix from the head vectors tw [1, 4, 128]: tw flattened to 512 entries, stood up as a column,
    spread along the four columns, kept where the mask is set and replaced by zero elsewhere. -/
private def hostT (tw : FVec Ideal S1x4x128 .f32) : FVec Ideal S512x4 .f32 :=
  let v0 : FVec Ideal S512 .f32 := shapeCast S512 tw shapeCasts_S1x4x128_S512
  let v9 : FVec Ideal S512x1 .f32 := broadcastInDim S512x1 ![0] bcast_S512_S512x1_0 v0
  let cst : FVec Ideal S_ .f32 := constant (F := Ideal) S_ .f32 0x00000000#32
  let e0 : FVec Ideal S_ .f32 := id cst
  let e1 : FVec Ideal S512x4 .f32 := broadcastInDim S512x4 ![0, 1] bcast_S512x1_S512x4_0_1 v9
  let e2 : FVec Ideal S512x4 .f32 := broadcastInDim S512x4 ![] bcast_S_S512x4 e0
  select hostMask e1 e2

/-- The mask at row k, column h is the word computation on the words of k and h: every spreading reads the
    coordinate it keeps, and the row and column numbers read as their words. -/
private theorem hostMask_apply (k : Fin 512) (h : Fin 4) :
    hostMask (ix2 k h) = maskW (BitVec.ofNat 32 k.val) (BitVec.ofNat 32 h.val) := rfl

/-- The head matrix at row k, column h: where the mask bit is set, the entry of tw at row-major position k, which is
    head k / 128, feature k % 128 (since (0 · 4 + k / 128) · 128 + k % 128 = k); zero elsewhere. -/
private theorem hostT_apply (tw : FVec Ideal S1x4x128 .f32) (k : Fin 512) (h : Fin 4) :
    hostT tw (ix2 k h) = Scalar.select (maskW (BitVec.ofNat 32 k.val) (BitVec.ofNat 32 h.val))
      (tw (ix3 0 ⟨k.val / 128, by have := k.isLt; omega⟩ ⟨k.val % 128, Nat.mod_lt _ (by norm_num)⟩)) 0 := by
  unfold hostT
  dsimp only
  rw [select_apply, hostMask_apply]
  congr 1
  · -- the [512, 4] spreading keeps the row, the [512, 1] column keeps it again, the flattening keeps the position
    refine (broadcastInDim_apply _ _ _ (ix2 k h) (ix2 k 0) ?_).trans ?_
    · intro a; match a with
      | ⟨0, _⟩ => rfl
      | ⟨1, _⟩ => rfl
    refine (broadcastInDim_apply _ _ _ (ix2 k 0) (ix1 k) ?_).trans ?_
    · intro a; match a with
      | ⟨0, _⟩ => rfl
    refine shapeCast_apply _ _ _ _ ?_
    rw [Shape.rowMajor_val_three, Shape.rowMajor_val_one]
    show ((0 : Fin 1).val * 4 + k.val / 128) * 128 + k.val % 128 = k.val
    simp only [Fin.val_zero]; omega
  · -- the all-zero word is the real number zero
    rw [broadcastInDim_scalar_apply]
    exact Ideal.ofBits_zero_f32

/-- What the operations before the kernel leave in the head-matrix array: the term above at the head vectors. -/
private theorem V_tmat_term (c : Dev nD) :
    (V m c main_call0_v10 : S512x4.Idx → EReal) = hostT (m ((c : Thread nD τ).loc main_arg3)) := by
  show StableHlo.after hostOps0 (fun b => m (c, b)) (Proc.devRef .tc main_call0_v10) = _
  after_results_simp
  rfl

/-- What they leave in the bias-row array: the bias [512] recast as [1, 512]. -/
private theorem V_bias_term (c : Dev nD) :
    (V m c main_call0_v11 : S1x512.Idx → EReal)
      = shapeCast S1x512 (m ((c : Thread nD τ).loc main_arg4) : S512.Idx → EReal) shapeCasts_S512_S1x512 := by
  show StableHlo.after hostOps0 (fun b => m (c, b)) (Proc.devRef .tc main_call0_v11) = _
  after_results
  rfl

/-- The head matrix the kernel is given, at row k and head h: the entry of head k / 128 at feature k % 128 when that
    head is h, zero otherwise. The array is the select term; its mask bit at (k, h) is set exactly when k / 128 = h, and
    the two branches of the select are the two branches of the block-diagonal arrangement. -/
theorem V_tmat (c : Dev nD) (k : Fin 512) (h : Fin 4) :
    (V m c main_call0_v10 : S512x4.Idx → EReal) (ix2 k h) = tmat (cT (m ((c : Thread nD τ).loc main_arg3))) k h := by
  refine (congrFun (V_tmat_term m c) (ix2 k h)).trans ?_
  rw [hostT_apply, maskW_closed]
  unfold tmat cT
  by_cases e : k.val / 128 = h.val
  · rw [if_pos e, if_pos e]; rfl
  · rw [if_neg e, if_neg e]; rfl

/-- The bias row the kernel is given, at column k: entry k of the bias, since position (0, k) of a [1, 512] array
    and position k of a [512] array are the same row-major position, 0 · 512 + k = k. -/
theorem V_bias (c : Dev nD) (k : Fin 512) :
    (V m c main_call0_v11 : S1x512.Idx → EReal) (ix2 0 k) = cB (m ((c : Thread nD τ).loc main_arg4)) k := by
  refine (congrFun (V_bias_term m c) (ix2 0 k)).trans ?_
  unfold cB
  refine shapeCast_apply _ _ _ (ix1 k) ?_
  rw [Shape.rowMajor_val_one, Shape.rowMajor_val_two]
  show k.val = (0 : Fin 1).val * 512 + k.val
  simp only [Fin.val_zero]; omega

end Cert.KernelIdeal.KValue

end
-- ==== Proof.KernelValue.lean ====
/-
  The kernel program's result array, read off its generated frame run: after the sixteen grid points and the
  final reshape, entry (b, k) of the [16, 512] result is `outK` of Spec.lean at the launch contents of the
  five argument arrays.
  Grid point t handles graph t. The body's one store writes the whole [1, 1, 512] output block; its value at
  column k is `blockOut` of the point's input blocks (KernelPay.lean). The rows block at point t is rows
  (t, ·, ·) of the rows array, the length word is entry t of the lengths, the projection is fetched whole,
  and the head matrix and bias row are what the host lines before the launch computed (KernelHost.lean).
  The sixteen output blocks tile the [16, 1, 512] array, which the host line after the launch reshapes.
-/
import proofs.«149397_g68547678044319_fold_wed_c4_656_4_alg».proof.Proof.Gen.KernelIdeal.Frame
import proofs.«149397_g68547678044319_fold_wed_c4_656_4_alg».proof.Proof.KernelPay
import proofs.«149397_g68547678044319_fold_wed_c4_656_4_alg».proof.Proof.KernelHost
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx Cert.Attn Idealize.ShloMosaic.Tactic

theorem hz3 : (![0, 0, 0] : Fin 3 → Nat) = fun _ => 0 := funext fun a => by fin_cases a <;> rfl
theorem hz2 : (![0, 0] : Fin 2 → Nat) = fun _ => 0 := funext fun a => by fin_cases a <;> rfl

section Piece

variable {F : FTy → Type} [FloatOps F]

/-- What the body leaves in the output's staging buffer: its one covering store's payload, whose loads read the
    whole input buffers and one word of the lengths. -/
theorem out_A (c : Dev nD) (i : grid0.Coords) (arg1 : Memref sig .tc .smem S16 .i32) (harg1 : arg1.IsWhole) (arg2 : Memref sig .tc .vmem S1x4096x128 .f32) (harg2 : arg2.IsWhole) (arg3 : Memref sig .tc .vmem S128x512 .f32) (harg3 : arg3.IsWhole) (arg4 : Memref sig .tc .vmem S512x4 .f32) (harg4 : arg4.IsWhole) (arg5 : Memref sig .tc .vmem S1x512 .f32) (harg5 : arg5.IsWhole) (arg6 : Memref sig .tc .vmem S1x1x512 .f32) (harg6 : arg6.IsWhole)
    (x0 : Vec F S16 .i32) (x1 : Vec F S1x4096x128 .f32) (x2 : Vec F S128x512 .f32) (x3 : Vec F S512x4 .f32) (x4 : Vec F S1x512 .f32) :
    out0_A_5 c i arg1 harg1 arg2 harg2 arg3 harg3 arg4 harg4 arg5 harg5 arg6 harg6 x0 x1 x2 x3 x4
      = k0_pay1 (k0_pay2 x4)
          (k0_pay3 (View.ld x0 (Rect.unit (s := S16) (k0_off1 i) S1.size (k0_off1_inb i)) (Shape.Idx.first (numel1_S1.symm ▸ Nat.one_pos))) x1 x2 x3 x4)
          (iota .tc S4x512 32 [1] iota_S4x512_d1_w32) 128#32 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S1x4096x128) hz3, View.ld_unit_zero (S := S128x512) hz2, View.ld_unit_zero (S := S512x4) hz2, View.ld_unit_zero (S := S1x512) hz2]

end Piece

variable (m : (ℓ : Loc nD τ sig) → Buf (Elt Ideal) ℓ) (ρ : Dev nD → PrngReg)

/-- Point t as a graph number. -/
abbrev gr (t : Fin cfg0.N) : Fin 16 := ⟨t.val, lt_of_lt_of_eq t.isLt N_0⟩

/-- The input blocks at point t, at their literal types. -/
abbrev xb0 (c : Dev nD) (t : Fin cfg0.N) : S16.Idx → BitVec 32 := iblk m c 0 t
abbrev xb1 (c : Dev nD) (t : Fin cfg0.N) : FVec Ideal S1x4096x128 .f32 := iblk m c 1 t
abbrev xb2 (c : Dev nD) (t : Fin cfg0.N) : FVec Ideal S128x512 .f32 := iblk m c 2 t
abbrev xb3 (c : Dev nD) (t : Fin cfg0.N) : FVec Ideal S512x4 .f32 := iblk m c 3 t
abbrev xb4 (c : Dev nD) (t : Fin cfg0.N) : FVec Ideal S1x512 .f32 := iblk m c 4 t

/-- The printed index maps over the grid: the rows and the output move with the point on axis 0; the rest stay. -/
theorem idx_facts : ∀ t : Fin cfg0.N, win0_0.index t (0 : Fin 1) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0
    ∧ k0_off1 (grid0.coords t) (0 : Fin 1) = t.val :=
  (by decide +kernel : ∀ t : Fin grid0.N, _)

/-- The rows block at point t is the rows of graph t. -/
theorem xb1_apply (c : Dev nD) (t : Fin cfg0.N) (s : Fin 4096) (c' : Fin 128) :
    xb1 m c t (ix3 0 s c') = m ((c : Thread nD τ).loc main_arg0) (ix3 (gr t) s c') := by
  obtain ⟨e0, e10, e11, e12, e20, e21, e30, e31, e40, e41, e50, e51, e52, eo⟩ := idx_facts t
  show V m c main_arg0 (((cfg0.win 1).blk t).view.emb (ix3 0 s c')) = _
  rw [V_main_arg0]
  congr 1
  funext a
  apply Fin.ext
  match a with
  | ⟨0, _⟩ => show win0_1.index t (0 : Fin 3) * 1 + 1 * 0 = t.val; omega
  | ⟨1, _⟩ => show win0_1.index t (1 : Fin 3) * 4096 + 1 * s.val = s.val; omega
  | ⟨2, _⟩ => show win0_1.index t (2 : Fin 3) * 128 + 1 * c'.val = c'.val; omega

/-- The projection is fetched whole. -/
theorem xb2_apply (c : Dev nD) (t : Fin cfg0.N) (c' : Fin 128) (k : Fin 512) :
    xb2 m c t (ix2 c' k) = m ((c : Thread nD τ).loc main_arg2) (ix2 c' k) := by
  obtain ⟨e0, e10, e11, e12, e20, e21, e30, e31, e40, e41, e50, e51, e52, eo⟩ := idx_facts t
  show V m c main_arg2 (((cfg0.win 2).blk t).view.emb (ix2 c' k)) = _
  rw [V_main_arg2]
  congr 1
  funext a
  apply Fin.ext
  match a with
  | ⟨0, _⟩ => show win0_2.index t (0 : Fin 2) * 128 + 1 * c'.val = c'.val; omega
  | ⟨1, _⟩ => show win0_2.index t (1 : Fin 2) * 512 + 1 * k.val = k.val; omega

/-- The head matrix is fetched whole: what the host lines before the launch left. -/
theorem xb3_apply (c : Dev nD) (t : Fin cfg0.N) (k : Fin 512) (h : Fin 4) :
    xb3 m c t (ix2 k h) = tmat (cT (m ((c : Thread nD τ).loc main_arg3))) k h := by
  obtain ⟨e0, e10, e11, e12, e20, e21, e30, e31, e40, e41, e50, e51, e52, eo⟩ := idx_facts t
  refine Eq.trans ?_ (V_tmat m c k h)
  show V m c main_call0_v10 (((cfg0.win 3).blk t).view.emb (ix2 k h)) = V m c main_call0_v10 (ix2 k h)
  congr 1
  funext a
  apply Fin.ext
  match a with
  | ⟨0, _⟩ => show win0_3.index t (0 : Fin 2) * 512 + 1 * k.val = k.val; omega
  | ⟨1, _⟩ => show win0_3.index t (1 : Fin 2) * 4 + 1 * h.val = h.val; omega

/-- The bias row likewise. -/
theorem xb4_apply (c : Dev nD) (t : Fin cfg0.N) (k : Fin 512) :
    xb4 m c t (ix2 0 k) = cB (m ((c : Thread nD τ).loc main_arg4)) k := by
  obtain ⟨e0, e10, e11, e12, e20, e21, e30, e31, e40, e41, e50, e51, e52, eo⟩ := idx_facts t
  refine Eq.trans ?_ (V_bias m c k)
  show V m c main_call0_v11 (((cfg0.win 4).blk t).view.emb (ix2 0 k)) = V m c main_call0_v11 (ix2 0 k)
  congr 1
  funext a
  apply Fin.ext
  match a with
  | ⟨0, _⟩ => show win0_4.index t (0 : Fin 2) * 1 + 1 * 0 = 0; omega
  | ⟨1, _⟩ => show win0_4.index t (1 : Fin 2) * 512 + 1 * k.val = k.val; omega

/-- The length word the body loads at point t is the length of graph t. -/
theorem word_apply (c : Dev nD) (t : Fin cfg0.N) :
    View.ld (xb0 m c t) (Rect.unit (s := S16) (k0_off1 (grid0.coords t)) S1.size (k0_off1_inb (grid0.coords t))) (Shape.Idx.first (numel1_S1.symm ▸ Nat.one_pos))
      = m ((c : Thread nD τ).loc main_arg1) (ix1 (gr t)) := by
  obtain ⟨e0, e10, e11, e12, e20, e21, e30, e31, e40, e41, e50, e51, e52, eo⟩ := idx_facts t
  show V m c main_arg1 (((cfg0.win 0).blk t).view.emb ((Rect.unit (s := S16) (k0_off1 (grid0.coords t)) S1.size (k0_off1_inb (grid0.coords t))).idx (Shape.Idx.first (numel1_S1.symm ▸ Nat.one_pos)))) = _
  rw [V_main_arg1]
  congr 1
  funext a
  apply Fin.ext
  match a with
  | ⟨0, _⟩ => show win0_0.index t (0 : Fin 1) * 16 + 1 * (k0_off1 (grid0.coords t) (0 : Fin 1) + 1 * 0) = t.val; omega

/-- The [16, 1, 512] output array after the run, by coordinates: graph b, column k. -/
def G (c : Dev nD) : S16x1x512.Idx → EReal := fun i =>
  outK (cV (m ((c : Thread nD τ).loc main_arg0))) (cG (m ((c : Thread nD τ).loc main_arg1))) (cW (m ((c : Thread nD τ).loc main_arg2)))
    (cT (m ((c : Thread nD τ).loc main_arg3))) (cB (m ((c : Thread nD τ).loc main_arg4))) ⟨(i 0).val, (i 0).isLt⟩ ⟨(i 2).val, (i 2).isLt⟩

/-- What point t writes back is block t of that array. -/
theorem flushed_eq (c : Dev nD) (t : Fin cfg0.N) :
    (dats m 0 c).flushed 5 t = ((cfg0.win 5).blk t).view.read (Elt Ideal) (G m c) := by
  obtain ⟨e0, e10, e11, e12, e20, e21, e30, e31, e40, e41, e50, e51, e52, eo⟩ := idx_facts t
  show (cfg0.win 5).cut (grid0.coords t) ((dats m 0 c).after 5 t) = _
  rw [after0_5]
  unfold outsAt0
  rw [out_A]
  funext y
  obtain ⟨k, rfl⟩ : ∃ k : Fin 512, y = ix3 0 0 k := ⟨y 2, funext fun a => by
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl⟩
  show k0_pay1 (F := Ideal) (k0_pay2 (xb4 m c t))
      (k0_pay3 (View.ld (xb0 m c t) (Rect.unit (s := S16) (k0_off1 (grid0.coords t)) S1.size (k0_off1_inb (grid0.coords t))) (Shape.Idx.first (numel1_S1.symm ▸ Nat.one_pos)))
        (xb1 m c t) (xb2 m c t) (xb3 m c t) (xb4 m c t))
      (iota .tc S4x512 32 [1] iota_S4x512_d1_w32) 128#32 (ix3 0 0 k)
    = G m c (((cfg0.win 5).blk t).view.emb (ix3 0 0 k))
  rw [word_apply m c t]
  refine (pay_apply _ (xb1 m c t) (xb2 m c t) (xb3 m c t) (xb4 m c t) k).trans ?_
  simp only [xb1_apply, xb2_apply, xb3_apply, xb4_apply]
  have hb : (⟨((((cfg0.win 5).blk t).view.emb (ix3 0 0 k)) 0).val, ((((cfg0.win 5).blk t).view.emb (ix3 0 0 k)) 0).isLt⟩ : Fin 16) = gr t :=
    Fin.ext (by show win0_5.index t (0 : Fin 3) * 1 + 1 * 0 = t.val; omega)
  have hk : (⟨((((cfg0.win 5).blk t).view.emb (ix3 0 0 k)) 2).val, ((((cfg0.win 5).blk t).view.emb (ix3 0 0 k)) 2).isLt⟩ : Fin 512) = k :=
    Fin.ext (by show win0_5.index t (2 : Fin 3) * 512 + 1 * k.val = k.val; omega)
  show _ = outK _ _ _ _ _ (⟨((((cfg0.win 5).blk t).view.emb (ix3 0 0 k)) 0).val, _⟩ : Fin 16) (⟨((((cfg0.win 5).blk t).view.emb (ix3 0 0 k)) 2).val, _⟩ : Fin 512)
  rw [hb, hk]
  rfl

/-- An index of the output array is in point t's block iff each coordinate is in the block's range. -/
theorem mem_blk (t : Fin cfg0.N) (i : S16x1x512.Idx) :
    i ∈ ((cfg0.win 5).blk t).view.set ↔ ∀ a : Fin 3, win0_5.index t a * S1x1x512.size a ≤ (i a).val ∧ (i a).val < win0_5.index t a * S1x1x512.size a + S1x1x512.size a := by
  show i ∈ ((View.whole main_call0_v12).slice (win0_5.rect t)).set ↔ _
  rw [View.set_slice_whole, Rect.mem_set_unit]
  exact Iff.rfl

/-- The sixteen blocks tile the array (row b is point b's), so it ends holding `G`. -/
theorem final (c : Dev nD) : (dats m 0 c).arrAt 5 cfg0.N = G m c :=
  (dats m 0 c).arrAt_eq_of_cover 5 (G m c) (fun t _ => flushed_eq m c t) fun i => by
    have hi0 : (i 0).val < 16 := (i 0).isLt
    have hi1 : (i 1).val < 1 := (i 1).isLt
    have hi2 : (i 2).val < 512 := (i 2).isLt
    obtain ⟨e0, e10, e11, e12, e20, e21, e30, e31, e40, e41, e50, e51, e52, eo⟩ :=
      idx_facts ⟨(i 0).val, lt_of_lt_of_eq hi0 N_0.symm⟩
    refine ⟨⟨(i 0).val, lt_of_lt_of_eq hi0 N_0.symm⟩, flush0_5 _, ?_⟩
    rw [mem_blk]
    intro a
    match a with
    | ⟨0, _⟩ =>
      show win0_5.index ⟨(i 0).val, _⟩ (0 : Fin 3) * 1 ≤ (i 0).val ∧ (i 0).val < win0_5.index ⟨(i 0).val, _⟩ (0 : Fin 3) * 1 + 1
      rw [e50]; dsimp only; omega
    | ⟨1, _⟩ =>
      show win0_5.index ⟨(i 0).val, _⟩ (1 : Fin 3) * 1 ≤ (i 1).val ∧ (i 1).val < win0_5.index ⟨(i 0).val, _⟩ (1 : Fin 3) * 1 + 1
      rw [e51]; omega
    | ⟨2, _⟩ =>
      show win0_5.index ⟨(i 0).val, _⟩ (2 : Fin 3) * 512 ≤ (i 2).val ∧ (i 2).val < win0_5.index ⟨(i 0).val, _⟩ (2 : Fin 3) * 512 + 512
      rw [e52]; omega

/-- The program's result [16, 512], by coordinates. -/
def res (c : Dev nD) : S16x512.Idx → EReal := fun i =>
  outK (cV (m ((c : Thread nD τ).loc main_arg0))) (cG (m ((c : Thread nD τ).loc main_arg1))) (cW (m ((c : Thread nD τ).loc main_arg2)))
    (cT (m ((c : Thread nD τ).loc main_arg3))) (cB (m ((c : Thread nD τ).loc main_arg4))) ⟨(i 0).val, (i 0).isLt⟩ ⟨(i 1).val, (i 1).isLt⟩

/-- The host line after the launch drops the unit axis. -/
theorem tail_eq (c : Dev nD) :
    Pipeline.afterTail₀ cfgs (dats m) 0 (V0 m) [hostOps1] c main_v0 = res m c := by
  unfold Pipeline.afterTail₀
  show StableHlo.after hostOps1 _ (Proc.devRef .tc main_v0) = _
  after_results
  funext i
  show shapeCast S16x512 (Pipeline.withArrays spec0 c (V0 m c) (fun w => (dats m 0 c).arrAt w cfg0.N) (Proc.devRef .tc main_call0_v12)) shapeCasts_S16x1x512_S16x512 i = _
  rw [show Pipeline.withArrays spec0 c (V0 m c) (fun w => (dats m 0 c).arrAt w cfg0.N) (Proc.devRef .tc main_call0_v12) = G m c from
    (Pipeline.withArrays_arr spec0 launch0.win.arr_inj c _ _ 5).trans (final m c)]
  have hi0 : (i 0).val < 16 := (i 0).isLt
  have hi1 : (i 1).val < 512 := (i 1).isLt
  rw [shapeCast_apply (G m c) shapeCasts_S16x1x512_S16x512 i (ix3 ⟨(i 0).val, hi0⟩ 0 ⟨(i 1).val, hi1⟩)
    (by rw [Shape.rowMajor_val_two, Shape.rowMajor_val_three]; show ((i 0).val * 1 + 0) * 512 + (i 1).val = (i 0).val * 512 + (i 1).val; omega)]
  rfl

/-- The kernel program run: every execution ends with the result array at `res` and the arguments unchanged. -/
theorem run : θ_run defs (onTc (τ := τ) (main (F := Ideal))) ⟨m, fun _ => 0, ρ⟩ fun r => ∀ c : Dev nD,
      r.2.mem ((c : Thread nD τ).loc main_v0) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).2 main_v0 (Pipeline.mem_restRefs_of main_v0 (by decide) (by decide))).trans (tail_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelIdeal.KValue

end
-- ==== Proof.RefTerm.lean ====
/-
  The reference program's result as ONE pure term of its five argument arrays: its host operations composed in
  program order (the outlined leaky ReLU and the two masked selects written at their call sites). RefRun.lean
  shows that every execution of the reference ends with this term in its result buffer; RefRead.lean reads the
  term at an index.
-/
import proofs.«149397_g68547678044319_fold_wed_c4_656_4_alg».proof.Proof.Gen.ReferenceIdeal

noncomputable section

namespace Cert.ReferenceIdeal.RefValue

open Cert.ReferenceIdeal Cert.ReferenceIdeal.Gen Idealize.ShloMosaic

variable {F : FTy → Type} [FloatOps F]

/-- The row mask [16, 4096]: row s of graph b is valid when s < graph_size b. -/
def rowMask (a1 : IVec S16 32) : IVec S16x4096 1 :=
  let v0 : IVec S4096 32 := iotaInDim S4096 32 0
  let v1 : IVec S1x4096 32 := broadcastInDim S1x4096 ![1] bcast_S4096_S1x4096_1 v0
  let v2 : IVec S16x1 32 := broadcastInDim S16x1 ![0] bcast_S16_S16x1_0 a1
  let v3 : IVec S16x4096 32 := broadcastInDim S16x4096 ![0, 1] bcast_S1x4096_S16x4096_0_1 v1
  let v4 : IVec S16x4096 32 := broadcastInDim S16x4096 ![0, 1] bcast_S16x1_S16x4096_0_1 v2
  cmpi .slt v3 v4

/-- The projected rows plus bias, [16, 4096, 4, 128]. -/
def projected (a0 : FVec F S16x4096x128 .f32) (a2 : FVec F S128x512 .f32) (a4 : FVec F S512 .f32) : FVec F S16x4096x4x128 .f32 :=
  let v6 : FVec F S65536x128 .f32 := shapeCast S65536x128 a0 shapeCasts_S16x4096x128_S65536x128
  let v7 : FVec F S65536x512 .f32 := Host.dotGeneral dot_S65536x128_S128x512_S65536x512_1_0_0_1_n_n none v6 a2
  let v8 : FVec F S1x512 .f32 := broadcastInDim S1x512 ![1] bcast_S512_S1x512_1 a4
  let v9 : FVec F S65536x512 .f32 := broadcastInDim S65536x512 ![0, 1] bcast_S1x512_S65536x512_0_1 v8
  let v10 : FVec F S65536x512 .f32 := addf v7 v9
  shapeCast S16x4096x4x128 v10 shapeCasts_S65536x512_S16x4096x4x128

/-- The logits after the leaky ReLU, [16, 4096, 4]. -/
def logits (v11 : FVec F S16x4096x4x128 .f32) (a3 : FVec F S1x4x128 .f32) : FVec F S16x4096x4 .f32 :=
  let v12 : FVec F S1x1x4x128 .f32 := broadcastInDim S1x1x4x128 ![1, 2, 3] bcast_S1x4x128_S1x1x4x128_1_2_3 a3
  let v13 : FVec F S16x4096x4x128 .f32 := broadcastInDim S16x4096x4x128 ![0, 1, 2, 3] bcast_S1x1x4x128_S16x4096x4x128_0_1_2_3 v12
  let v14 : FVec F S16x4096x4x128 .f32 := mulf v13 v11
  let cst : FVec F S_ .f32 := constant S_ .f32 0x00000000#32
  let v15 : FVec F S16x4096x4 .f32 := Host.reduceAdd v14 cst reducesTo_S16x4096x4x128_S16x4096x4_d3 h_S_
  let cst_0 : FVec F S_ .f32 := constant S_ .f32 0x3E4CCCCD#32
  -- the outlined leaky ReLU
  let c0_cst : FVec F S_ .f32 := constant S_ .f32 0x00000000#32
  let c0_v0 : FVec F S16x4096x4 .f32 := broadcastInDim S16x4096x4 ![] bcast_S_S16x4096x4 c0_cst
  let c0_v1 : IVec S16x4096x4 1 := cmpf .oge v15 c0_v0
  let c0_v2 : FVec F S_ .f32 := id cst_0
  let c0_v3 : FVec F S16x4096x4 .f32 := broadcastInDim S16x4096x4 ![] bcast_S_S16x4096x4 c0_v2
  let c0_v4 : FVec F S16x4096x4 .f32 := mulf c0_v3 v15
  select c0_v1 v15 c0_v4

/-- The masked select the reference outlines: x where the row is valid, the scalar elsewhere. -/
def maskedFill (v5 : IVec S16x4096 1) (x : FVec F S16x4096x4 .f32) (fill : FVec F S_ .f32) : FVec F S16x4096x4 .f32 :=
  let v17 : IVec S16x4096x1 1 := broadcastInDim S16x4096x1 ![0, 1] bcast_S16x4096_S16x4096x1_0_1 v5
  let w0 : FVec F S_ .f32 := id fill
  let w1 : IVec S16x4096x4 1 := broadcastInDim S16x4096x4 ![0, 1, 2] bcast_S16x4096x1_S16x4096x4_0_1_2 v17
  let w2 : FVec F S16x4096x4 .f32 := broadcastInDim S16x4096x4 ![] bcast_S_S16x4096x4 w0
  select w1 x w2

/-- The segment ids [65536, 1]: entry r is r / 4096. -/
def segIds : IVec S65536x1 32 :=
  let v26 : IVec S16 32 := iotaInDim S16 32 0
  let v27 : IVec S16x4096 32 := broadcastInDim S16x4096 ![0] bcast_S16_S16x4096_0 v26
  let v28 : IVec S65536 32 := shapeCast S65536 v27 shapeCasts_S16x4096_S65536
  broadcastInDim S65536x1 ![0] bcast_S65536_S65536x1_0 v28

/-- The softmax weights [16, 4096, 4]. -/
def weights (v5 : IVec S16x4096 1) (v16 : FVec F S16x4096x4 .f32) : FVec F S16x4096x4 .f32 :=
  let v18 : FVec F S16x4096x4 .f32 := maskedFill v5 v16 (constant S_ .f32 0xFF800000#32)
  let cst_2 : FVec F S_ .f32 := constant S_ .f32 0xFF800000#32
  let v19 : FVec F S16x4 .f32 := Host.reduce FloatOps.maximumf v18 cst_2 reducesTo_S16x4096x4_S16x4_d1 h_S_
  let v20 : FVec F S16x1x4 .f32 := broadcastInDim S16x1x4 ![0, 2] bcast_S16x4_S16x1x4_0_2 v19
  let v21 : FVec F S16x4096x4 .f32 := broadcastInDim S16x4096x4 ![0, 1, 2] bcast_S16x1x4_S16x4096x4_0_1_2 v20
  let v22 : FVec F S16x4096x4 .f32 := subf v16 v21
  let v24 : FVec F S16x4096x4 .f32 := Host.exp v22
  let v25 : FVec F S16x4096x4 .f32 := maskedFill v5 v24 (constant S_ .f32 0x00000000#32)
  let v29 : FVec F S65536x4 .f32 := shapeCast S65536x4 v25 shapeCasts_S16x4096x4_S65536x4
  let cst_4 : FVec F S_ .f32 := constant S_ .f32 0x00000000#32
  let v30 : FVec F S16x4 .f32 := broadcastInDim S16x4 ![] bcast_S_S16x4 cst_4
  let v32 : FVec F S16x4 .f32 := Host.scatterAdd scatter_S16x4_S65536x1_S65536x4_1_0_0_1 v30 segIds v29
  let v33 : FVec F S16x1x4 .f32 := broadcastInDim S16x1x4 ![0, 2] bcast_S16x4_S16x1x4_0_2 v32
  let v34 : FVec F S16x4096x4 .f32 := broadcastInDim S16x4096x4 ![0, 1, 2] bcast_S16x1x4_S16x4096x4_0_1_2 v33
  Host.divf v25 v34

/-- The pooled result [16, 512]. -/
def pooled (v11 : FVec F S16x4096x4x128 .f32) (v35 : FVec F S16x4096x4 .f32) : FVec F S16x512 .f32 :=
  let v36 : FVec F S16x4096x4x1 .f32 := broadcastInDim S16x4096x4x1 ![0, 1, 2] bcast_S16x4096x4_S16x4096x4x1_0_1_2 v35
  let v37 : FVec F S16x4096x4x128 .f32 := broadcastInDim S16x4096x4x128 ![0, 1, 2, 3] bcast_S16x4096x4x1_S16x4096x4x128_0_1_2_3 v36
  let v38 : FVec F S16x4096x4x128 .f32 := mulf v11 v37
  let v39 : FVec F S65536x4x128 .f32 := shapeCast S65536x4x128 v38 shapeCasts_S16x4096x4x128_S65536x4x128
  let cst_5 : FVec F S_ .f32 := constant S_ .f32 0x00000000#32
  let v40 : FVec F S16x4x128 .f32 := broadcastInDim S16x4x128 ![] bcast_S_S16x4x128 cst_5
  let v42 : FVec F S16x4x128 .f32 := Host.scatterAdd scatter_S16x4x128_S65536x1_S65536x4x128_12_0_0_1 v40 segIds v39
  shapeCast S16x512 v42 shapeCasts_S16x4x128_S16x512

/-- The reference's result as one term of its arguments. -/
def refTerm (a0 : FVec F S16x4096x128 .f32) (a1 : IVec S16 32) (a2 : FVec F S128x512 .f32) (a3 : FVec F S1x4x128 .f32)
    (a4 : FVec F S512 .f32) : FVec F S16x512 .f32 :=
  let v5 := rowMask a1
  let v11 := projected a0 a2 a4
  let v16 := logits v11 a3
  pooled v11 (weights v5 v16)

end Cert.ReferenceIdeal.RefValue

end
-- ==== Proof.RefRun.lean ====
/-
  The reference program's run. Its @main is a straight line of sixty-three host operations once the three outlined
  functions are written at their call sites: the leaky ReLU (seven operations, the last one the select of the
  function it calls in turn) and the two masked selects (four operations each). Every weakly fair execution of
  that line terminates; the result buffer then holds the operations' composition over the five argument arrays,
  which is the term of RefTerm.lean, and no operation writes an argument.
-/
import proofs.«149397_g68547678044319_fold_wed_c4_656_4_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
/-- The reference's operations in program order, each outlined function's body listed where it is called, over
    the buffers that call names: the row mask (six), the projection plus bias (six), the logits (six), the leaky
    ReLU (seven), the first masked select (six with its mask's broadcast and fill), the maximum, its broadcasts,
    the difference and the exponential (eight with the second mask's broadcast and the zero), the second masked
    select (four), the segment ids and the denominators (ten), the quotient, and the pooling (nine). -/
private abbrev ops : List (HloOp τ sig (Elt F)) :=
  [ nullary main_v0 (iotaInDim S4096 32 0),
    unary main_v0 main_v1 (broadcastInDim S1x4096 ![1] bcast_S4096_S1x4096_1 : (⟨S4096, .i32⟩ : BufTy).Contents (Elt F) → (⟨S1x4096, .i32⟩ : BufTy).Contents (Elt F)),
    unary main_arg1 main_v2 (broadcastInDim S16x1 ![0] bcast_S16_S16x1_0 : (⟨S16, .i32⟩ : BufTy).Contents (Elt F) → (⟨S16x1, .i32⟩ : BufTy).Contents (Elt F)),
    unary main_v1 main_v3 (broadcastInDim S16x4096 ![0, 1] bcast_S1x4096_S16x4096_0_1 : (⟨S1x4096, .i32⟩ : BufTy).Contents (Elt F) → (⟨S16x4096, .i32⟩ : BufTy).Contents (Elt F)),
    unary main_v2 main_v4 (broadcastInDim S16x4096 ![0, 1] bcast_S16x1_S16x4096_0_1 : (⟨S16x1, .i32⟩ : BufTy).Contents (Elt F) → (⟨S16x4096, .i32⟩ : BufTy).Contents (Elt F)),
    binary main_v3 main_v4 main_v5 (cmpi .slt : (⟨S16x4096, .i32⟩ : BufTy).Contents (Elt F) → (⟨S16x4096, .i32⟩ : BufTy).Contents (Elt F) → (⟨S16x4096, .i1⟩ : BufTy).Contents (Elt F)),
    reshape main_arg0 main_v6 rfl shapeCasts_S16x4096x128_S65536x128,
    binary main_v6 main_arg2 main_v7 ((fun l r => Host.dotGeneral dot_S65536x128_S128x512_S65536x512_1_0_0_1_n_n none l r) : (⟨S65536x128, .f32⟩ : BufTy).Contents (Elt F) → (⟨S128x512, .f32⟩ : BufTy).Contents (Elt F) → (⟨S65536x512, .f32⟩ : BufTy).Contents (Elt F)),
    unary main_arg4 main_v8 (broadcastInDim S1x512 ![1] bcast_S512_S1x512_1 : (⟨S512, .f32⟩ : BufTy).Contents (Elt F) → (⟨S1x512, .f32⟩ : BufTy).Contents (Elt F)),
    unary main_v8 main_v9 (broadcastInDim S65536x512 ![0, 1] bcast_S1x512_S65536x512_0_1 : (⟨S1x512, .f32⟩ : BufTy).Contents (Elt F) → (⟨S65536x512, .f32⟩ : BufTy).Contents (Elt F)),
    binary main_v7 main_v9 main_v10 (addf : (⟨S65536x512, .f32⟩ : BufTy).Contents (Elt F) → (⟨S65536x512, .f32⟩ : BufTy).Contents (Elt F) → (⟨S65536x512, .f32⟩ : BufTy).Contents (Elt F)),
    reshape main_v10 main_v11 rfl shapeCasts_S65536x512_S16x4096x4x128,
    unary main_arg3 main_v12 (broadcastInDim S1x1x4x128 ![1, 2, 3] bcast_S1x4x128_S1x1x4x128_1_2_3 : (⟨S1x4x128, .f32⟩ : BufTy).Contents (Elt F) → (⟨S1x1x4x128, .f32⟩ : BufTy).Contents (Elt F)),
    unary main_v12 main_v13 (broadcastInDim S16x4096x4x128 ![0, 1, 2, 3] bcast_S1x1x4x128_S16x4096x4x128_0_1_2_3 : (⟨S1x1x4x128, .f32⟩ : BufTy).Contents (Elt F) → (⟨S16x4096x4x128, .f32⟩ : BufTy).Contents (Elt F)),
    binary main_v13 main_v11 main_v14 (mulf : (⟨S16x4096x4x128, .f32⟩ : BufTy).Contents (Elt F) → (⟨S16x4096x4x128, .f32⟩ : BufTy).Contents (Elt F) → (⟨S16x4096x4x128, .f32⟩ : BufTy).Contents (Elt F)),
    nullary main_cst (constant S_ .f32 0x00000000#32),
    binary main_v14 main_cst main_v15 ((fun x v => Host.reduceAdd x v reducesTo_S16x4096x4x128_S16x4096x4_d3 h_S_) : (⟨S16x4096x4x128, .f32⟩ : BufTy).Contents (Elt F) → (⟨S_, .f32⟩ : BufTy).Contents (Elt F) → (⟨S16x4096x4, .f32⟩ : BufTy).Contents (Elt F)),
    nullary main_cst_0 (constant S_ .f32 0x3E4CCCCD#32),
    TRef.nullary main_call0.cst (constant S_ .f32 0x00000000#32),
    TRef.unary main_call0.cst main_call0.v0 (broadcastInDim S16x4096x4 ![] bcast_S_S16x4096x4),
    TRef.binary (.of main_v15 : TRef sig ⟨S16x4096x4, .f32⟩) main_call0.v0 main_call0.v1 (cmpf .oge),
    TRef.unary (.of main_cst_0 : TRef sig ⟨S_, .f32⟩) main_call0.v2 id,
    TRef.unary main_call0.v2 main_call0.v3 (broadcastInDim S16x4096x4 ![] bcast_S_S16x4096x4),
    TRef.binary main_call0.v3 (.of main_v15 : TRef sig ⟨S16x4096x4, .f32⟩) main_call0.v4 mulf,
    TRef.ternary main_call0.v1 (.of main_v15 : TRef sig ⟨S16x4096x4, .f32⟩) main_call0.v4 main_call0.call0.v0 select,
    unary main_v5 main_v17 (broadcastInDim S16x4096x1 ![0, 1] bcast_S16x4096_S16x4096x1_0_1 : (⟨S16x4096, .i1⟩ : BufTy).Contents (Elt F) → (⟨S16x4096x1, .i1⟩ : BufTy).Contents (Elt F)),
    nullary main_cst_1 (constant S_ .f32 0xFF800000#32),
    TRef.unary (.of main_cst_1 : TRef sig ⟨S_, .f32⟩) main_call1.v0 id,
    TRef.unary (.of main_v17 : TRef sig ⟨S16x4096x1, .i1⟩) main_call1.v1 (broadcastInDim S16x4096x4 ![0, 1, 2] bcast_S16x4096x1_S16x4096x4_0_1_2),
    TRef.unary main_call1.v0 main_call1.v2 (broadcastInDim S16x4096x4 ![] bcast_S_S16x4096x4),
    TRef.ternary main_call1.v1 (.of main_v16 : TRef sig ⟨S16x4096x4, .f32⟩) main_call1.v2 main_call1.v3 select,
    nullary main_cst_2 (constant S_ .f32 0xFF800000#32),
    binary main_v18 main_cst_2 main_v19 ((fun x v => Host.reduce FloatOps.maximumf x v reducesTo_S16x4096x4_S16x4_d1 h_S_) : (⟨S16x4096x4, .f32⟩ : BufTy).Contents (Elt F) → (⟨S_, .f32⟩ : BufTy).Contents (Elt F) → (⟨S16x4, .f32⟩ : BufTy).Contents (Elt F)),
    unary main_v19 main_v20 (broadcastInDim S16x1x4 ![0, 2] bcast_S16x4_S16x1x4_0_2 : (⟨S16x4, .f32⟩ : BufTy).Contents (Elt F) → (⟨S16x1x4, .f32⟩ : BufTy).Contents (Elt F)),
    unary main_v20 main_v21 (broadcastInDim S16x4096x4 ![0, 1, 2] bcast_S16x1x4_S16x4096x4_0_1_2 : (⟨S16x1x4, .f32⟩ : BufTy).Contents (Elt F) → (⟨S16x4096x4, .f32⟩ : BufTy).Contents (Elt F)),
    binary main_v16 main_v21 main_v22 (subf : (⟨S16x4096x4, .f32⟩ : BufTy).Contents (Elt F) → (⟨S16x4096x4, .f32⟩ : BufTy).Contents (Elt F) → (⟨S16x4096x4, .f32⟩ : BufTy).Contents (Elt F)),
    unary main_v5 main_v23 (broadcastInDim S16x4096x1 ![0, 1] bcast_S16x4096_S16x4096x1_0_1 : (⟨S16x4096, .i1⟩ : BufTy).Contents (Elt F) → (⟨S16x4096x1, .i1⟩ : BufTy).Contents (Elt F)),
    unary main_v22 main_v24 (Host.exp : (⟨S16x4096x4, .f32⟩ : BufTy).Contents (Elt F) → (⟨S16x4096x4, .f32⟩ : BufTy).Contents (Elt F)),
    nullary main_cst_3 (constant S_ .f32 0x00000000#32),
    TRef.unary (.of main_cst_3 : TRef sig ⟨S_, .f32⟩) main_call2.v0 id,
    TRef.unary (.of main_v23 : TRef sig ⟨S16x4096x1, .i1⟩) main_call2.v1 (broadcastInDim S16x4096x4 ![0, 1, 2] bcast_S16x4096x1_S16x4096x4_0_1_2),
    TRef.unary main_call2.v0 main_call2.v2 (broadcastInDim S16x4096x4 ![] bcast_S_S16x4096x4),
    TRef.ternary main_call2.v1 (.of main_v24 : TRef sig ⟨S16x4096x4, .f32⟩) main_call2.v2 main_call2.v3 select,
    nullary main_v26 (iotaInDim S16 32 0),
    unary main_v26 main_v27 (broadcastInDim S16x4096 ![0] bcast_S16_S16x4096_0 : (⟨S16, .i32⟩ : BufTy).Contents (Elt F) → (⟨S16x4096, .i32⟩ : BufTy).Contents (Elt F)),
    reshape main_v27 main_v28 rfl shapeCasts_S16x4096_S65536,
    reshape main_v25 main_v29 rfl shapeCasts_S16x4096x4_S65536x4,
    nullary main_cst_4 (constant S_ .f32 0x00000000#32),
    unary main_cst_4 main_v30 (broadcastInDim S16x4 ![] bcast_S_S16x4 : (⟨S_, .f32⟩ : BufTy).Contents (Elt F) → (⟨S16x4, .f32⟩ : BufTy).Contents (Elt F)),
    unary main_v28 main_v31 (broadcastInDim S65536x1 ![0] bcast_S65536_S65536x1_0 : (⟨S65536, .i32⟩ : BufTy).Contents (Elt F) → (⟨S65536x1, .i32⟩ : BufTy).Contents (Elt F)),
    ternary main_v30 main_v31 main_v29 main_v32 ((fun x i u => Host.scatterAdd scatter_S16x4_S65536x1_S65536x4_1_0_0_1 x i u) : (⟨S16x4, .f32⟩ : BufTy).Contents (Elt F) → (⟨S65536x1, .i32⟩ : BufTy).Contents (Elt F) → (⟨S65536x4, .f32⟩ : BufTy).Contents (Elt F) → (⟨S16x4, .f32⟩ : BufTy).Contents (Elt F)),
    unary main_v32 main_v33 (broadcastInDim S16x1x4 ![0, 2] bcast_S16x4_S16x1x4_0_2 : (⟨S16x4, .f32⟩ : BufTy).Contents (Elt F) → (⟨S16x1x4, .f32⟩ : BufTy).Contents (Elt F)),
    unary main_v33 main_v34 (broadcastInDim S16x4096x4 ![0, 1, 2] bcast_S16x1x4_S16x4096x4_0_1_2 : (⟨S16x1x4, .f32⟩ : BufTy).Contents (Elt F) → (⟨S16x4096x4, .f32⟩ : BufTy).Contents (Elt F)),
    binary main_v25 main_v34 main_v35 (Host.divf : (⟨S16x4096x4, .f32⟩ : BufTy).Contents (Elt F) → (⟨S16x4096x4, .f32⟩ : BufTy).Contents (Elt F) → (⟨S16x4096x4, .f32⟩ : BufTy).Contents (Elt F)),
    unary main_v35 main_v36 (broadcastInDim S16x4096x4x1 ![0, 1, 2] bcast_S16x4096x4_S16x4096x4x1_0_1_2 : (⟨S16x4096x4, .f32⟩ : BufTy).Contents (Elt F) → (⟨S16x4096x4x1, .f32⟩ : BufTy).Contents (Elt F)),
    unary main_v36 main_v37 (broadcastInDim S16x4096x4x128 ![0, 1, 2, 3] bcast_S16x4096x4x1_S16x4096x4x128_0_1_2_3 : (⟨S16x4096x4x1, .f32⟩ : BufTy).Contents (Elt F) → (⟨S16x4096x4x128, .f32⟩ : BufTy).Contents (Elt F)),
    binary main_v11 main_v37 main_v38 (mulf : (⟨S16x4096x4x128, .f32⟩ : BufTy).Contents (Elt F) → (⟨S16x4096x4x128, .f32⟩ : BufTy).Contents (Elt F) → (⟨S16x4096x4x128, .f32⟩ : BufTy).Contents (Elt F)),
    reshape main_v38 main_v39 rfl shapeCasts_S16x4096x4x128_S65536x4x128,
    nullary main_cst_5 (constant S_ .f32 0x00000000#32),
    unary main_cst_5 main_v40 (broadcastInDim S16x4x128 ![] bcast_S_S16x4x128 : (⟨S_, .f32⟩ : BufTy).Contents (Elt F) → (⟨S16x4x128, .f32⟩ : BufTy).Contents (Elt F)),
    unary main_v28 main_v41 (broadcastInDim S65536x1 ![0] bcast_S65536_S65536x1_0 : (⟨S65536, .i32⟩ : BufTy).Contents (Elt F) → (⟨S65536x1, .i32⟩ : BufTy).Contents (Elt F)),
    ternary main_v40 main_v41 main_v39 main_v42 ((fun x i u => Host.scatterAdd scatter_S16x4x128_S65536x1_S65536x4x128_12_0_0_1 x i u) : (⟨S16x4x128, .f32⟩ : BufTy).Contents (Elt F) → (⟨S65536x1, .i32⟩ : BufTy).Contents (Elt F) → (⟨S65536x4x128, .f32⟩ : BufTy).Contents (Elt F) → (⟨S16x4x128, .f32⟩ : BufTy).Contents (Elt F)),
    reshape main_v42 main_v43 rfl shapeCasts_S16x4x128_S16x512 ]

-- sixty-three sequenced statements, re-associated one inside the other: the recursion is one level per statement
set_option maxRecDepth 2048 in
set_option maxHeartbeats 1000000 in
/-- @main is that straight line: the outlined functions unfolded at their calls, sequencing re-associated. -/
private theorem main_eq (c : Dev nD) : main (F := F) c = seq ops := by
  simp only [main, fn_leaky_relu.body, fn_where.body, fn_where_0.body, seq, bind_assoc, pure_bind]

/-- No buffer of the signature is scoped. -/
private theorem scopedRefs_eq : (Finset.univ.filter fun b : Ref sig .tc => b.isScoped) = ∅ := by decide
/-- The signature has no semaphore, so none is scoped. -/
private theorem scopedSems_eq : (Finset.univ.filter fun sm : SemLoc sig => sm.isScoped .tc) = ∅ := by decide

/-- Every operation touches TensorCore references only. -/
private theorem ops_sub : (ops : List (HloOp τ sig (Elt F))).Forall fun op => op.bufs ⊆ tcRefs τ sig :=
  ⟨nullary_bufs_sub .., unary_bufs_sub .., unary_bufs_sub .., unary_bufs_sub .., unary_bufs_sub .., binary_bufs_sub .., reshape_bufs_sub .., binary_bufs_sub .., unary_bufs_sub .., unary_bufs_sub .., binary_bufs_sub .., reshape_bufs_sub .., unary_bufs_sub .., unary_bufs_sub .., binary_bufs_sub .., nullary_bufs_sub .., binary_bufs_sub .., nullary_bufs_sub .., nullary_bufs_sub .., unary_bufs_sub .., binary_bufs_sub .., unary_bufs_sub .., unary_bufs_sub .., binary_bufs_sub .., ternary_bufs_sub .., unary_bufs_sub .., nullary_bufs_sub .., unary_bufs_sub .., unary_bufs_sub .., unary_bufs_sub .., ternary_bufs_sub .., nullary_bufs_sub .., binary_bufs_sub .., unary_bufs_sub .., unary_bufs_sub .., binary_bufs_sub .., unary_bufs_sub .., unary_bufs_sub .., nullary_bufs_sub .., unary_bufs_sub .., unary_bufs_sub .., unary_bufs_sub .., ternary_bufs_sub .., nullary_bufs_sub .., unary_bufs_sub .., reshape_bufs_sub .., reshape_bufs_sub .., nullary_bufs_sub .., unary_bufs_sub .., unary_bufs_sub .., ternary_bufs_sub .., unary_bufs_sub .., unary_bufs_sub .., binary_bufs_sub .., unary_bufs_sub .., unary_bufs_sub .., binary_bufs_sub .., reshape_bufs_sub .., nullary_bufs_sub .., unary_bufs_sub .., unary_bufs_sub .., ternary_bufs_sub .., reshape_bufs_sub ..⟩

/-- From any contents of the buffers, the fold of the operations read at the result buffer is the composed term of
    the contents of the five argument buffers: each operation's result at its own buffer is its function of its
    operands' contents, every other buffer keeps what it held, and the composition so obtained is `refTerm`'s,
    operation for operation (a typed reference's transport along its type equation being the identity at these
    literal buffers). -/
private theorem out_eq (V : Valuation τ sig (Elt F)) :
    after ops V (Proc.devRef .tc main_v43)
      = refTerm (V (Proc.devRef .tc main_arg0)) (V (Proc.devRef .tc main_arg1)) (V (Proc.devRef .tc main_arg2))
          (V (Proc.devRef .tc main_arg3)) (V (Proc.devRef .tc main_arg4)) := by
  after_results_simp
  unfold refTerm rowMask projected logits weights pooled maskedFill segIds
  rfl

/-- The reference's run. On each device, starting from any memory whose counters are all zero, every weakly fair
    execution of @main terminates; in every final state the result buffer holds the composition of the sixty-three
    operations over the launch contents of the five argument buffers, which is `refTerm` of those arrays, and each
    argument buffer, written by no operation, still holds its launch contents. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v43) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  exact (θ_run defs _ _).mono (fun _ h c => ⟨(h c main_v43).trans (out_eq _),
      (h c main_arg0).trans (by after_results_simp),
      (h c main_arg1).trans (by after_results_simp),
      (h c main_arg2).trans (by after_results_simp),
      (h c main_arg3).trans (by after_results_simp),
      (h c main_arg4).trans (by after_results_simp)⟩)
    (run_seq scopedRefs_eq scopedSems_eq defs main (fun _ => ops) main_eq (fun _ => ops_sub) m ρ)

end Cert.ReferenceIdeal.RefValue

end
-- ==== Proof.RefReadA.lean ====
/-
  The first half of the reference read at an index: the row mask, the projected rows, the logits.
-/
import proofs.«149397_g68547678044319_fold_wed_c4_656_4_alg».proof.Proof.RefTerm
import proofs.«149397_g68547678044319_fold_wed_c4_656_4_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Attn

/-! ## The row mask

Both operands of the comparison are broadcasts: the row numbers 0 … 4095 along axis 1 (constant in the graph), the
graph lengths along axis 0 (constant in the row). At (b, s) they read s and the length of graph b. -/

/-- The row number s as a 32-bit word, compared signed with the length of graph b. -/
theorem rowMask_apply (a1 : IVec S16 32) (b : Fin 16) (s : Fin 4096) :
    rowMask a1 (ix2 b s) = valid (cG a1 b) s := by
  have hrow : broadcastInDim S16x4096 ![0, 1] bcast_S1x4096_S16x4096_0_1
      (broadcastInDim S1x4096 ![1] bcast_S4096_S1x4096_1 (iotaInDim S4096 32 0)) (ix2 b s) = BitVec.ofNat 32 s.val := by
    rw [broadcastInDim_apply _ bcast_S1x4096_S16x4096_0_1 _ (ix2 b s) (ix2 0 s)
        (fun a => by match a with | ⟨0, _⟩ => rfl | ⟨1, _⟩ => rfl)]
    rw [broadcastInDim_apply _ bcast_S4096_S1x4096_1 _ (ix2 0 s) (ix1 s)
        (fun a => by match a with | ⟨0, _⟩ => rfl)]
    rfl
  have hlen : broadcastInDim S16x4096 ![0, 1] bcast_S16x1_S16x4096_0_1
      (broadcastInDim S16x1 ![0] bcast_S16_S16x1_0 a1) (ix2 b s) = a1 (ix1 b) := by
    rw [broadcastInDim_apply _ bcast_S16x1_S16x4096_0_1 _ (ix2 b s) (ix2 b 0)
        (fun a => by match a with | ⟨0, _⟩ => rfl | ⟨1, _⟩ => rfl)]
    rw [broadcastInDim_apply _ bcast_S16_S16x1_0 _ (ix2 b 0) (ix1 b)
        (fun a => by match a with | ⟨0, _⟩ => rfl)]
  unfold rowMask
  show IntOp.cmpi .slt _ _ = _
  rw [hrow, hlen]
  rfl

/-! ## The projection

The rows [16, 4096, 128] are flattened to [65536, 128] (row b·4096 + s), multiplied by the [128, 512] matrix, the bias
added to every row, and the 512 columns split into 4 heads of 128 (column 128 h + j). -/

/-- Row b·4096 + s of the 65536 flattened rows. -/
private abbrev flatRow (b : Fin 16) (s : Fin 4096) : Fin 65536 :=
  ⟨4096 * b.val + s.val, by have := b.isLt; have := s.isLt; omega⟩

/-- The product's left operand index keeps the output's row … -/
private theorem dotD_lhs_0 (j : S65536x512.Idx) (k : dot_S65536x128_S128x512_S65536x512_1_0_0_1_n_n.contr.Idx) :
    (dot_S65536x128_S128x512_S65536x512_1_0_0_1_n_n.lhsIdx j k 0).val = (j 0).val := by
  unfold DotDims.lhsIdx
  rw [dif_neg (show ¬ (0 : Fin S65536x128.rank) ∈ dot_S65536x128_S128x512_S65536x512_1_0_0_1_n_n.lhsBatch by decide),
    dif_pos (show (0 : Fin S65536x128.rank) ∈ dot_S65536x128_S128x512_S65536x512_1_0_0_1_n_n.lhsNonContracting by decide)]
  rfl

/-- … and takes the contraction coordinate as its column. -/
private theorem dotD_lhs_1 (j : S65536x512.Idx) (k : dot_S65536x128_S128x512_S65536x512_1_0_0_1_n_n.contr.Idx) :
    (dot_S65536x128_S128x512_S65536x512_1_0_0_1_n_n.lhsIdx j k 1).val = (k ⟨0, by decide⟩).val :=
  dot_S65536x128_S128x512_S65536x512_1_0_0_1_n_n.lhsIdx_val_of_single rfl j k

/-- The right operand index takes the contraction coordinate as its row … -/
private theorem dotD_rhs_0 (j : S65536x512.Idx) (k : dot_S65536x128_S128x512_S65536x512_1_0_0_1_n_n.contr.Idx) :
    (dot_S65536x128_S128x512_S65536x512_1_0_0_1_n_n.rhsIdx j k 0).val = (k ⟨0, by decide⟩).val :=
  dot_S65536x128_S128x512_S65536x512_1_0_0_1_n_n.rhsIdx_val_of_single rfl j k

/-- … and keeps the output's column. -/
private theorem dotD_rhs_1 (j : S65536x512.Idx) (k : dot_S65536x128_S128x512_S65536x512_1_0_0_1_n_n.contr.Idx) :
    (dot_S65536x128_S128x512_S65536x512_1_0_0_1_n_n.rhsIdx j k 1).val = (j 1).val := by
  unfold DotDims.rhsIdx
  rw [dif_neg (show ¬ (1 : Fin S128x512.rank) ∈ dot_S65536x128_S128x512_S65536x512_1_0_0_1_n_n.rhsBatch by decide),
    dif_pos (show (1 : Fin S128x512.rank) ∈ dot_S65536x128_S128x512_S65536x512_1_0_0_1_n_n.rhsNonContracting by decide)]
  rfl

/-- The [65536, 128] by [128, 512] product at (r, k): the sum over the 128 shared coordinates of row r against column k. -/
private theorem dotRows_apply (x : FVec Ideal S65536x128 .f32) (w : FVec Ideal S128x512 .f32) (r : Fin 65536) (k : Fin 512) :
    Host.dotGeneral (F := Ideal) dot_S65536x128_S128x512_S65536x512_1_0_0_1_n_n none x w (ix2 r k)
      = ∑ c : Fin 128, x (ix2 r c) * w (ix2 c k) := by
  simp only [Host.dotGeneral]
  rw [Ideal.dotGeneral_apply,
    ← Equiv.sum_comp (contrEquiv1 dot_S65536x128_S128x512_S65536x512_1_0_0_1_n_n 128 rfl rfl).symm]
  refine Finset.sum_congr rfl fun c _ => ?_
  have hl : dot_S65536x128_S128x512_S65536x512_1_0_0_1_n_n.lhsIdx (ix2 r k)
      ((contrEquiv1 dot_S65536x128_S128x512_S65536x512_1_0_0_1_n_n 128 rfl rfl).symm c) = ix2 r c :=
    funext fun a => match a with
      | ⟨0, _⟩ => Fin.ext (dotD_lhs_0 _ _)
      | ⟨1, _⟩ => Fin.ext ((dotD_lhs_1 _ _).trans
          (contrEquiv1_symm_val dot_S65536x128_S128x512_S65536x512_1_0_0_1_n_n 128 rfl rfl c))
  have hr : dot_S65536x128_S128x512_S65536x512_1_0_0_1_n_n.rhsIdx (ix2 r k)
      ((contrEquiv1 dot_S65536x128_S128x512_S65536x512_1_0_0_1_n_n 128 rfl rfl).symm c) = ix2 c k :=
    funext fun a => match a with
      | ⟨0, _⟩ => Fin.ext ((dotD_rhs_0 _ _).trans
          (contrEquiv1_symm_val dot_S65536x128_S128x512_S65536x512_1_0_0_1_n_n 128 rfl rfl c))
      | ⟨1, _⟩ => Fin.ext (dotD_rhs_1 _ _)
  rw [hl, hr]

/-- The flattened rows at (b·4096 + s, c) are the rows at (b, s, c): both sit at position (b·4096 + s)·128 + c. -/
private theorem rowsFlat_apply {α : Type} (x : S16x4096x128.Idx → α) (b : Fin 16) (s : Fin 4096) (c : Fin 128) :
    shapeCast S65536x128 x shapeCasts_S16x4096x128_S65536x128 (ix2 (flatRow b s) c) = x (ix3 b s c) :=
  shapeCast_apply _ _ (ix2 (flatRow b s) c) (ix3 b s c) (by
    rw [Shape.rowMajor_val_three, Shape.rowMajor_val_two]
    show (b.val * 4096 + s.val) * 128 + c.val = (4096 * b.val + s.val) * 128 + c.val
    omega)

/-- The [16, 4096, 4, 128] view at (b, s, h, j) is the [65536, 512] array at (b·4096 + s, 128 h + j): both sit at
    position (b·4096 + s)·512 + 128 h + j. -/
private theorem colsSplit_apply {α : Type} (x : S65536x512.Idx → α) (b : Fin 16) (s : Fin 4096) (h : Fin 4) (j : Fin 128) :
    shapeCast S16x4096x4x128 x shapeCasts_S65536x512_S16x4096x4x128 (ix4 b s h j) = x (ix2 (flatRow b s) (hk h j)) :=
  shapeCast_apply _ _ (ix4 b s h j) (ix2 (flatRow b s) (hk h j)) (by
    rw [Shape.rowMajor_val_two, Shape.rowMajor_val_four]
    show (4096 * b.val + s.val) * 512 + (128 * h.val + j.val) = ((b.val * 4096 + s.val) * 4 + h.val) * 128 + j.val
    omega)

/-- The bias broadcast to every row reads its column's entry. -/
private theorem biasRows_apply {α : Type} (x : S512.Idx → α) (r : Fin 65536) (k : Fin 512) :
    broadcastInDim S65536x512 ![0, 1] bcast_S1x512_S65536x512_0_1
      (broadcastInDim S1x512 ![1] bcast_S512_S1x512_1 x) (ix2 r k) = x (ix1 k) := by
  rw [broadcastInDim_apply _ bcast_S1x512_S65536x512_0_1 _ (ix2 r k) (ix2 0 k)
      (fun a => by match a with | ⟨0, _⟩ => rfl | ⟨1, _⟩ => rfl)]
  rw [broadcastInDim_apply _ bcast_S512_S1x512_1 _ (ix2 0 k) (ix1 k)
      (fun a => by match a with | ⟨0, _⟩ => rfl)]

/-- The projected row plus bias at (b, s, h, j): row (b, s) of the rows against column 128 h + j of the projection,
    plus the bias at that column. -/
theorem projected_apply (a0 : FVec Ideal S16x4096x128 .f32) (a2 : FVec Ideal S128x512 .f32) (a4 : FVec Ideal S512 .f32)
    (b : Fin 16) (s : Fin 4096) (h : Fin 4) (j : Fin 128) :
    projected (F := Ideal) a0 a2 a4 (ix4 b s h j) = (∑ c : Fin 128, cV a0 b s c * cW a2 c (hk h j)) + cB a4 (hk h j) := by
  unfold projected
  refine (colsSplit_apply _ b s h j).trans ?_
  rw [addf_apply, dotRows_apply, biasRows_apply]
  refine congrArg (· + a4 (ix1 (hk h j))) (Finset.sum_congr rfl fun c _ => ?_)
  rw [rowsFlat_apply]
  rfl

/-! ## The logits

The head vectors [1, 4, 128] are broadcast over graphs and rows, multiplied into the projected rows, summed over the
128 features from zero, and passed through the leaky ReLU: x where x ≥ 0, else the slope times x. -/

/-- The sum over the last axis from the zero word, at (b, s, h): the sum over the 128 features. -/
private theorem headSum_apply (y : FVec Ideal S16x4096x4x128 .f32) (b : Fin 16) (s : Fin 4096) (h : Fin 4) :
    Host.reduceAdd (F := Ideal) y (constant (F := Ideal) S_ .f32 0x00000000#32) reducesTo_S16x4096x4x128_S16x4096x4_d3 h_S_ (ix3 b s h)
      = ∑ j : Fin 128, y (ix4 b s h j) := by
  rw [hostReduceAdd_apply,
    Ideal.hostReduceAdd_single _ (by decide : S16x4096x4x128.Reduces [3] S16x4096x4),
    constant_apply, Ideal.ofBits_zero_f32, zero_add]
  refine Finset.sum_congr rfl fun j _ => congrArg y ?_
  funext a
  match a with
  | ⟨0, _⟩ => rfl
  | ⟨1, _⟩ => rfl
  | ⟨2, _⟩ => rfl
  | ⟨3, _⟩ => rfl

/-- The head vectors broadcast over graphs and rows read head h, feature j. -/
private theorem headRows_apply {α : Type} (x : S1x4x128.Idx → α) (b : Fin 16) (s : Fin 4096) (h : Fin 4) (j : Fin 128) :
    broadcastInDim S16x4096x4x128 ![0, 1, 2, 3] bcast_S1x1x4x128_S16x4096x4x128_0_1_2_3
      (broadcastInDim S1x1x4x128 ![1, 2, 3] bcast_S1x4x128_S1x1x4x128_1_2_3 x) (ix4 b s h j) = x (ix3 0 h j) := by
  rw [broadcastInDim_apply _ bcast_S1x1x4x128_S16x4096x4x128_0_1_2_3 _ (ix4 b s h j) (ix4 0 0 h j)
      (fun a => by match a with | ⟨0, _⟩ => rfl | ⟨1, _⟩ => rfl | ⟨2, _⟩ => rfl | ⟨3, _⟩ => rfl)]
  rw [broadcastInDim_apply _ bcast_S1x4x128_S1x1x4x128_1_2_3 _ (ix4 0 0 h j) (ix3 0 h j)
      (fun a => by match a with | ⟨0, _⟩ => rfl | ⟨1, _⟩ => rfl | ⟨2, _⟩ => rfl)]

/-- The logit after the leaky ReLU at (b, s, h): the head vector of h against the projected row (b, s, h), kept where
    it is at least zero and scaled by the slope elsewhere. -/
theorem logits_apply (v11 : FVec Ideal S16x4096x4x128 .f32) (a3 : FVec Ideal S1x4x128 .f32) (b : Fin 16) (s : Fin 4096) (h : Fin 4) :
    logits (F := Ideal) v11 a3 (ix3 b s h) = lreluR (∑ j : Fin 128, cT a3 h j * v11 (ix4 b s h j)) := by
  unfold logits
  rw [select_apply, cmpf_apply, Ideal.cmpf_def, mulf_apply, headSum_apply,
    broadcastInDim_scalar_apply, broadcastInDim_scalar_apply, constant_apply, Ideal.ofBits_zero_f32]
  have hsum : (∑ j : Fin 128, mulf (broadcastInDim S16x4096x4x128 ![0, 1, 2, 3] bcast_S1x1x4x128_S16x4096x4x128_0_1_2_3
      (broadcastInDim S1x1x4x128 ![1, 2, 3] bcast_S1x4x128_S1x1x4x128_1_2_3 a3)) v11 (ix4 b s h j))
      = ∑ j : Fin 128, cT a3 h j * v11 (ix4 b s h j) :=
    Finset.sum_congr rfl fun j _ => by rw [mulf_apply, headRows_apply]; rfl
  rw [hsum]
  rfl

end Cert.ReferenceIdeal.RefValue

end
-- ==== Proof.RefReadB.lean ====
/-
  The second half of the reference read at an index: the softmax weights and the pooled sum, each through a segment sum.
-/
import proofs.«149397_g68547678044319_fold_wed_c4_656_4_alg».proof.Proof.RefTerm
import proofs.«149397_g68547678044319_fold_wed_c4_656_4_alg».proof.Proof.Spec
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Cert.Attn

/-! ## The segment ids -/

/-- A word below sixteen reads back as itself when taken signed. -/
private theorem toInt_ofNat_lt16 : ∀ b : Fin 16, (BitVec.ofNat 32 b.val).toInt = (b.val : Int) := by decide

/-- Row r of the flattened rows belongs to graph r / 4096: the iota over the sixteen graphs, repeated along the
    4096 rows of each, read in row-major order. -/
private theorem segIds_apply (r : Fin 65536) : segIds (ix2 r 0) = BitVec.ofNat 32 (r.val / 4096) := by
  unfold segIds
  refine (broadcastInDim_apply _ _ _ (ix2 r 0) (ix1 r) ?_).trans ?_
  · intro a; match a with | ⟨0, _⟩ => rfl
  refine (shapeCast_apply _ _ (ix1 r)
    (ix2 (⟨r.val / 4096, by have := r.isLt; omega⟩ : Fin 16) (⟨r.val % 4096, Nat.mod_lt _ (by norm_num)⟩ : Fin 4096)) ?_).trans ?_
  · rw [Shape.rowMajor_val_two, Shape.rowMajor_val_one]
    show r.val / 4096 * 4096 + r.val % 4096 = r.val
    omega
  refine (broadcastInDim_apply _ _ _ _ (ix1 (⟨r.val / 4096, by have := r.isLt; omega⟩ : Fin 16)) ?_).trans ?_
  · intro a; match a with | ⟨0, _⟩ => rfl
  rfl

/-- The same, signed: graph b for the rows b·4096 + s. -/
private theorem segIds_toInt (b : Fin 16) (s : Fin 4096) :
    (segIds (ix2 (⟨b.val * 4096 + s.val, by have := b.isLt; have := s.isLt; omega⟩ : Fin 65536) 0)).toInt = (b.val : Int) := by
  rw [segIds_apply]
  have e : (b.val * 4096 + s.val) / 4096 = b.val := by have := s.isLt; omega
  show (BitVec.ofNat 32 ((b.val * 4096 + s.val) / 4096)).toInt = _
  rw [e]; exact toInt_ofNat_lt16 b

/-! ## Where an update lands -/

/-- The [65536, 4] update (r, h) lands at (graph of row r, h): the start index is the row's segment id on the graph
    axis and nothing on the head axis, the window coordinate is the head. -/
private theorem landing4 (idx : IVec S65536x1 32) (r : Fin 65536) (h : Fin 4) (b : Fin 16)
    (hidx : (idx (ix2 r 0)).toInt = (b.val : Int)) :
    scatter_S16x4_S65536x1_S65536x4_1_0_0_1.resultIdx? (ix2 r h) idx = some (ix2 b h) := by
  have hs0 : scatter_S16x4_S65536x1_S65536x4_1_0_0_1.start (ix2 r h) idx (0 : Fin 2) = (b.val : Int) := by
    unfold ScatterDims.start
    rw [dif_pos (show (0 : Fin 2) ∈ scatter_S16x4_S65536x1_S65536x4_1_0_0_1.scatterDimsToOperandDims from
      List.mem_singleton.mpr rfl), ← hidx]
    congr 2
    funext a; refine Fin.ext ?_
    match a with
    | ⟨0, _⟩ => rfl
    | ⟨1, _⟩ => rfl
  have hs1 : scatter_S16x4_S65536x1_S65536x4_1_0_0_1.start (ix2 r h) idx (1 : Fin 2) = 0 := by
    unfold ScatterDims.start
    rw [dif_neg (show ¬ (1 : Fin 2) ∈ scatter_S16x4_S65536x1_S65536x4_1_0_0_1.scatterDimsToOperandDims by decide)]
  have hw0 : scatter_S16x4_S65536x1_S65536x4_1_0_0_1.window (ix2 r h) (0 : Fin 2) = 0 := by
    unfold ScatterDims.window
    rw [dif_neg (show ¬ (0 : Fin 2) ∈ scatter_S16x4_S65536x1_S65536x4_1_0_0_1.sKept by decide)]
  have hw1 : scatter_S16x4_S65536x1_S65536x4_1_0_0_1.window (ix2 r h) (1 : Fin 2) = h.val := by
    unfold ScatterDims.window
    rw [dif_pos (show (1 : Fin 2) ∈ scatter_S16x4_S65536x1_S65536x4_1_0_0_1.sKept by decide)]
    rfl
  unfold ScatterDims.resultIdx?
  rw [dif_pos]
  · congr 1
    funext a; refine Fin.ext ?_
    match a with
    | ⟨0, _⟩ =>
      show (scatter_S16x4_S65536x1_S65536x4_1_0_0_1.start (ix2 r h) idx (0 : Fin 2)
        + scatter_S16x4_S65536x1_S65536x4_1_0_0_1.window (ix2 r h) (0 : Fin 2)).toNat = b.val
      rw [hs0, hw0]; omega
    | ⟨1, _⟩ =>
      show (scatter_S16x4_S65536x1_S65536x4_1_0_0_1.start (ix2 r h) idx (1 : Fin 2)
        + scatter_S16x4_S65536x1_S65536x4_1_0_0_1.window (ix2 r h) (1 : Fin 2)).toNat = h.val
      rw [hs1, hw1]; omega
  · intro a
    match a with
    | ⟨0, _⟩ =>
      show 0 ≤ scatter_S16x4_S65536x1_S65536x4_1_0_0_1.start (ix2 r h) idx (0 : Fin 2)
          + scatter_S16x4_S65536x1_S65536x4_1_0_0_1.window (ix2 r h) (0 : Fin 2)
        ∧ scatter_S16x4_S65536x1_S65536x4_1_0_0_1.start (ix2 r h) idx (0 : Fin 2)
          + scatter_S16x4_S65536x1_S65536x4_1_0_0_1.window (ix2 r h) (0 : Fin 2) < (16 : Nat)
      rw [hs0, hw0]; have := b.isLt; omega
    | ⟨1, _⟩ =>
      show 0 ≤ scatter_S16x4_S65536x1_S65536x4_1_0_0_1.start (ix2 r h) idx (1 : Fin 2)
          + scatter_S16x4_S65536x1_S65536x4_1_0_0_1.window (ix2 r h) (1 : Fin 2)
        ∧ scatter_S16x4_S65536x1_S65536x4_1_0_0_1.start (ix2 r h) idx (1 : Fin 2)
          + scatter_S16x4_S65536x1_S65536x4_1_0_0_1.window (ix2 r h) (1 : Fin 2) < (4 : Nat)
      rw [hs1, hw1]; have := h.isLt; omega

/-- The segment sum of a [65536, 4] array over the sixteen graphs from zero: graph b, head h collects the rows
    b·4096 + s. An update (r, h') lands on (r / 4096, h'), so the updates landing on (b, h) are (b·4096 + s, h). -/
private theorem segsum4_apply (x0 : FVec Ideal S16x4 .f32) (upd : FVec Ideal S65536x4 .f32) (b : Fin 16) (h : Fin 4) :
    Host.scatterAdd scatter_S16x4_S65536x1_S65536x4_1_0_0_1 x0 segIds upd (ix2 b h)
      = x0 (ix2 b h) + ∑ s : Fin 4096,
          upd (ix2 (⟨b.val * 4096 + s.val, by have := b.isLt; have := s.isLt; omega⟩ : Fin 65536) h) := by
  show Ideal.hostScatterAdd scatter_S16x4_S65536x1_S65536x4_1_0_0_1 x0 segIds upd (ix2 b h) = _
  unfold Ideal.hostScatterAdd
  refine congrArg (fun t => x0 (ix2 b h) + t) ?_
  refine Finset.sum_nbij'
    (fun j => (⟨(j 0).val % 4096, Nat.mod_lt _ (by norm_num)⟩ : Fin 4096))
    (fun s => ix2 (⟨b.val * 4096 + s.val, by have := b.isLt; have := s.isLt; omega⟩ : Fin 65536) h) ?_ ?_ ?_ ?_ ?_
  · intro j _; exact Finset.mem_univ _
  · intro s _
    exact Finset.mem_filter.2 ⟨Finset.mem_univ _, landing4 segIds _ h b (segIds_toInt b s)⟩
  · intro j hj
    obtain ⟨r, h', rfl⟩ : ∃ (r : Fin 65536) (h' : Fin 4), j = ix2 r h' := ⟨j 0, j 1, eq_ix2 j⟩
    have hl := (Finset.mem_filter.1 hj).2
    have hr : (segIds (ix2 r 0)).toInt = ((⟨r.val / 4096, by have := r.isLt; omega⟩ : Fin 16).val : Int) := by
      rw [segIds_apply]; exact toInt_ofNat_lt16 ⟨r.val / 4096, by have := r.isLt; omega⟩
    rw [landing4 segIds r h' _ hr] at hl
    have e := Option.some.inj hl
    have e0 : r.val / 4096 = b.val := congrArg Fin.val (congrFun e (0 : Fin 2))
    have e1 : h' = h := congrFun e (1 : Fin 2)
    subst e1
    have er : (⟨b.val * 4096 + r.val % 4096, by have := b.isLt; omega⟩ : Fin 65536) = r := Fin.ext (by
      show b.val * 4096 + r.val % 4096 = r.val
      omega)
    show ix2 (⟨b.val * 4096 + r.val % 4096, _⟩ : Fin 65536) h' = ix2 r h'
    rw [er]
  · intro s _
    refine Fin.ext ?_
    show (b.val * 4096 + s.val) % 4096 = s.val
    have := s.isLt; omega
  · intro j hj
    obtain ⟨r, h', rfl⟩ : ∃ (r : Fin 65536) (h' : Fin 4), j = ix2 r h' := ⟨j 0, j 1, eq_ix2 j⟩
    have hl := (Finset.mem_filter.1 hj).2
    have hr : (segIds (ix2 r 0)).toInt = ((⟨r.val / 4096, by have := r.isLt; omega⟩ : Fin 16).val : Int) := by
      rw [segIds_apply]; exact toInt_ofNat_lt16 ⟨r.val / 4096, by have := r.isLt; omega⟩
    rw [landing4 segIds r h' _ hr] at hl
    have e := Option.some.inj hl
    have e0 : r.val / 4096 = b.val := congrArg Fin.val (congrFun e (0 : Fin 2))
    have e1 : h' = h := congrFun e (1 : Fin 2)
    subst e1
    have er : (⟨b.val * 4096 + r.val % 4096, by have := b.isLt; omega⟩ : Fin 65536) = r := Fin.ext (by
      show b.val * 4096 + r.val % 4096 = r.val
      omega)
    show upd (ix2 r h') = upd (ix2 (⟨b.val * 4096 + r.val % 4096, _⟩ : Fin 65536) h')
    rw [er]

/-- The [65536, 4, 128] update (r, h, j) lands at (graph of row r, h, j). -/
private theorem landing3 (idx : IVec S65536x1 32) (r : Fin 65536) (h : Fin 4) (j : Fin 128) (b : Fin 16)
    (hidx : (idx (ix2 r 0)).toInt = (b.val : Int)) :
    scatter_S16x4x128_S65536x1_S65536x4x128_12_0_0_1.resultIdx? (ix3 r h j) idx = some (ix3 b h j) := by
  have hs0 : scatter_S16x4x128_S65536x1_S65536x4x128_12_0_0_1.start (ix3 r h j) idx (0 : Fin 3) = (b.val : Int) := by
    unfold ScatterDims.start
    rw [dif_pos (show (0 : Fin 3) ∈ scatter_S16x4x128_S65536x1_S65536x4x128_12_0_0_1.scatterDimsToOperandDims from
      List.mem_singleton.mpr rfl), ← hidx]
    congr 2
    funext a; refine Fin.ext ?_
    match a with
    | ⟨0, _⟩ => rfl
    | ⟨1, _⟩ => rfl
  have hs1 : scatter_S16x4x128_S65536x1_S65536x4x128_12_0_0_1.start (ix3 r h j) idx (1 : Fin 3) = 0 := by
    unfold ScatterDims.start
    rw [dif_neg (show ¬ (1 : Fin 3) ∈ scatter_S16x4x128_S65536x1_S65536x4x128_12_0_0_1.scatterDimsToOperandDims by decide)]
  have hs2 : scatter_S16x4x128_S65536x1_S65536x4x128_12_0_0_1.start (ix3 r h j) idx (2 : Fin 3) = 0 := by
    unfold ScatterDims.start
    rw [dif_neg (show ¬ (2 : Fin 3) ∈ scatter_S16x4x128_S65536x1_S65536x4x128_12_0_0_1.scatterDimsToOperandDims by decide)]
  have hw0 : scatter_S16x4x128_S65536x1_S65536x4x128_12_0_0_1.window (ix3 r h j) (0 : Fin 3) = 0 := by
    unfold ScatterDims.window
    rw [dif_neg (show ¬ (0 : Fin 3) ∈ scatter_S16x4x128_S65536x1_S65536x4x128_12_0_0_1.sKept by decide)]
  have hw1 : scatter_S16x4x128_S65536x1_S65536x4x128_12_0_0_1.window (ix3 r h j) (1 : Fin 3) = h.val := by
    unfold ScatterDims.window
    rw [dif_pos (show (1 : Fin 3) ∈ scatter_S16x4x128_S65536x1_S65536x4x128_12_0_0_1.sKept by decide)]
    rfl
  have hw2 : scatter_S16x4x128_S65536x1_S65536x4x128_12_0_0_1.window (ix3 r h j) (2 : Fin 3) = j.val := by
    unfold ScatterDims.window
    rw [dif_pos (show (2 : Fin 3) ∈ scatter_S16x4x128_S65536x1_S65536x4x128_12_0_0_1.sKept by decide)]
    rfl
  unfold ScatterDims.resultIdx?
  rw [dif_pos]
  · congr 1
    funext a; refine Fin.ext ?_
    match a with
    | ⟨0, _⟩ =>
      show (scatter_S16x4x128_S65536x1_S65536x4x128_12_0_0_1.start (ix3 r h j) idx (0 : Fin 3)
        + scatter_S16x4x128_S65536x1_S65536x4x128_12_0_0_1.window (ix3 r h j) (0 : Fin 3)).toNat = b.val
      rw [hs0, hw0]; omega
    | ⟨1, _⟩ =>
      show (scatter_S16x4x128_S65536x1_S65536x4x128_12_0_0_1.start (ix3 r h j) idx (1 : Fin 3)
        + scatter_S16x4x128_S65536x1_S65536x4x128_12_0_0_1.window (ix3 r h j) (1 : Fin 3)).toNat = h.val
      rw [hs1, hw1]; omega
    | ⟨2, _⟩ =>
      show (scatter_S16x4x128_S65536x1_S65536x4x128_12_0_0_1.start (ix3 r h j) idx (2 : Fin 3)
        + scatter_S16x4x128_S65536x1_S65536x4x128_12_0_0_1.window (ix3 r h j) (2 : Fin 3)).toNat = j.val
      rw [hs2, hw2]; omega
  · intro a
    match a with
    | ⟨0, _⟩ =>
      show 0 ≤ scatter_S16x4x128_S65536x1_S65536x4x128_12_0_0_1.start (ix3 r h j) idx (0 : Fin 3)
          + scatter_S16x4x128_S65536x1_S65536x4x128_12_0_0_1.window (ix3 r h j) (0 : Fin 3)
        ∧ scatter_S16x4x128_S65536x1_S65536x4x128_12_0_0_1.start (ix3 r h j) idx (0 : Fin 3)
          + scatter_S16x4x128_S65536x1_S65536x4x128_12_0_0_1.window (ix3 r h j) (0 : Fin 3) < (16 : Nat)
      rw [hs0, hw0]; have := b.isLt; omega
    | ⟨1, _⟩ =>
      show 0 ≤ scatter_S16x4x128_S65536x1_S65536x4x128_12_0_0_1.start (ix3 r h j) idx (1 : Fin 3)
          + scatter_S16x4x128_S65536x1_S65536x4x128_12_0_0_1.window (ix3 r h j) (1 : Fin 3)
        ∧ scatter_S16x4x128_S65536x1_S65536x4x128_12_0_0_1.start (ix3 r h j) idx (1 : Fin 3)
          + scatter_S16x4x128_S65536x1_S65536x4x128_12_0_0_1.window (ix3 r h j) (1 : Fin 3) < (4 : Nat)
      rw [hs1, hw1]; have := h.isLt; omega
    | ⟨2, _⟩ =>
      show 0 ≤ scatter_S16x4x128_S65536x1_S65536x4x128_12_0_0_1.start (ix3 r h j) idx (2 : Fin 3)
          + scatter_S16x4x128_S65536x1_S65536x4x128_12_0_0_1.window (ix3 r h j) (2 : Fin 3)
        ∧ scatter_S16x4x128_S65536x1_S65536x4x128_12_0_0_1.start (ix3 r h j) idx (2 : Fin 3)
          + scatter_S16x4x128_S65536x1_S65536x4x128_12_0_0_1.window (ix3 r h j) (2 : Fin 3) < (128 : Nat)
      rw [hs2, hw2]; have := j.isLt; omega

/-- The segment sum of a [65536, 4, 128] array over the sixteen graphs: graph b at (h, j) collects the rows b·4096 + s. -/
private theorem segsum3_apply (x0 : FVec Ideal S16x4x128 .f32) (upd : FVec Ideal S65536x4x128 .f32) (b : Fin 16) (h : Fin 4)
    (j : Fin 128) :
    Host.scatterAdd scatter_S16x4x128_S65536x1_S65536x4x128_12_0_0_1 x0 segIds upd (ix3 b h j)
      = x0 (ix3 b h j) + ∑ s : Fin 4096,
          upd (ix3 (⟨b.val * 4096 + s.val, by have := b.isLt; have := s.isLt; omega⟩ : Fin 65536) h j) := by
  show Ideal.hostScatterAdd scatter_S16x4x128_S65536x1_S65536x4x128_12_0_0_1 x0 segIds upd (ix3 b h j) = _
  unfold Ideal.hostScatterAdd
  refine congrArg (fun t => x0 (ix3 b h j) + t) ?_
  refine Finset.sum_nbij'
    (fun i => (⟨(i 0).val % 4096, Nat.mod_lt _ (by norm_num)⟩ : Fin 4096))
    (fun s => ix3 (⟨b.val * 4096 + s.val, by have := b.isLt; have := s.isLt; omega⟩ : Fin 65536) h j) ?_ ?_ ?_ ?_ ?_
  · intro i _; exact Finset.mem_univ _
  · intro s _
    exact Finset.mem_filter.2 ⟨Finset.mem_univ _, landing3 segIds _ h j b (segIds_toInt b s)⟩
  · intro i hi
    obtain ⟨r, h', j', rfl⟩ : ∃ (r : Fin 65536) (h' : Fin 4) (j' : Fin 128), i = ix3 r h' j' := ⟨i 0, i 1, i 2, eq_ix3 i⟩
    have hl := (Finset.mem_filter.1 hi).2
    have hr : (segIds (ix2 r 0)).toInt = ((⟨r.val / 4096, by have := r.isLt; omega⟩ : Fin 16).val : Int) := by
      rw [segIds_apply]; exact toInt_ofNat_lt16 ⟨r.val / 4096, by have := r.isLt; omega⟩
    rw [landing3 segIds r h' j' _ hr] at hl
    have e := Option.some.inj hl
    have e0 : r.val / 4096 = b.val := congrArg Fin.val (congrFun e (0 : Fin 3))
    have e1 : h' = h := congrFun e (1 : Fin 3)
    have e2 : j' = j := congrFun e (2 : Fin 3)
    subst e1; subst e2
    have er : (⟨b.val * 4096 + r.val % 4096, by have := b.isLt; omega⟩ : Fin 65536) = r := Fin.ext (by
      show b.val * 4096 + r.val % 4096 = r.val
      omega)
    show ix3 (⟨b.val * 4096 + r.val % 4096, _⟩ : Fin 65536) h' j' = ix3 r h' j'
    rw [er]
  · intro s _
    refine Fin.ext ?_
    show (b.val * 4096 + s.val) % 4096 = s.val
    have := s.isLt; omega
  · intro i hi
    obtain ⟨r, h', j', rfl⟩ : ∃ (r : Fin 65536) (h' : Fin 4) (j' : Fin 128), i = ix3 r h' j' := ⟨i 0, i 1, i 2, eq_ix3 i⟩
    have hl := (Finset.mem_filter.1 hi).2
    have hr : (segIds (ix2 r 0)).toInt = ((⟨r.val / 4096, by have := r.isLt; omega⟩ : Fin 16).val : Int) := by
      rw [segIds_apply]; exact toInt_ofNat_lt16 ⟨r.val / 4096, by have := r.isLt; omega⟩
    rw [landing3 segIds r h' j' _ hr] at hl
    have e := Option.some.inj hl
    have e0 : r.val / 4096 = b.val := congrArg Fin.val (congrFun e (0 : Fin 3))
    have e1 : h' = h := congrFun e (1 : Fin 3)
    have e2 : j' = j := congrFun e (2 : Fin 3)
    subst e1; subst e2
    have er : (⟨b.val * 4096 + r.val % 4096, by have := b.isLt; omega⟩ : Fin 65536) = r := Fin.ext (by
      show b.val * 4096 + r.val % 4096 = r.val
      omega)
    show upd (ix3 r h' j') = upd (ix3 (⟨b.val * 4096 + r.val % 4096, _⟩ : Fin 65536) h' j')
    rw [er]

/-! ## The layout operations at an index -/

/-- The masked select at (b, s, h): the row's mask bit chooses between the array and the scalar. -/
private theorem maskedFill_apply (v5 : IVec S16x4096 1) (x : FVec Ideal S16x4096x4 .f32) (fill : FVec Ideal S_ .f32)
    (b : Fin 16) (s : Fin 4096) (h : Fin 4) :
    maskedFill v5 x fill (ix3 b s h) = Scalar.select (v5 (ix2 b s)) (x (ix3 b s h)) (fill ix0) := by
  have h1 : broadcastInDim S16x4096x4 ![0, 1, 2] bcast_S16x4096x1_S16x4096x4_0_1_2
      (broadcastInDim S16x4096x1 ![0, 1] bcast_S16x4096_S16x4096x1_0_1 v5) (ix3 b s h) = v5 (ix2 b s) := by
    refine (broadcastInDim_apply _ _ _ (ix3 b s h) (ix3 b s (0 : Fin 1)) ?_).trans ?_
    · intro a
      match a with
      | ⟨0, _⟩ => rfl
      | ⟨1, _⟩ => rfl
      | ⟨2, _⟩ => rfl
    refine (broadcastInDim_apply _ _ _ (ix3 b s (0 : Fin 1)) (ix2 b s) ?_).trans rfl
    intro a
    match a with
    | ⟨0, _⟩ => rfl
    | ⟨1, _⟩ => rfl
  have h2 : broadcastInDim S16x4096x4 ![] bcast_S_S16x4096x4 fill (ix3 b s h) = fill ix0 :=
    broadcastInDim_scalar_apply _ _ _
  show Scalar.select (broadcastInDim S16x4096x4 ![0, 1, 2] bcast_S16x4096x1_S16x4096x4_0_1_2
      (broadcastInDim S16x4096x1 ![0, 1] bcast_S16x4096_S16x4096x1_0_1 v5) (ix3 b s h)) (x (ix3 b s h))
      (broadcastInDim S16x4096x4 ![] bcast_S_S16x4096x4 fill (ix3 b s h)) = _
  rw [h1, h2]

/-- A per-graph, per-head value repeated along the rows reads its (b, h) entry at (b, s, h). -/
private theorem perGraph_apply (x : FVec Ideal S16x4 .f32) (b : Fin 16) (s : Fin 4096) (h : Fin 4) :
    broadcastInDim S16x4096x4 ![0, 1, 2] bcast_S16x1x4_S16x4096x4_0_1_2
      (broadcastInDim S16x1x4 ![0, 2] bcast_S16x4_S16x1x4_0_2 x) (ix3 b s h) = x (ix2 b h) := by
  refine (broadcastInDim_apply _ _ _ (ix3 b s h) (ix3 b (0 : Fin 1) h) ?_).trans ?_
  · intro a
    match a with
    | ⟨0, _⟩ => rfl
    | ⟨1, _⟩ => rfl
    | ⟨2, _⟩ => rfl
  refine (broadcastInDim_apply _ _ _ (ix3 b (0 : Fin 1) h) (ix2 b h) ?_).trans rfl
  intro a
  match a with
  | ⟨0, _⟩ => rfl
  | ⟨1, _⟩ => rfl

/-- Row b·4096 + s of the flattened [65536, 4] array is row s of graph b. -/
private theorem flat4_apply (x : FVec Ideal S16x4096x4 .f32) (b : Fin 16) (s : Fin 4096) (h : Fin 4) :
    shapeCast S65536x4 x shapeCasts_S16x4096x4_S65536x4
      (ix2 (⟨b.val * 4096 + s.val, by have := b.isLt; have := s.isLt; omega⟩ : Fin 65536) h) = x (ix3 b s h) := by
  refine shapeCast_apply _ _ _ (ix3 b s h) ?_
  rw [Shape.rowMajor_val_three, Shape.rowMajor_val_two]
  show (b.val * 4096 + s.val) * 4 + h.val = (b.val * 4096 + s.val) * 4 + h.val
  rfl

/-- Row b·4096 + s of the flattened [65536, 4, 128] array is row s of graph b. -/
private theorem flat3_apply (x : FVec Ideal S16x4096x4x128 .f32) (b : Fin 16) (s : Fin 4096) (h : Fin 4) (j : Fin 128) :
    shapeCast S65536x4x128 x shapeCasts_S16x4096x4x128_S65536x4x128
      (ix3 (⟨b.val * 4096 + s.val, by have := b.isLt; have := s.isLt; omega⟩ : Fin 65536) h j) = x (ix4 b s h j) := by
  refine shapeCast_apply _ _ _ (ix4 b s h j) ?_
  rw [Shape.rowMajor_val_four, Shape.rowMajor_val_three]
  show ((b.val * 4096 + s.val) * 4 + h.val) * 128 + j.val = ((b.val * 4096 + s.val) * 4 + h.val) * 128 + j.val
  rfl

/-! ## The masked maximum -/

/-- The host's maximum over the row axis from minus infinity, at (b, h): the fold of max over the 4096 rows. -/
private theorem rowmax_apply (x : FVec Ideal S16x4096x4 .f32) (b : Fin 16) (h : Fin 4) :
    Host.reduce FloatOps.maximumf x (constant (F := Ideal) S_ .f32 0xFF800000#32) reducesTo_S16x4096x4_S16x4_d1 h_S_ (ix2 b h)
      = (Finset.univ : Finset (Fin 4096)).fold max NI (fun s => x (ix3 b s h)) := by
  have hR : S16x4096x4.Reduces [1] S16x4 := by decide
  have hl : ∀ s : Fin 4096, hR.lift (ix2 b h) s = ix3 b s h := by
    intro s; funext a; refine Fin.ext ?_
    match a with
    | ⟨0, _⟩ => rfl
    | ⟨1, _⟩ => rfl
    | ⟨2, _⟩ => rfl
  have hf : (fun s : Fin 4096 => x (hR.lift (ix2 b h) s)) = fun s : Fin 4096 => x (ix3 b s h) :=
    funext fun s => congrArg x (hl s)
  refine (Host.reduce_eq_fold_single FloatOps.maximumf x _ reducesTo_S16x4096x4_S16x4_d1 hR h_S_ (ix2 b h)).trans ?_
  show (Finset.univ : Finset (Fin 4096)).fold max NI (fun s : Fin 4096 => x (hR.lift (ix2 b h) s)) = _
  rw [hf]

/-! ## The softmax weights -/

/-- The host's exponential at an index is the exponential of the element. -/
private theorem hostExp_apply {s : Shape} {φ : FTy} (x : FVec Ideal s φ) (i : s.Idx) : Host.exp x i = Ideal.exp (x i) := rfl

/-- The reference's masked exponentials [16, 4096, 4]: on the valid rows exp (logit - masked maximum of the graph and
    head), zero elsewhere. -/
private def maskedExp (v5 : IVec S16x4096 1) (v16 : FVec Ideal S16x4096x4 .f32) : FVec Ideal S16x4096x4 .f32 :=
  maskedFill v5 (Host.exp (subf v16
    (broadcastInDim S16x4096x4 ![0, 1, 2] bcast_S16x1x4_S16x4096x4_0_1_2
      (broadcastInDim S16x1x4 ![0, 2] bcast_S16x4_S16x1x4_0_2
        (Host.reduce FloatOps.maximumf (maskedFill v5 v16 (constant S_ .f32 0xFF800000#32)) (constant S_ .f32 0xFF800000#32)
          reducesTo_S16x4096x4_S16x4_d1 h_S_))))) (constant S_ .f32 0x00000000#32)

/-- They are the specification's: the maximum is the fold of max from minus infinity over the graph's rows with the
    invalid ones at minus infinity, and the fill of the second select is the zero word. -/
private theorem maskedExp_apply (v5 : IVec S16x4096 1) (v16 : FVec Ideal S16x4096x4 .f32) (b : Fin 16) (s : Fin 4096) (h : Fin 4) :
    maskedExp v5 v16 (ix3 b s h) = ex (fun s' => v16 (ix3 b s' h)) (fun s' => v5 (ix2 b s')) s := by
  have hm : (fun s' : Fin 4096 => maskedFill v5 v16 (constant S_ .f32 0xFF800000#32) (ix3 b s' h))
      = fun s' : Fin 4096 => Scalar.select (v5 (ix2 b s')) (v16 (ix3 b s' h)) NI :=
    funext fun s' => (maskedFill_apply v5 v16 _ b s' h).trans rfl
  unfold maskedExp ex amax
  rw [maskedFill_apply, hostExp_apply, subf_apply, perGraph_apply, rowmax_apply, hm, constant_apply, Ideal.ofBits_zero_f32]
/-- The softmax weight at (b, s, h): the masked maximum over the graph's rows, the masked exponentials, and their sum
    over the graph (the segment sum lands row r of the flattened [65536, 4] array on graph r / 4096). -/
theorem weights_apply (v5 : IVec S16x4096 1) (v16 : FVec Ideal S16x4096x4 .f32) (b : Fin 16) (s : Fin 4096) (h : Fin 4) :
    weights (F := Ideal) v5 v16 (ix3 b s h) = prob (fun s' => v16 (ix3 b s' h)) (fun s' => v5 (ix2 b s')) s := by
  have hw : weights (F := Ideal) v5 v16 = Host.divf (maskedExp v5 v16)
      (broadcastInDim S16x4096x4 ![0, 1, 2] bcast_S16x1x4_S16x4096x4_0_1_2
        (broadcastInDim S16x1x4 ![0, 2] bcast_S16x4_S16x1x4_0_2
          (Host.scatterAdd scatter_S16x4_S65536x1_S65536x4_1_0_0_1
            (broadcastInDim S16x4 ![] bcast_S_S16x4 (constant S_ .f32 0x00000000#32)) segIds
            (shapeCast S65536x4 (maskedExp v5 v16) shapeCasts_S16x4096x4_S65536x4)))) := rfl
  rw [hw, hostDivf_apply, perGraph_apply, segsum4_apply, broadcastInDim_scalar_apply, constant_apply,
    Ideal.ofBits_zero_f32, zero_add]
  unfold prob
  exact congrArg₂ Ideal.div (maskedExp_apply v5 v16 b s h)
    (Finset.sum_congr rfl fun s' _ => (flat4_apply _ b s' h).trans (maskedExp_apply v5 v16 b s' h))

/-! ## The pooled sum -/

/-- A per-row, per-head weight repeated along the 128 features reads its (b, s, h) entry at (b, s, h, j). -/
private theorem perRow_apply (x : FVec Ideal S16x4096x4 .f32) (b : Fin 16) (s : Fin 4096) (h : Fin 4) (j : Fin 128) :
    broadcastInDim S16x4096x4x128 ![0, 1, 2, 3] bcast_S16x4096x4x1_S16x4096x4x128_0_1_2_3
      (broadcastInDim S16x4096x4x1 ![0, 1, 2] bcast_S16x4096x4_S16x4096x4x1_0_1_2 x) (ix4 b s h j) = x (ix3 b s h) := by
  refine (broadcastInDim_apply _ _ _ (ix4 b s h j) (ix4 b s h (0 : Fin 1)) ?_).trans ?_
  · intro a
    match a with
    | ⟨0, _⟩ => rfl
    | ⟨1, _⟩ => rfl
    | ⟨2, _⟩ => rfl
    | ⟨3, _⟩ => rfl
  refine (broadcastInDim_apply _ _ _ (ix4 b s h (0 : Fin 1)) (ix3 b s h) ?_).trans rfl
  intro a
  match a with
  | ⟨0, _⟩ => rfl
  | ⟨1, _⟩ => rfl
  | ⟨2, _⟩ => rfl

/-- The pooled result at graph b, column k = 128 h + j: the sum over the graph's rows of projected row times weight. -/
theorem pooled_apply (v11 : FVec Ideal S16x4096x4x128 .f32) (v35 : FVec Ideal S16x4096x4 .f32) (b : Fin 16) (k : Fin 512) :
    pooled (F := Ideal) v11 v35 (ix2 b k)
      = ∑ s : Fin 4096, v11 (ix4 b s ⟨k.val / 128, by have := k.isLt; omega⟩ ⟨k.val % 128, Nat.mod_lt _ (by norm_num)⟩)
          * v35 (ix3 b s ⟨k.val / 128, by have := k.isLt; omega⟩) := by
  have hp : pooled (F := Ideal) v11 v35 = shapeCast S16x512
      (Host.scatterAdd scatter_S16x4x128_S65536x1_S65536x4x128_12_0_0_1
        (broadcastInDim S16x4x128 ![] bcast_S_S16x4x128 (constant S_ .f32 0x00000000#32)) segIds
        (shapeCast S65536x4x128
          (mulf v11 (broadcastInDim S16x4096x4x128 ![0, 1, 2, 3] bcast_S16x4096x4x1_S16x4096x4x128_0_1_2_3
            (broadcastInDim S16x4096x4x1 ![0, 1, 2] bcast_S16x4096x4_S16x4096x4x1_0_1_2 v35)))
          shapeCasts_S16x4096x4x128_S65536x4x128)) shapeCasts_S16x4x128_S16x512 := rfl
  rw [hp]
  refine (shapeCast_apply _ _ (ix2 b k)
    (ix3 b (⟨k.val / 128, by have := k.isLt; omega⟩ : Fin 4) (⟨k.val % 128, Nat.mod_lt _ (by norm_num)⟩ : Fin 128)) ?_).trans ?_
  · rw [Shape.rowMajor_val_three, Shape.rowMajor_val_two]
    show (b.val * 4 + k.val / 128) * 128 + k.val % 128 = b.val * 512 + k.val
    omega
  rw [segsum3_apply, broadcastInDim_scalar_apply, constant_apply, Ideal.ofBits_zero_f32, zero_add]
  refine Finset.sum_congr rfl fun s _ => ?_
  rw [flat3_apply, mulf_apply, perRow_apply]

end Cert.ReferenceIdeal.RefValue

end
-- ==== Proof.RefRead.lean ====
/-
  The reference's term read at an index: at graph b and column k it is the reference's arrangement of Spec.lean.
  The pooled sum runs over the graph's rows of projected row times softmax weight (RefReadB.lean); the projected
  row, the logits under the leaky ReLU and the row mask are read in RefReadA.lean; column k is feature k % 128
  of head k / 128.
-/
import proofs.«149397_g68547678044319_fold_wed_c4_656_4_alg».proof.Proof.RefReadA
import proofs.«149397_g68547678044319_fold_wed_c4_656_4_alg».proof.Proof.RefReadB

noncomputable section

namespace Cert.ReferenceIdeal.RefValue

open Cert.ReferenceIdeal Cert.ReferenceIdeal.Gen Idealize.ShloMosaic Idealize.ShloMosaic.ValueIdx Cert.Attn

/-- Column k is feature k % 128 of head k / 128. -/
theorem hk_div_mod (k : Fin 512) :
    hk ⟨k.val / 128, by have := k.isLt; omega⟩ ⟨k.val % 128, Nat.mod_lt _ (by norm_num)⟩ = k :=
  Fin.ext (by show 128 * (k.val / 128) + k.val % 128 = k.val; omega)

/-- The reference's result at graph b, column k, on the extended reals. -/
theorem refTerm_apply (a0 : FVec Ideal S16x4096x128 .f32) (a1 : IVec S16 32) (a2 : FVec Ideal S128x512 .f32)
    (a3 : FVec Ideal S1x4x128 .f32) (a4 : FVec Ideal S512 .f32) (b : Fin 16) (k : Fin 512) :
    refTerm (F := Ideal) a0 a1 a2 a3 a4 (ix2 b k) = outR (cV a0) (cG a1) (cW a2) (cT a3) (cB a4) b k := by
  unfold refTerm outR
  rw [pooled_apply]
  refine Finset.sum_congr rfl fun s _ => ?_
  rw [projected_apply, weights_apply, hk_div_mod]
  congr 2
  · funext s'
    rw [logits_apply]
    unfold logitR
    congr 1
    refine Finset.sum_congr rfl fun j _ => ?_
    rw [projected_apply]
  · funext s'
    exact rowMask_apply a1 b s'

end Cert.ReferenceIdeal.RefValue

end
-- ==== Proof.Algebra.lean ====
/-
  The kernel's and the reference's attention pooling are the same function of finite inputs when no graph is
  empty. Everything is moved to the real numbers, where sums distribute: the inputs are reals by hypothesis, the
  logits are then reals, the leaky ReLU of a real is a real, the largest valid logit is a real because row 0 is
  valid, the exponentials are nonnegative reals with a positive total, and so the softmax weights are reals
  that sum to one. Over the reals the two arrangements differ by an exchange of finite sums.
-/
import proofs.«149397_g68547678044319_fold_wed_c4_656_4_alg».proof.Proof.Spec

noncomputable section

namespace Cert.Attn

open Idealize.ShloMosaic

/-! ## The two constants and the mask -/

/-- The fill value is minus infinity: sign bit set, exponent all ones, fraction zero. -/
private theorem NI_eq : NI = ⊥ := by
  simp [NI, Ideal.ofBits, Ideal.ieee]

/-- The slope is a real number: its exponent field is 124, not 255, so the pattern is a finite value. -/
private theorem C02_real : ∃ r : ℝ, C02 = (r : EReal) := by
  unfold C02 Ideal.ofBits Ideal.ieee
  simp only []
  rw [if_neg (by decide)]
  split_ifs <;> exact ⟨_, rfl⟩

/-- Row 0 is valid for a graph of length at least one: 0 < g as signed words. -/
private theorem valid_zero (g : BitVec 32) (hg : 1 ≤ g.toInt) : valid g 0 = 1#1 := by
  unfold valid IntOp.cmpi
  simp only []
  have : (BitVec.ofNat 32 (0 : Fin 4096).val).slt g = true := by
    rw [BitVec.slt_iff_toInt_lt]
    simp
    omega
  rw [this]; rfl

/-- The coercion from the reals to the extended reals commutes with finite sums. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The logits over the reals -/

/-- The block-diagonal arrangement of real head vectors: row k carries feature k % 128 of head k / 128 in column
    k / 128 and zero in the other three columns. -/
private def tmatR (t : Fin 4 → Fin 128 → ℝ) (k : Fin 512) (h : Fin 4) : ℝ :=
  if k.val / 128 = h.val then t ⟨k.val / 128, by have := k.isLt; omega⟩ ⟨k.val % 128, Nat.mod_lt _ (by norm_num)⟩ else 0

/-- The 512 columns are the pairs (head, feature): k = 128 h + j with h = k / 128 and j = k % 128. -/
private def hkEquiv : Fin 4 × Fin 128 ≃ Fin 512 where
  toFun p := hk p.1 p.2
  invFun k := (⟨k.val / 128, by have := k.isLt; omega⟩, ⟨k.val % 128, Nat.mod_lt _ (by norm_num)⟩)
  left_inv := by
    rintro ⟨h, j⟩
    have := h.isLt; have := j.isLt
    ext
    · show (128 * h.val + j.val) / 128 = h.val
      omega
    · show (128 * h.val + j.val) % 128 = j.val
      omega
  right_inv := by
    intro k
    ext
    show 128 * (k.val / 128) + k.val % 128 = k.val
    omega

/-- At column 128 h' + j the block-diagonal matrix holds t h j in column h = h' and zero elsewhere. -/
private theorem tmatR_hk (t : Fin 4 → Fin 128 → ℝ) (h' h : Fin 4) (j : Fin 128) :
    tmatR t (hk h' j) h = if h' = h then t h j else 0 := by
  have := h'.isLt; have := j.isLt
  have h1 : (hk h' j).val / 128 = h'.val := by show (128 * h'.val + j.val) / 128 = h'.val; omega
  have h2 : (hk h' j).val % 128 = j.val := by show (128 * h'.val + j.val) % 128 = j.val; omega
  unfold tmatR
  by_cases hh : h' = h
  · subst hh
    rw [if_pos h1, if_pos rfl]
    congr 1 <;> exact Fin.ext (by assumption)
  · rw [if_neg hh, if_neg]
    intro hc; exact hh (Fin.ext (h1.symm.trans hc))

/-- Contracting 512 columns against column h of the block-diagonal matrix keeps only the 128 columns of head h:
    Σ_k f k · T k h = Σ_j f (128 h + j) · t h j. -/
private theorem sum_tmatR (f : Fin 512 → ℝ) (t : Fin 4 → Fin 128 → ℝ) (h : Fin 4) :
    ∑ k, f k * tmatR t k h = ∑ j, f (hk h j) * t h j := by
  rw [← hkEquiv.sum_comp, Fintype.sum_prod_type]
  have : ∀ h' : Fin 4, ∑ j : Fin 128, f (hkEquiv (h', j)) * tmatR t (hkEquiv (h', j)) h
      = if h' = h then ∑ j, f (hk h j) * t h j else 0 := by
    intro h'
    by_cases hh : h' = h
    · subst hh; rw [if_pos rfl]
      refine Finset.sum_congr rfl fun j _ => ?_
      show f (hk h' j) * tmatR t (hk h' j) h' = _
      rw [tmatR_hk, if_pos rfl]
    · rw [if_neg hh]
      refine Finset.sum_eq_zero fun j _ => ?_
      show f (hk h' j) * tmatR t (hk h' j) h = _
      rw [tmatR_hk, if_neg hh, mul_zero]
  simp only [this]
  rw [Finset.sum_ite_eq' Finset.univ h]
  simp

/-- Over the reals the kernel's logit v (W T) + bs T at head h is the reference's t_h · (v W + bs) restricted to
    the columns of head h: contract with the block-diagonal matrix, then exchange the two finite sums. -/
private theorem logit_real (v : Fin 128 → ℝ) (w : Fin 128 → Fin 512 → ℝ) (t : Fin 4 → Fin 128 → ℝ)
    (β : Fin 512 → ℝ) (h : Fin 4) :
    (∑ c : Fin 128, v c * ∑ k : Fin 512, w c k * tmatR t k h) + ∑ k : Fin 512, β k * tmatR t k h
    = ∑ j : Fin 128, t h j * ((∑ c : Fin 128, v c * w c (hk h j)) + β (hk h j)) := by
  simp only [sum_tmatR]
  simp only [Finset.mul_sum, mul_add, Finset.sum_add_distrib]
  rw [Finset.sum_comm]
  congr 1
  · refine Finset.sum_congr rfl fun j _ => Finset.sum_congr rfl fun c _ => ?_
    ring
  · refine Finset.sum_congr rfl fun j _ => ?_
    ring

/-- The block-diagonal matrix of real head vectors, read in the extended reals. -/
private theorem tmat_coe (tw : Fin 4 → Fin 128 → EReal) (t : Fin 4 → Fin 128 → ℝ)
    (ht : ∀ h j, tw h j = (t h j : EReal)) (k : Fin 512) (h : Fin 4) :
    tmat tw k h = (tmatR t k h : EReal) := by
  unfold tmat tmatR
  split_ifs
  · exact ht _ _
  · exact EReal.coe_zero.symm

/-- On real inputs the kernel's logit is the coercion of the real expression of the same shape. -/
private theorem logitT_coe (Vb : Fin 4096 → Fin 128 → EReal) (W : Fin 128 → Fin 512 → EReal)
    (tw : Fin 4 → Fin 128 → EReal) (bs : Fin 512 → EReal) (v : Fin 4096 → Fin 128 → ℝ) (w : Fin 128 → Fin 512 → ℝ)
    (t : Fin 4 → Fin 128 → ℝ) (β : Fin 512 → ℝ)
    (hV : ∀ s c, Vb s c = (v s c : EReal)) (hW : ∀ c k, W c k = (w c k : EReal))
    (ht : ∀ h j, tw h j = (t h j : EReal)) (hb : ∀ k, bs k = (β k : EReal)) (s : Fin 4096) (h : Fin 4) :
    logitT Vb W (tmat tw) bs s h
      = (((∑ c : Fin 128, v s c * ∑ k : Fin 512, w c k * tmatR t k h) + ∑ k : Fin 512, β k * tmatR t k h : ℝ) : EReal) := by
  unfold logitT
  simp only [hV, hW, hb, tmat_coe tw t ht, EReal.coe_add, EReal.coe_mul, coe_sum]

/-- On real inputs the reference's logit is the coercion of the real expression of the same shape. -/
private theorem logitR_coe (V : Fin 16 → Fin 4096 → Fin 128 → EReal) (W : Fin 128 → Fin 512 → EReal)
    (tw : Fin 4 → Fin 128 → EReal) (bs : Fin 512 → EReal) (b : Fin 16) (v : Fin 4096 → Fin 128 → ℝ)
    (w : Fin 128 → Fin 512 → ℝ) (t : Fin 4 → Fin 128 → ℝ) (β : Fin 512 → ℝ)
    (hV : ∀ s c, V b s c = (v s c : EReal)) (hW : ∀ c k, W c k = (w c k : EReal))
    (ht : ∀ h j, tw h j = (t h j : EReal)) (hb : ∀ k, bs k = (β k : EReal)) (s : Fin 4096) (h : Fin 4) :
    logitR V W tw bs b s h
      = ((∑ j : Fin 128, t h j * ((∑ c : Fin 128, v s c * w c (hk h j)) + β (hk h j)) : ℝ) : EReal) := by
  unfold logitR
  simp only [hV, hW, hb, ht, EReal.coe_add, EReal.coe_mul, coe_sum]

/-! ## The leaky ReLU -/

/-- A one-bit word made from a Boolean is 1 exactly when the Boolean is true. -/
private theorem ofBool_eq_one_iff (b : Bool) : BitVec.ofBool b = (1 : BitVec 1) ↔ b = true := by
  cases b <;> decide

/-- The two leaky ReLUs agree everywhere: they choose different branches only at x = 0, where the one gives
    slope · 0 = 0 and the other gives x = 0. -/
private theorem lreluK_eq_lreluR (x : EReal) : lreluK x = lreluR x := by
  unfold lreluK lreluR Scalar.select Ideal.cmp
  simp only [ofBool_eq_one_iff, decide_eq_true_eq]
  by_cases h1 : (0 : EReal) < x
  · rw [if_pos h1, if_pos h1.le]
  · rw [if_neg h1]
    by_cases h2 : (0 : EReal) ≤ x
    · have : x = 0 := le_antisymm (not_lt.mp h1) h2
      rw [if_pos h2, this, mul_zero]
    · rw [if_neg h2]

/-- The leaky ReLU of a real is a real: either the real itself or the real slope times it. -/
private theorem lreluR_coe (x : ℝ) : ∃ r : ℝ, lreluR (x : EReal) = (r : EReal) := by
  obtain ⟨c, hc⟩ := C02_real
  unfold lreluR Scalar.select
  split_ifs
  · exact ⟨x, rfl⟩
  · exact ⟨c * x, by rw [hc, EReal.coe_mul]⟩

/-! ## The softmax of real logits over a mask with a valid row -/

section softmax
variable (l : Fin 4096 → EReal) (m : Fin 4096 → BitVec 1) (lr : Fin 4096 → ℝ)

/-- The largest valid logit is a real: it is below plus infinity because every folded value is a real or minus
    infinity, and above minus infinity because it dominates the real logit of the valid row s0. -/
private theorem amax_real (hl : ∀ s, l s = (lr s : EReal)) (s0 : Fin 4096) (hm : m s0 = 1#1) :
    ∃ M : ℝ, amax l m = (M : EReal) := by
  have hne_top : amax l m ≠ ⊤ := by
    apply ne_of_lt
    unfold amax
    rw [Finset.fold_max_lt]
    refine ⟨by rw [NI_eq]; exact bot_lt_top, fun s _ => ?_⟩
    unfold Scalar.select
    split_ifs
    · rw [hl]; exact EReal.coe_lt_top _
    · rw [NI_eq]; exact bot_lt_top
  have hne_bot : amax l m ≠ ⊥ := by
    apply ne_of_gt
    have : ((lr s0 : ℝ) : EReal) ≤ amax l m := by
      unfold amax
      rw [Finset.le_fold_max]
      right
      refine ⟨s0, Finset.mem_univ _, ?_⟩
      unfold Scalar.select
      rw [if_pos (show m s0 = 1 from hm), hl]
    exact lt_of_lt_of_le (EReal.bot_lt_coe _) this
  exact ⟨(amax l m).toReal, (EReal.coe_toReal hne_top hne_bot).symm⟩

/-- The real exponentials: exp (logit - M) on the valid rows, zero on the others. -/
private def exR (M : ℝ) (s : Fin 4096) : ℝ := if m s = 1 then Real.exp (lr s - M) else 0

/-- With real logits and a real maximum M, each masked exponential is the coercion of the real one. -/
private theorem ex_coe (hl : ∀ s, l s = (lr s : EReal)) (M : ℝ) (hM : amax l m = (M : EReal)) (s : Fin 4096) :
    ex l m s = (exR m lr M s : EReal) := by
  unfold ex exR Scalar.select
  split_ifs
  · rw [hl, hM, ← EReal.coe_sub, Ideal.exp_coe]
  · exact EReal.coe_zero.symm

/-- The softmax weights of real logits over a mask with at least one valid row are real numbers that sum to one:
    the exponentials are nonnegative, the one at the valid row is positive, so the total D is a positive real,
    each weight is e s / D, and Σ_s e s / D = D / D = 1. -/
private theorem prob_real (hl : ∀ s, ∃ r : ℝ, l s = (r : EReal)) (s0 : Fin 4096) (hm : m s0 = 1#1) :
    ∃ p : Fin 4096 → ℝ, (∀ s, prob l m s = (p s : EReal)) ∧ ∑ s, p s = 1 := by
  choose lr hlr using hl
  obtain ⟨M, hM⟩ := amax_real l m lr hlr s0 hm
  have hnn : ∀ s, 0 ≤ exR m lr M s := by
    intro s; unfold exR; split_ifs
    · exact (Real.exp_pos _).le
    · exact le_rfl
  have hpos0 : 0 < exR m lr M s0 := by
    unfold exR; rw [if_pos (show m s0 = 1 from hm)]; exact Real.exp_pos _
  have hD : 0 < ∑ s, exR m lr M s :=
    Finset.sum_pos' (fun s _ => hnn s) ⟨s0, Finset.mem_univ _, hpos0⟩
  refine ⟨fun s => exR m lr M s / ∑ s', exR m lr M s', fun s => ?_, ?_⟩
  · unfold prob
    simp only [ex_coe l m lr hlr M hM]
    rw [← coe_sum, Ideal.div_coe hD.ne', ← EReal.coe_mul, mul_one_div]
  · rw [← Finset.sum_div, div_self hD.ne']

end softmax

/-! ## Pooling before or after the projection -/

/-- For weights p that sum to one, pooling the rows and then projecting and adding the bias equals pooling the
    projected rows with their bias: Σ_c (Σ_s p s · v s c) · w c + β = Σ_s (Σ_c v s c · w c + β) · p s. -/
private theorem pool_real {S C : Type} [Fintype S] [Fintype C] (p : S → ℝ) (v : S → C → ℝ) (w : C → ℝ) (β : ℝ)
    (hp : ∑ s, p s = 1) :
    (∑ c, (∑ s, p s * v s c) * w c) + β = ∑ s, ((∑ c, v s c * w c) + β) * p s := by
  have hR : ∀ s, ((∑ c, v s c * w c) + β) * p s = (∑ c, p s * v s c * w c) + β * p s := by
    intro s
    rw [add_mul, Finset.sum_mul]
    congr 1
    refine Finset.sum_congr rfl fun c _ => ?_
    ring
  simp only [hR, Finset.sum_add_distrib]
  rw [← Finset.mul_sum, hp, mul_one, Finset.sum_comm]
  simp only [Finset.sum_mul]

/-- The kernel and the reference compute the same value at every graph b and column k, given real inputs and
    lengths at least one. With h = k / 128: the kernel's sum over the four heads keeps only head h; the two logit
    functions of head h coincide (real distributivity, and the two leaky ReLUs are one function), so the two
    softmax weight vectors are one vector p of reals with Σ p = 1; what remains is
    Σ_c (Σ_s p s · V b s c) · W c k + bs k = Σ_s (Σ_c V b s c · W c k + bs k) · p s over the reals. -/
theorem outK_eq_outR (V : Fin 16 → Fin 4096 → Fin 128 → EReal) (gs : Fin 16 → BitVec 32) (W : Fin 128 → Fin 512 → EReal)
    (tw : Fin 4 → Fin 128 → EReal) (bs : Fin 512 → EReal)
    (hV : ∀ b s c, ∃ r : ℝ, V b s c = (r : EReal)) (hW : ∀ c k, ∃ r : ℝ, W c k = (r : EReal))
    (htw : ∀ h j, ∃ r : ℝ, tw h j = (r : EReal)) (hbs : ∀ k, ∃ r : ℝ, bs k = (r : EReal))
    (hgs : ∀ b, 1 ≤ (gs b).toInt) (b : Fin 16) (k : Fin 512) :
    outK V gs W tw bs b k = outR V gs W tw bs b k := by
  choose v hv using hV
  choose w hw using hW
  choose t ht using htw
  choose β hβ using hbs
  have hlog : ∀ s h, logitT (V b) W (tmat tw) bs s h = logitR V W tw bs b s h := by
    intro s h
    rw [logitT_coe (V b) W tw bs (v b) w t β (hv b) hw ht hβ, logitR_coe V W tw bs b (v b) w t β (hv b) hw ht hβ,
      logit_real]
  have hfun : ∀ h, (fun s' => lreluK (logitT (V b) W (tmat tw) bs s' h))
      = (fun s' => lreluR (logitR V W tw bs b s' h)) := by
    intro h; funext s'; rw [lreluK_eq_lreluR, hlog]
  have hlreal : ∀ h s, ∃ r : ℝ, lreluR (logitR V W tw bs b s h) = (r : EReal) := by
    intro h s
    rw [logitR_coe V W tw bs b (v b) w t β (hv b) hw ht hβ]
    exact lreluR_coe _
  obtain ⟨p, hp, hsum⟩ := prob_real _ (valid (gs b)) (hlreal ⟨k.val / 128, by have := k.isLt; omega⟩) 0
    (valid_zero _ (hgs b))
  unfold outK blockOut outR
  rw [Finset.sum_eq_single (⟨k.val / 128, by have := k.isLt; omega⟩ : Fin 4)
    (fun h _ hne => if_neg (fun hc => hne (Fin.ext hc.symm))) (fun hh => absurd (Finset.mem_univ _) hh)]
  rw [if_pos rfl, hfun]
  simp only [hp, hv b, hw, hβ, ← EReal.coe_mul, ← coe_sum, ← EReal.coe_add]
  exact congrArg _ (pool_real p (v b) (fun c => w c k) (β k) hsum)

end Cert.Attn

end
-- ==== Proof.PreDecode.lean ====
/-
  What the precondition says of the arrays: every float entry is a real number and every graph length is at least one.

  The precondition is one bit: the conjunction of five "for all" statements, each itself a conjunction over an array,
  folded from the bit 1. Four of them say |x| < +∞ entrywise for a float array, the fifth says 1 ≤ n entrywise (signed)
  for the array of graph lengths. A conjunction that is 1 has both sides 1; a folded conjunction that is 1 has every
  member 1. So each entrywise comparison holds at every index, and it remains to read one comparison:
    * over the extended reals, |x| is max x (-x), and the word 0x7F800000 is +∞; max x (-x) < +∞ fails at x = +∞
      (the maximum is +∞) and at x = -∞ (then -x = +∞), so x is a real number;
    * the signed comparison n ≥ 1 of 32-bit words is the comparison of their signed values, and the word 1 has value 1.
-/
import proofs.«149397_g68547678044319_fold_wed_c4_656_4_alg».proof.Proof.Gen.Pre_finite_inputs
import Idealize.ShloMosaic.PureOps.Ideal
import Idealize.ShloMosaic.Lib.ReduceAll
import Idealize.ShloMosaic.Lib.ValueIdx

noncomputable section

namespace Cert.Pre_finite_inputs.Decode

open Cert.Pre_finite_inputs Idealize.ShloMosaic

/-- A truth value written as a one-bit word is the word 1 exactly when it is true. -/
private theorem ofBool_one (b : Bool) : BitVec.ofBool b = 1#1 ↔ b = true := by cases b <;> decide

/-- The single-precision word with exponent field all ones and fraction zero, sign clear, is +∞. -/
private theorem inf_bits : Ideal.ofBits .f32 0x7F800000#32 = (⊤ : EReal) := by
  simp [Ideal.ofBits, Ideal.ieee]

/-- An extended real whose absolute value max x (-x) lies strictly below +∞ is a real number: at x = +∞ the maximum
    is +∞, and at x = -∞ the negation is +∞. -/
private theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- One entry of the comparison |x| < +∞ (the bound a scalar spread over the whole shape): where its bit is 1, the
    entry of x is a real number. -/
private theorem elt_real {s : Shape} (hb : S_.BroadcastsInDim s (![] : Fin 0 → Fin s.rank)) (x : FVec Ideal s .f32)
    (i : s.Idx)
    (h : cmpf .olt (Host.absf x) (broadcastInDim s ![] hb (constant (F := Ideal) S_ .f32 0x7F800000#32)) i = 1#1) :
    ∃ r : ℝ, x i = (r : EReal) := by
  have h' : Ideal.cmp .olt (max (x i) (-(x i))) (Ideal.ofBits .f32 0x7F800000#32) = 1#1 := h
  rw [inf_bits] at h'
  exact real_of_abs_lt_top _ h'

/-- One entry of the signed comparison n ≥ 1 (the 1 a scalar spread over the sixteen lengths): where its bit is 1,
    the signed value of the entry is at least 1. -/
private theorem elt_ge_one (hb : S_.BroadcastsInDim S16 (![] : Fin 0 → Fin S16.rank)) (a : IVec S16 32) (i : S16.Idx)
    (h : cmpi .sge a (broadcastInDim S16 ![] hb (constantI S_ 32 1#32)) i = 1#1) : 1 ≤ (a i).toInt := by
  have h' : IntOp.cmpi .sge (a i) 1#32 = 1#1 := h
  simp only [IntOp.cmpi, BitVec.sle, ofBool_one, decide_eq_true_eq] at h'
  have e1 : (1#32 : BitVec 32).toInt = 1 := by decide
  rwa [e1] at h'

/-- The precondition bit is ((((A₀ ∧ A₂) ∧ A₃) ∧ A₄) ∧ L), with A_k = "every entry of the k-th float array has
    |x| < +∞" and L = "every graph length is ≥ 1 as a signed word". If it is 1 then all five are 1, each of them at
    every index, so every float entry is a real number and every graph length has signed value at least 1. -/
theorem pre_decode (a0 : FVec Ideal S16x4096x128 .f32) (a1 : IVec S16 32) (a2 : FVec Ideal S128x512 .f32)
    (a3 : FVec Ideal S1x4x128 .f32) (a4 : FVec Ideal S512 .f32)
    (h : Cert.Pre_finite_inputs.fn (F := Ideal) a0 a1 a2 a3 a4 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, 1 ≤ (a1 i).toInt) := by
  -- the rank-zero shape has a single index, so a conjunction folded into it ranges over the whole array
  haveI : Subsingleton S_.Idx := ⟨fun a b => funext fun d => d.elim0⟩
  have h0 := congrFun h ValueIdx.ix0
  dsimp only [fn, fn_part1] at h0
  -- split the four binary conjunctions, outermost first
  obtain ⟨h1, hL⟩ := IntOp.andi_eq_one.1 h0
  obtain ⟨h2, hA4⟩ := IntOp.andi_eq_one.1 h1
  obtain ⟨h3, hA3⟩ := IntOp.andi_eq_one.1 h2
  obtain ⟨hA0, hA2⟩ := IntOp.andi_eq_one.1 h3
  -- each folded conjunction gives its comparison at every index; read the comparison there
  refine ⟨fun i => ?_, fun i => ?_, fun i => ?_, fun i => ?_, fun i => ?_⟩
  · exact elt_real _ a0 i (Host.reduce_andi_all _ _ _ _ _ hA0 i)
  · exact elt_real _ a2 i (Host.reduce_andi_all _ _ _ _ _ hA2 i)
  · exact elt_real _ a3 i (Host.reduce_andi_all _ _ _ _ _ hA3 i)
  · exact elt_real _ a4 i (Host.reduce_andi_all _ _ _ _ _ hA4 i)
  · exact elt_ge_one _ a1 i (Host.reduce_andi_all _ _ _ _ _ hL i)

end Cert.Pre_finite_inputs.Decode

end
-- ==== Proof.lean ====
/-
  The certificate of the multi-head attention pooling kernel against its jnp reference, over the extended reals.
  Sixteen graphs of up to 4096 rows of 128 features and four heads: per graph and head, logits of the rows, a
  leaky ReLU, a softmax over the rows below the graph's length, and the softmax-weighted sum of the projected
  rows plus bias. The reference projects every row to 512 columns first; the kernel folds the head vectors into
  the projection, pools the raw rows, projects once, and adds the bias once — equal because the softmax weights
  of a non-empty graph sum to one. The precondition asks finite float inputs and lengths of at least one (an
  empty graph makes the reference's softmax 0/0).
  The three frames: the kernel's two are the generated frame certificates; the reference's is its run with the
  result dropped. The idealization rewrote nothing. The value claim joins the kernel's result array, read off its
  frame run (KernelValue.lean), to the reference's composed term read at an index (RefRun.lean, RefRead.lean) by
  the algebra of Algebra.lean under the facts decoded from the precondition (PreDecode.lean).
-/
import proofs.«149397_g68547678044319_fold_wed_c4_656_4_alg».proof.Defs
import proofs.«149397_g68547678044319_fold_wed_c4_656_4_alg».proof.Proof.Gen.Kernel
import proofs.«149397_g68547678044319_fold_wed_c4_656_4_alg».proof.Proof.Gen.Kernel.Skeleton
import proofs.«149397_g68547678044319_fold_wed_c4_656_4_alg».proof.Proof.Gen.Kernel.Launch
import proofs.«149397_g68547678044319_fold_wed_c4_656_4_alg».proof.Proof.Gen.Kernel.Points
import proofs.«149397_g68547678044319_fold_wed_c4_656_4_alg».proof.Proof.Gen.Kernel.Frame
import proofs.«149397_g68547678044319_fold_wed_c4_656_4_alg».proof.Proof.Gen.KernelIdeal
import proofs.«149397_g68547678044319_fold_wed_c4_656_4_alg».proof.Proof.Gen.KernelIdeal.Skeleton
import proofs.«149397_g68547678044319_fold_wed_c4_656_4_alg».proof.Proof.Gen.KernelIdeal.Launch
import proofs.«149397_g68547678044319_fold_wed_c4_656_4_alg».proof.Proof.Gen.KernelIdeal.Points
import proofs.«149397_g68547678044319_fold_wed_c4_656_4_alg».proof.Proof.Gen.KernelIdeal.Frame
import proofs.«149397_g68547678044319_fold_wed_c4_656_4_alg».proof.Proof.Gen.ReferenceIdeal
import proofs.«149397_g68547678044319_fold_wed_c4_656_4_alg».proof.Proof.Gen.Pre_finite_inputs
import proofs.«149397_g68547678044319_fold_wed_c4_656_4_alg».proof.Proof.KernelValue
import proofs.«149397_g68547678044319_fold_wed_c4_656_4_alg».proof.Proof.RefRun
import proofs.«149397_g68547678044319_fold_wed_c4_656_4_alg».proof.Proof.RefRead
import proofs.«149397_g68547678044319_fold_wed_c4_656_4_alg».proof.Proof.Algebra
import proofs.«149397_g68547678044319_fold_wed_c4_656_4_alg».proof.Proof.PreDecode
import Idealize.ShloMosaic.Adequacy
import Idealize.ShloMosaic.Init

noncomputable section

namespace Cert.Proof

open Idealize.ShloMosaic Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the same [16, 512] array: entry (b, k) is the kernel's arrangement on one side and the
    reference's on the other, equal on finite inputs with every graph non-empty. -/
theorem algebraic : Cert.algebraic_KernelIdeal_ReferenceIdeal := by
  intro m ρ m' ρ' hpre hagree
  refine ⟨fun c => Cert.KernelIdeal.KValue.res m c, Cert.KernelIdeal.KValue.run m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2]
  obtain ⟨h0, h2, h3, h4, h1⟩ := Cert.Pre_finite_inputs.Decode.pre_decode _ _ _ _ _ (hpre c)
  funext i
  obtain ⟨b, k, rfl⟩ : ∃ (b : Fin 16) (k : Fin 512), i = ix2 b k := ⟨i 0, i 1, eq_ix2 i⟩
  rw [Cert.ReferenceIdeal.RefValue.refTerm_apply]
  exact (Cert.Attn.outK_eq_outR _ _ _ _ _ (fun b s c' => h0 _) (fun c' k' => h2 _) (fun h j => h3 _) (fun k' => h4 _)
    (fun b' => h1 _) b k).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
